-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096x4096 .f32) (main_arg3 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S512x512 : Shape := ⟨2, ![512, 512]⟩
abbrev S512x1 : Shape := ⟨2, ![512, 1]⟩
abbrev S1x512 : Shape := ⟨2, ![1, 512]⟩

abbrev nBuf : Space → Nat
  | .hbm => 15
  | .vmem => 29
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S1x4096, .f32⟩
  | .hbm, ⟨9, _⟩ => ⟨S4096x4096, .bf16⟩
  | .hbm, ⟨10, _⟩ => ⟨S4096x4096, .bf16⟩
  | .hbm, ⟨11, _⟩ => ⟨S1x4096, .f32⟩
  | .hbm, ⟨12, _⟩ => ⟨S4096x4096, .bf16⟩
  | .hbm, ⟨13, _⟩ => ⟨S4096x4096, .bf16⟩
  | .hbm, ⟨14, _⟩ => ⟨S4096x4096, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x1, .f32⟩
  | .local _ .vmem, ⟨7, _⟩ => ⟨S512x1, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S1x512, .f32⟩
  | .local _ .vmem, ⟨25, _⟩ => ⟨S1x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![8, 8, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 8, 8], ![false, false, false]⟩

def k2_cond2 (i : grid2.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  reducesTo_S4096x4096_S4096_d1 : S4096x4096.ReducesTo [1] S4096
  h_S_ : 0 < S_.numel
  shapeCasts_S4096_S4096x1 : S4096.ShapeCasts S4096x1
  shapeCasts_S4096_S1x4096 : S4096.ShapeCasts S1x4096
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  packedbf16_S512x512_S512x512_0_0 : (Rect.unit (s := S512x512) ![0, 0] S512x512.size inb_S512x512_S512x512_0_0).PackedRows (EltTy.packing .bf16)
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .bf16 = 32 ∨ (Rect.block (s := S4096x4096) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .bf16 = 32 ∨ (Rect.block (s := S4096x4096) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .bf16 = 32 ∨ (Rect.block (s := S4096x4096) S512x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .bf16 = 32 ∨ (Rect.block (s := S4096x4096) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x4096.size a
  hwx1_1 : ∀ i : grid1.Coords, EltTy.bits .bf16 = 32 ∨ (Rect.block (s := S4096x4096) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x4096.size a
  hwx1_2 : ∀ i : grid1.Coords, EltTy.bits .bf16 = 32 ∨ (Rect.block (s := S4096x4096) S512x512.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x4096.size a
  hwx2_0 : ∀ i : grid2.Coords, EltTy.bits .bf16 = 32 ∨ (Rect.block (s := S4096x4096) S512x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S4096x4096.size a
  hwx2_1 : ∀ i : grid2.Coords, EltTy.bits .bf16 = 32 ∨ (Rect.block (s := S4096x4096) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x4096.size a
  hwx2_2 : ∀ i : grid2.Coords, EltTy.bits .f32 = 32 ∨ (Rect.block (s := S1x4096) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S4096x4096.size a
  hwx2_3 : ∀ i : grid2.Coords, EltTy.bits .f32 = 32 ∨ (Rect.block (s := S4096x4096) S512x512.size (cc2_transform_3 i) (hinb2_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v4) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v7) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v8) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S1x4096, .f32⟩
  | .hbm, ⟨44, _⟩ => ⟨S4096x4096, .f32⟩
  | .hbm, ⟨45, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Bits.GramBody.lean ====
import proofs.«156051_j65481071410654_1_alg».proof.Proof.Gen.Kernel.Launch
import proofs.«156051_j65481071410654_1_alg».proof.Proof.Gen.Kernel.Skeleton
import proofs.«156051_j65481071410654_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Region 0 multiplies a 512×512 block of rows of the narrowed input by the transpose of another such block and adds
    the product to a 512×512 accumulator kept in scratch memory across the innermost grid axis: the accumulator is reset
    where that axis is at 0; where it is at 7 the squared distances are formed from the accumulator and the two blocks of
    row norms, and the kernel exp(−|w|·dist), narrowed, is stored into the output block. -/

/-- The innermost grid coordinate is 0: the accumulator is reset at this point. -/
abbrev atFirst (i : grid0.Coords) : Prop :=
  (Scalar.cmpi .ne (Scalar.extui (Scalar.cmpi .eq (BitVec.ofNat 32 (i 2).val) 0#32)) 0#32) = 1#1
/-- The innermost grid coordinate is 7: the output block is stored at this point. -/
abbrev atLast (i : grid0.Coords) : Prop := k0_cond2 i = 1#1

theorem atFirst_iff : ∀ t : Fin cfg0.N, atFirst (grid0.coords t) ↔ t.val % 8 = 0 :=
  (by decide +kernel : ∀ t : Fin grid0.N, atFirst (grid0.coords t) ↔ t.val % 8 = 0)
theorem atLast_iff : ∀ t : Fin cfg0.N, atLast (grid0.coords t) ↔ t.val % 8 = 7 :=
  (by decide +kernel : ∀ t : Fin grid0.N, atLast (grid0.coords t) ↔ t.val % 8 = 7)

set_option maxHeartbeats 1000000 in
/-- At a first point the accumulator, whatever it held, ends at the product of the two blocks added to zero. -/
theorem run_first (c : Dev nD) (E : Set ℕ) (i : grid0.Coords)
    (arg3 : Memref sig .tc .vmem S512x512 .bf16) (harg3 : arg3.IsWhole) (arg4 : Memref sig .tc .vmem S512x512 .bf16) (harg4 : arg4.IsWhole)
    (arg5 : Memref sig .tc .vmem S512x512 .f32) (harg5 : arg5.IsWhole) (arg6 : Memref sig .tc .vmem S512x1 .f32) (harg6 : arg6.IsWhole)
    (arg7 : Memref sig .tc .vmem S1x512 .f32) (harg7 : arg7.IsWhole) (arg8 : Memref sig .tc .vmem S512x512 .bf16) (harg8 : arg8.IsWhole)
    (arg9 : Memref sig .tc .vmem S512x512 .f32) (harg9 : arg9.IsWhole)
    (h1 : atFirst i) (h2 : ¬ atLast i) (a b : Vec F S512x512 .bf16) (K : PUnit → sProp 𝕄) :
    iprop(owns (c : Thread nD τ) arg3 fullShare a ∗ owns (c : Thread nD τ) arg4 fullShare b ∗ (∃ d, owns (c : Thread nD τ) arg9 fullShare d)
        ∗ (iprop(owns (c : Thread nD τ) arg3 fullShare a ∗ owns (c : Thread nD τ) arg4 fullShare b
            ∗ owns (c : Thread nD τ) arg9 fullShare (k0_pay2 a b (k0_pay1 (F := F)))) -∗ K ⟨⟩))
      ⊢ wp frame (wpE (defs₀ (F := F)) Variants.none c none) E (cc0__gram_kernel_fn i arg3 harg3 arg4 harg4 arg5 harg5 arg6 harg6 arg7 harg7 arg8 harg8 arg9 harg9) K := by
  simp only [cc0__gram_kernel_fn_eq_skeleton]; unfold cc0__gram_kernel_fn_skel
  unfold owns
  iintro ⟨⟨%f3, %hf3, H3⟩, ⟨%f4, %hf4, H4⟩, ⟨%d, %f9, -, H9⟩, Hk⟩
  obtain rfl := harg3.eq_unread hf3; obtain rfl := harg4.eq_unread hf4
  sl_exec (disch := first | exact h1 | exact h2)
  sl_step
  iapply Hk
  have hz : (![0, 0] : Fin S512x512.rank → ℕ) = fun _ => 0 := by funext a; fin_cases a <;> rfl
  isplitl [H3]
  · iexists _; isplitr; · ipureintro; exact hf3
    iexact H3
  isplitl [H4]
  · iexists _; isplitr; · ipureintro; exact hf4
    iexact H4
  iexists _; isplitr
  swap; · iexact H9
  ipureintro
  -- the accumulator is stored twice through the whole block: the later store decides the contents, and the value
  -- it adds to is the zero block read back from the earlier one
  sl_unfold_run_names
  rw [View.read_writes_eq_canon _ _ _ (View.cover_of_tiled _ S512x512.size (by rfl))]
  rw [View.canon_cons_unit_zero hz]
  simp only [View.readAt_eq_ld, harg3.read_unread, harg4.read_unread, View.ld_unit_zero (S := S512x512) hz,
    View.readCov_unit_zero (S := S512x512) _ hz]

set_option maxHeartbeats 1000000 in
/-- At a middle point the product of the two blocks is added to what the accumulator held. -/
theorem run_middle (c : Dev nD) (E : Set ℕ) (i : grid0.Coords)
    (arg3 : Memref sig .tc .vmem S512x512 .bf16) (harg3 : arg3.IsWhole) (arg4 : Memref sig .tc .vmem S512x512 .bf16) (harg4 : arg4.IsWhole)
    (arg5 : Memref sig .tc .vmem S512x512 .f32) (harg5 : arg5.IsWhole) (arg6 : Memref sig .tc .vmem S512x1 .f32) (harg6 : arg6.IsWhole)
    (arg7 : Memref sig .tc .vmem S1x512 .f32) (harg7 : arg7.IsWhole) (arg8 : Memref sig .tc .vmem S512x512 .bf16) (harg8 : arg8.IsWhole)
    (arg9 : Memref sig .tc .vmem S512x512 .f32) (harg9 : arg9.IsWhole)
    (h1 : ¬ atFirst i) (h2 : ¬ atLast i) (a b : Vec F S512x512 .bf16) (s : Vec F S512x512 .f32) (K : PUnit → sProp 𝕄) :
    iprop(owns (c : Thread nD τ) arg3 fullShare a ∗ owns (c : Thread nD τ) arg4 fullShare b ∗ owns (c : Thread nD τ) arg9 fullShare s
        ∗ (iprop(owns (c : Thread nD τ) arg3 fullShare a ∗ owns (c : Thread nD τ) arg4 fullShare b
            ∗ owns (c : Thread nD τ) arg9 fullShare (k0_pay2 a b s)) -∗ K ⟨⟩))
      ⊢ wp frame (wpE (defs₀ (F := F)) Variants.none c none) E (cc0__gram_kernel_fn i arg3 harg3 arg4 harg4 arg5 harg5 arg6 harg6 arg7 harg7 arg8 harg8 arg9 harg9) K := by
  simp only [cc0__gram_kernel_fn_eq_skeleton]; unfold cc0__gram_kernel_fn_skel
  unfold owns
  iintro ⟨⟨%f3, %hf3, H3⟩, ⟨%f4, %hf4, H4⟩, ⟨%f9, %hf9, H9⟩, Hk⟩
  obtain rfl := harg3.eq_unread hf3; obtain rfl := harg4.eq_unread hf4; obtain rfl := harg9.eq_unread hf9
  sl_exec (disch := first | exact h1 | exact h2)
  sl_step
  iapply Hk
  have hz : (![0, 0] : Fin S512x512.rank → ℕ) = fun _ => 0 := by funext a; fin_cases a <;> rfl
  isplitl [H3]
  · iexists _; isplitr; · ipureintro; exact hf3
    iexact H3
  isplitl [H4]
  · iexists _; isplitr; · ipureintro; exact hf4
    iexact H4
  iexists _; isplitr
  swap; · iexact H9
  ipureintro
  -- one store through the whole block leaves its payload, and each load through the whole block reads the contents
  sl_unfold_run_names
  rw [View.read_writes_eq_canon _ _ _ (View.cover_of_tiled _ S512x512.size (by rfl))]
  rw [View.canon_unit_zero hz]
  simp only [View.readAt_eq_ld, harg3.read_unread, harg4.read_unread, harg9.read_unread, View.ld_unit_zero (S := S512x512) hz]

set_option maxHeartbeats 1000000 in
/-- At a last point the product is added to the accumulator, and the output block is computed from the sum, the two
    blocks of row norms and the block of weights. -/
theorem run_last (c : Dev nD) (E : Set ℕ) (i : grid0.Coords)
    (arg3 : Memref sig .tc .vmem S512x512 .bf16) (harg3 : arg3.IsWhole) (arg4 : Memref sig .tc .vmem S512x512 .bf16) (harg4 : arg4.IsWhole)
    (arg5 : Memref sig .tc .vmem S512x512 .f32) (harg5 : arg5.IsWhole) (arg6 : Memref sig .tc .vmem S512x1 .f32) (harg6 : arg6.IsWhole)
    (arg7 : Memref sig .tc .vmem S1x512 .f32) (harg7 : arg7.IsWhole) (arg8 : Memref sig .tc .vmem S512x512 .bf16) (harg8 : arg8.IsWhole)
    (arg9 : Memref sig .tc .vmem S512x512 .f32) (harg9 : arg9.IsWhole)
    (h1 : ¬ atFirst i) (h2 : atLast i) (a b : Vec F S512x512 .bf16) (w : Vec F S512x512 .f32) (p : Vec F S512x1 .f32) (r : Vec F S1x512 .f32)
    (s : Vec F S512x512 .f32) (K : PUnit → sProp 𝕄) :
    iprop(owns (c : Thread nD τ) arg3 fullShare a ∗ owns (c : Thread nD τ) arg4 fullShare b ∗ owns (c : Thread nD τ) arg5 fullShare w ∗ owns (c : Thread nD τ) arg6 fullShare p ∗ owns (c : Thread nD τ) arg7 fullShare r
        ∗ (∃ d, owns (c : Thread nD τ) arg8 fullShare d) ∗ owns (c : Thread nD τ) arg9 fullShare s
        ∗ (iprop(owns (c : Thread nD τ) arg3 fullShare a ∗ owns (c : Thread nD τ) arg4 fullShare b ∗ owns (c : Thread nD τ) arg5 fullShare w ∗ owns (c : Thread nD τ) arg6 fullShare p ∗ owns (c : Thread nD τ) arg7 fullShare r
            ∗ owns (c : Thread nD τ) arg8 fullShare (k0_pay3 p r (k0_pay2 a b s) w)
            ∗ owns (c : Thread nD τ) arg9 fullShare (k0_pay2 a b s)) -∗ K ⟨⟩))
      ⊢ wp frame (wpE (defs₀ (F := F)) Variants.none c none) E (cc0__gram_kernel_fn i arg3 harg3 arg4 harg4 arg5 harg5 arg6 harg6 arg7 harg7 arg8 harg8 arg9 harg9) K := by
  simp only [cc0__gram_kernel_fn_eq_skeleton]; unfold cc0__gram_kernel_fn_skel
  unfold owns
  iintro ⟨⟨%f3, %hf3, H3⟩, ⟨%f4, %hf4, H4⟩, ⟨%f5, %hf5, H5⟩, ⟨%f6, %hf6, H6⟩, ⟨%f7, %hf7, H7⟩, ⟨%d, %f8, -, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg9.eq_unread hf9
  sl_exec (disch := first | exact h1 | exact h2)
  sl_step
  iapply Hk
  have hz : (![0, 0] : Fin S512x512.rank → ℕ) = fun _ => 0 := by funext a; fin_cases a <;> rfl
  have hzc : (![0, 0] : Fin S512x1.rank → ℕ) = fun _ => 0 := by funext a; fin_cases a <;> rfl
  have hzr : (![0, 0] : Fin S1x512.rank → ℕ) = fun _ => 0 := by funext a; fin_cases a <;> rfl
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    -- the output block holds the payload over the column and the row of norms, the accumulator read back after its
    -- store, and the weights
    sl_unfold_run_names
    rw [View.read_writes_eq_canon _ _ _ (View.cover_of_tiled _ S512x512.size (by rfl))]
    rw [View.canon_unit_zero hz]
    simp only [View.readAt_eq_ld, harg3.read_unread, harg4.read_unread, harg5.read_unread, harg6.read_unread,
      harg7.read_unread, harg9.read_unread, View.ld_unit_zero (S := S512x512) hz, View.ld_unit_zero (S := S512x1) hzc,
      View.ld_unit_zero (S := S1x512) hzr, View.readCov_unit_zero (S := S512x512) _ hz]
  iexists _; isplitr
  swap; · iexact H9
  ipureintro
  -- the accumulator holds the payload of its one store
  sl_unfold_run_names
  rw [View.read_writes_eq_canon _ _ _ (View.cover_of_tiled _ S512x512.size (by rfl))]
  rw [View.canon_unit_zero hz]
  simp only [View.readAt_eq_ld, harg3.read_unread, harg4.read_unread, harg9.read_unread, View.ld_unit_zero (S := S512x512) hz]

end Cert.Kernel.Gram

end
-- ==== Proof.Bits.GramData.lean ====
import proofs.«156051_j65481071410654_1_alg».proof.Proof.Bits.GramBody

set_option maxRecDepth 16384

noncomputable section

namespace Cert.Kernel.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Region 0, point by point: what the accumulator holds after each grid point, the region's proof data over the
    contents `V` its arrays hold when it is entered, and the obligation that the kernel body meets them. Two of the
    region's input windows read one array; each holds half of it. -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`: at a point whose innermost coordinate is 0 the product of the point's two blocks
    added to zero, elsewhere that product added to what the point before left. -/
def acc (c : Dev nD) : (n : ℕ) → n < cfg0.N → Vec F S512x512 .f32
  | 0, hn => k0_pay2 (iblk V c 0 ⟨0, hn⟩) (iblk V c 1 ⟨0, hn⟩) (k0_pay1 (F := F))
  | n + 1, hn =>
    if (n + 1) % 8 = 0 then k0_pay2 (iblk V c 0 ⟨n + 1, hn⟩) (iblk V c 1 ⟨n + 1, hn⟩) (k0_pay1 (F := F))
    else k0_pay2 (iblk V c 0 ⟨n + 1, hn⟩) (iblk V c 1 ⟨n + 1, hn⟩) (acc c n (Nat.lt_of_succ_lt hn))

theorem acc_first (c : Dev nD) (t : Fin cfg0.N) (h : t.val % 8 = 0) :
    acc V c t.val t.isLt = k0_pay2 (iblk V c 0 t) (iblk V c 1 t) (k0_pay1 (F := F)) := by
  obtain ⟨n, hn⟩ := t
  cases n with
  | zero => rfl
  | succ n => exact (if_pos h).trans rfl

theorem acc_next (c : Dev nD) (t : Fin cfg0.N) (h : t.val % 8 ≠ 0) :
    acc V c t.val t.isLt = k0_pay2 (iblk V c 0 t) (iblk V c 1 t) (acc V c (t.val - 1) (Nat.lt_of_le_of_lt (Nat.sub_le _ _) t.isLt)) := by
  obtain ⟨n, hn⟩ := t
  cases n with
  | zero => exact absurd (Nat.zero_mod _) h
  | succ n => exact (if_neg h).trans rfl

/-- The accumulator's memref: a whole scoped buffer of the kernel's own. -/
abbrev scM : Memref sig .tc .vmem S512x512 .f32 := Memref.whole cc0_scratch0

/-- The core's scoped buffers that are neither a staging buffer of region 0 nor its accumulator, each at some contents. -/
def Others (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The class invariant with the accumulator taken out. -/
theorem PhiA_eq (c : Dev nD) :
    (Pipeline.ΦA spec0 c : sProp 𝕄)
      = iprop(iprop((∃ d, owns (c : Thread nD τ) scM fullShare d) ∗ Others (F := F) c) ∗ (∃ r, prngReg c r)) := by
  unfold Pipeline.ΦA Pipeline.scopedRest Others
  rw [bigSep_erase (i := cc0_scratch0) (by decide)]
  simp only [scM, owns_whole]
  rfl

/-- The invariant before point `n`: before the first point the accumulator holds anything; afterwards what the point
    before left. -/
def Phi (c : Dev nD) : (n : ℕ) → n ≤ cfg0.N → sProp 𝕄
  | 0, _ => Pipeline.ΦA spec0 c
  | n + 1, hn => iprop(iprop(owns (c : Thread nD τ) scM fullShare (acc V c n hn) ∗ Others (F := F) c) ∗ (∃ r, prngReg c r))

/-- The proof data of region 0 on core `c`: the two windows that read the narrowed input hold a half of it each. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k0_pay3 (iblk V c 3 t) (iblk V c 4 t) (acc V c t.val t.isLt) (iblk V c 2 t)
  Φ t := Phi V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) :
    (dat V c).after 5 t = k0_pay3 (iblk V c 3 t) (iblk V c 4 t) (acc V c t.val t.isLt) (iblk V c 2 t) := by dsimp only [dat]

/-- Each input's current staging buffer holds its block at every point. -/
theorem before_0 (c : Dev nD) (t : Fin cfg0.N) (d) : (dat V c).before 0 t d = iblk V c 0 t := by
  exact ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t := by
  exact ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t := by
  exact ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t := by
  exact ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t := by
  exact ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! The invariant at a point, read off its position. -/

private theorem Phi_zero (c : Dev nD) (n : ℕ) (h : n ≤ cfg0.N) (hz : n = 0) : Phi V c n h = Pipeline.ΦA spec0 c := by
  subst hz; rfl

/-- Before a point that is not the first the accumulator holds what the point before left. -/
private theorem Phi_pos (c : Dev nD) (n : ℕ) (h : n ≤ cfg0.N) (hz : n ≠ 0) :
    Phi V c n h = iprop(iprop(owns (c : Thread nD τ) scM fullShare (acc V c (n - 1) (by omega)) ∗ Others (F := F) c) ∗ (∃ r, prngReg c r)) := by
  cases n with
  | zero => exact absurd rfl hz
  | succ n => rfl

private theorem Phi_at (c : Dev nD) (t : Fin cfg0.N) :
    (dat V c).Φ t.castSucc = Phi V c t.val (Nat.le_of_lt t.isLt) := by
  dsimp only [dat]; simp only [Fin.coe_castSucc]

/-! The output window is idle exactly off the last points of the innermost axis, and is written back only there. -/

private theorem idle5_of (t : Fin cfg0.N) (h : ¬ atLast (grid0.coords t)) : cfg0.idle 5 (cfg0.grid.coords t) = true := by
  show (!(k0_cond2 (grid0.coords t) == 1#1)) = true
  rw [Bool.not_eq_true', beq_eq_false_iff_ne]; exact h

private theorem live5_of (t : Fin cfg0.N) (h : atLast (grid0.coords t)) : cfg0.idle 5 (cfg0.grid.coords t) = false := by
  show (!(k0_cond2 (grid0.coords t) == 1#1)) = false
  rw [show k0_cond2 (grid0.coords t) = 1#1 from h]; rfl

private theorem noflush5_of (t : Fin cfg0.N) (h : t.val % 8 ≠ 7) : (cfg0.win 5).flush t = false :=
  Bool.eq_false_iff.mpr fun hf => h ((flush0_5 t).mp hf)

/-! What the body leaves in each window's current buffer: an input's block, as it found it; the output block at a last
    point. -/

private theorem leaves_0 (c : Dev nD) (t : Fin cfg0.N) :
    (dat V c).leavesExact 0 t = owns (c : Thread nD τ) (st0_0 t) fullShare (iblk V c 0 t) := by
  unfold Dat.leavesExact; rw [show cfg0.idle 0 (cfg0.grid.coords t) = false from rfl, after_0]
private theorem leaves_1 (c : Dev nD) (t : Fin cfg0.N) :
    (dat V c).leavesExact 1 t = owns (c : Thread nD τ) (st0_1 t) fullShare (iblk V c 1 t) := by
  unfold Dat.leavesExact; rw [show cfg0.idle 1 (cfg0.grid.coords t) = false from rfl, after_1]
private theorem leaves_2 (c : Dev nD) (t : Fin cfg0.N) :
    (dat V c).leavesExact 2 t = owns (c : Thread nD τ) (st0_2 t) fullShare (iblk V c 2 t) := by
  unfold Dat.leavesExact; rw [show cfg0.idle 2 (cfg0.grid.coords t) = false from rfl, after_2]
private theorem leaves_3 (c : Dev nD) (t : Fin cfg0.N) :
    (dat V c).leavesExact 3 t = owns (c : Thread nD τ) (st0_3 t) fullShare (iblk V c 3 t) := by
  unfold Dat.leavesExact; rw [show cfg0.idle 3 (cfg0.grid.coords t) = false from rfl, after_3]
private theorem leaves_4 (c : Dev nD) (t : Fin cfg0.N) :
    (dat V c).leavesExact 4 t = owns (c : Thread nD τ) (st0_4 t) fullShare (iblk V c 4 t) := by
  unfold Dat.leavesExact; rw [show cfg0.idle 4 (cfg0.grid.coords t) = false from rfl, after_4]
private theorem leaves_5 (c : Dev nD) (t : Fin cfg0.N) (h : atLast (grid0.coords t)) :
    (dat V c).leavesExact 5 t = owns (c : Thread nD τ) (st0_5 t) fullShare
      (k0_pay3 (iblk V c 3 t) (iblk V c 4 t) (acc V c t.val t.isLt) (iblk V c 2 t)) := by
  unfold Dat.leavesExact; rw [live5_of t h, after_5]

set_option maxHeartbeats 4800000 in
/-- The body at any point. By the innermost coordinate the point is a first, a middle or a last one. The inputs' buffers
    hold their blocks; the invariant hands the body the accumulator — at anything before the region's first point, at
    what the point before left elsewhere — and takes it back at this point's sum; the output's buffer goes through
    untouched off the last points and holds the output block at them; the windows a case does not read stay aside. -/
private theorem sound_body (c : Dev nD) (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d))
      ∗ (∃ d, owns (c : Thread nD τ) (st0_4 t) fullShare ((dat V c).before 4 t d))
      ∗ (∃ d, owns (c : Thread nD τ) (st0_5 t) fullShare ((dat V c).before 5 t d)))
    ⊢ wp frame (wpE (defs₀ (F := F)) Variants.none c none) Set.univ (bodyAt0 t) (fun _ =>
        iprop((dat V c).Φ t.succ ∗ (dat V c).owesAt () t.succ
          ∗ (dat V c).leavesExact 0 t ∗ (dat V c).leavesExact 1 t ∗ (dat V c).leavesExact 2 t
          ∗ (dat V c).leavesExact 3 t ∗ (dat V c).leavesExact 4 t ∗ (dat V c).leavesExact 5 t)) := by
  rw [leaves_0, leaves_1, leaves_2, leaves_3, leaves_4]
  simp only [before_0, before_1, before_2, before_3, before_4]
  rw [show (dat V c).owesAt () t.succ = (dat V c).owesAt () t.castSucc from rfl]
  rw [show (dat V c).Φ t.succ = iprop(iprop(owns (c : Thread nD τ) scM fullShare (acc V c t.val t.isLt) ∗ Others (F := F) c) ∗ (∃ r, prngReg c r)) from rfl]
  have hN : t.val < 512 := lt_of_lt_of_eq t.isLt (show cfg0.N = 512 from N_0)
  by_cases h0 : t.val % 8 = 0
  · have hF : atFirst (grid0.coords t) := (atFirst_iff t).mpr h0
    have hL : ¬ atLast (grid0.coords t) := fun h => by have := (atLast_iff t).mp h; omega
    rw [Dat.leavesExact_idle (dat V c) 5 t (idle5_of t hL) (noflush5_of t (by omega)), acc_first V c t h0]
    by_cases hz : t.val = 0
    · rw [Phi_at, Phi_zero V c _ _ hz, PhiA_eq]
      iintro ⟨⟨⟨HS, HO⟩, Hg⟩, Ho, ⟨%d0, H0⟩, ⟨%d1, H1⟩, ⟨%d2, H2⟩, ⟨%d3, H3⟩, ⟨%d4, H4⟩, H5⟩
      iapply (run_first c Set.univ (grid0.coords t) _ _ _ _ _ _ _ _ _ _ _ _ _ _ hF hL (iblk V c 0 t) (iblk V c 1 t) _)
      isplitl [H0]; · iexact H0
      isplitl [H1]; · iexact H1
      isplitl [HS]; · iexact HS
      iintro ⟨H0, H1, HS⟩
      isplitl [HS HO Hg]
      · isplitl [HS HO]
        · isplitl [HS]; · iexact HS
          iexact HO
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Phi_at, Phi_pos V c _ _ hz]
      iintro ⟨⟨⟨HS, HO⟩, Hg⟩, Ho, ⟨%d0, H0⟩, ⟨%d1, H1⟩, ⟨%d2, H2⟩, ⟨%d3, H3⟩, ⟨%d4, H4⟩, H5⟩
      iapply (run_first c Set.univ (grid0.coords t) _ _ _ _ _ _ _ _ _ _ _ _ _ _ hF hL (iblk V c 0 t) (iblk V c 1 t) _)
      isplitl [H0]; · iexact H0
      isplitl [H1]; · iexact H1
      isplitl [HS]; · iexists _; iexact HS
      iintro ⟨H0, H1, HS⟩
      isplitl [HS HO Hg]
      · isplitl [HS HO]
        · isplitl [HS]; · iexact HS
          iexact HO
        iexact Hg
      isplitl [Ho]; · iexact Ho
      isplitl [H0]; · iexact H0
      isplitl [H1]; · iexact H1
      isplitl [H2]; · iexact H2
      isplitl [H3]; · iexact H3
      isplitl [H4]; · iexact H4
      iexact H5
  · have hF : ¬ atFirst (grid0.coords t) := fun h => h0 ((atFirst_iff t).mp h)
    have hz : t.val ≠ 0 := fun h => h0 (by rw [h])
    by_cases h7 : t.val % 8 = 7
    · have hL : atLast (grid0.coords t) := (atLast_iff t).mpr h7
      rw [leaves_5 V c t hL, acc_next V c t h0, Phi_at, Phi_pos V c _ _ hz]
      iintro ⟨⟨⟨HS, HO⟩, Hg⟩, Ho, ⟨%d0, H0⟩, ⟨%d1, H1⟩, ⟨%d2, H2⟩, ⟨%d3, H3⟩, ⟨%d4, H4⟩, ⟨%d5, H5⟩⟩
      iapply (run_last c Set.univ (grid0.coords t) _ _ _ _ _ _ _ _ _ _ _ _ _ _ hF hL (iblk V c 0 t) (iblk V c 1 t)
        (iblk V c 2 t) (iblk V c 3 t) (iblk V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HO Hg]
      · isplitl [HS HO]
        · isplitl [HS]; · iexact HS
          iexact HO
        iexact Hg
      isplitl [Ho]; · iexact Ho
      isplitl [H0]; · iexact H0
      isplitl [H1]; · iexact H1
      isplitl [H2]; · iexact H2
      isplitl [H3]; · iexact H3
      isplitl [H4]; · iexact H4
      iexact H5
    · have hL : ¬ atLast (grid0.coords t) := fun h => h7 ((atLast_iff t).mp h)
      rw [Dat.leavesExact_idle (dat V c) 5 t (idle5_of t hL) (noflush5_of t h7), acc_next V c t h0, Phi_at,
        Phi_pos V c _ _ hz]
      iintro ⟨⟨⟨HS, HO⟩, Hg⟩, Ho, ⟨%d0, H0⟩, ⟨%d1, H1⟩, ⟨%d2, H2⟩, ⟨%d3, H3⟩, ⟨%d4, H4⟩, H5⟩
      iapply (run_middle c Set.univ (grid0.coords t) _ _ _ _ _ _ _ _ _ _ _ _ _ _ hF hL (iblk V c 0 t) (iblk V c 1 t) _ _)
      isplitl [H0]; · iexact H0
      isplitl [H1]; · iexact H1
      isplitl [HS]; · iexact HS
      iintro ⟨H0, H1, HS⟩
      isplitl [HS HO Hg]
      · isplitl [HS HO]
        · isplitl [HS]; · iexact HS
          iexact HO
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body obligation at every point. -/
theorem body_obligation (c : Dev nD) : BodyObligation (dat (F := F) V c) (defs₀ (F := F)) Variants.none () Set.univ := by
  intro t
  rw [bigSep_W0, bigSep_W0]
  exact sound_body V c t

/-- What the launch hands the region is the invariant before the first point, -/
theorem hin (c : Dev nD) : Pipeline.ΦA spec0 c ⊢ (dat V c).Φ 0 := by
  rw [show (dat V c).Φ 0 = Phi V c 0 (Nat.zero_le _) from rfl, Phi_zero V c 0 _ rfl]
/-- and after the last point the invariant gives it back. -/
theorem hout (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl,
    Phi_pos V c _ _ (by rw [Fin.val_last]; have : cfg0.N = 512 := N_0; omega), PhiA_eq]
  iintro ⟨⟨HS, HO⟩, Hg⟩
  isplitl [HS HO]
  · isplitl [HS]
    · iexists _; iexact HS
    iexact HO
  iexact Hg

end Cert.Kernel.Gram

end
-- ==== Proof.Bits.MixBody.lean ====
import proofs.«156051_j65481071410654_1_alg».proof.Proof.Gen.Kernel.Launch
import proofs.«156051_j65481071410654_1_alg».proof.Proof.Gen.Kernel.Skeleton
import proofs.«156051_j65481071410654_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Region 1 multiplies a 512×512 block of the first operand by a 512×512 block of the second and adds the product
    to a 512×512 accumulator kept in scratch memory across the innermost grid axis: the accumulator is reset where
    that axis is at 0, and where it is at 7 the accumulator is narrowed and stored into the output block. -/

/-- The innermost grid coordinate is 0: the accumulator is reset at this point. -/
abbrev atFirst (i : grid1.Coords) : Prop :=
  (Scalar.cmpi .ne (Scalar.extui (Scalar.cmpi .eq (BitVec.ofNat 32 (i 2).val) 0#32)) 0#32) = 1#1
/-- The innermost grid coordinate is 7: the output block is stored at this point. -/
abbrev atLast (i : grid1.Coords) : Prop := k1_cond2 i = 1#1

theorem atFirst_iff : ∀ t : Fin cfg1.N, atFirst (grid1.coords t) ↔ t.val % 8 = 0 :=
  (by decide +kernel : ∀ t : Fin grid1.N, atFirst (grid1.coords t) ↔ t.val % 8 = 0)
theorem atLast_iff : ∀ t : Fin cfg1.N, atLast (grid1.coords t) ↔ t.val % 8 = 7 :=
  (by decide +kernel : ∀ t : Fin grid1.N, atLast (grid1.coords t) ↔ t.val % 8 = 7)

set_option maxHeartbeats 1000000 in
/-- At a first point the accumulator, whatever it held, ends at the product of the two blocks added to zero. -/
theorem run_first (c : Dev nD) (E : Set ℕ) (i : grid1.Coords)
    (arg3 : Memref sig .tc .vmem S512x512 .bf16) (harg3 : arg3.IsWhole) (arg4 : Memref sig .tc .vmem S512x512 .bf16) (harg4 : arg4.IsWhole)
    (arg5 : Memref sig .tc .vmem S512x512 .bf16) (harg5 : arg5.IsWhole) (arg6 : Memref sig .tc .vmem S512x512 .f32) (harg6 : arg6.IsWhole)
    (h1 : atFirst i) (h2 : ¬ atLast i) (a b : Vec F S512x512 .bf16) (K : PUnit → sProp 𝕄) :
    iprop(owns (c : Thread nD τ) arg3 fullShare a ∗ owns (c : Thread nD τ) arg4 fullShare b ∗ (∃ d, owns (c : Thread nD τ) arg6 fullShare d)
        ∗ (iprop(owns (c : Thread nD τ) arg3 fullShare a ∗ owns (c : Thread nD τ) arg4 fullShare b
            ∗ owns (c : Thread nD τ) arg6 fullShare (k1_pay2 (k1_pay1 (F := F)) a b)) -∗ K ⟨⟩))
      ⊢ wp frame (wpE (defs₀ (F := F)) Variants.none c none) E (cc1__matmul_fn i arg3 harg3 arg4 harg4 arg5 harg5 arg6 harg6) K := by
  simp only [cc1__matmul_fn_eq_skeleton]; unfold cc1__matmul_fn_skel
  unfold owns
  iintro ⟨⟨%f3, %hf3, H3⟩, ⟨%f4, %hf4, H4⟩, ⟨%d, %f6, -, H6⟩, Hk⟩
  obtain rfl := harg3.eq_unread hf3; obtain rfl := harg4.eq_unread hf4
  sl_exec (disch := first | exact h1 | exact h2)
  sl_step
  iapply Hk
  have hz : (![0, 0] : Fin S512x512.rank → ℕ) = fun _ => 0 := by funext a; fin_cases a <;> rfl
  isplitl [H3]
  · iexists _; isplitr; · ipureintro; exact hf3
    iexact H3
  isplitl [H4]
  · iexists _; isplitr; · ipureintro; exact hf4
    iexact H4
  iexists _; isplitr
  swap; · iexact H6
  ipureintro
  -- the accumulator is stored twice through the whole block: the later store decides the contents, and the value
  -- it adds to is the zero block read back from the earlier one
  sl_unfold_run_names
  rw [View.read_writes_eq_canon _ _ _ (View.cover_of_tiled _ S512x512.size (by rfl))]
  rw [View.canon_cons_unit_zero hz]
  simp only [View.readAt_eq_ld, harg3.read_unread, harg4.read_unread, View.ld_unit_zero (S := S512x512) hz,
    View.readCov_unit_zero (S := S512x512) _ hz]

set_option maxHeartbeats 1000000 in
/-- At a middle point the product of the two blocks is added to what the accumulator held. -/
theorem run_middle (c : Dev nD) (E : Set ℕ) (i : grid1.Coords)
    (arg3 : Memref sig .tc .vmem S512x512 .bf16) (harg3 : arg3.IsWhole) (arg4 : Memref sig .tc .vmem S512x512 .bf16) (harg4 : arg4.IsWhole)
    (arg5 : Memref sig .tc .vmem S512x512 .bf16) (harg5 : arg5.IsWhole) (arg6 : Memref sig .tc .vmem S512x512 .f32) (harg6 : arg6.IsWhole)
    (h1 : ¬ atFirst i) (h2 : ¬ atLast i) (a b : Vec F S512x512 .bf16) (s : Vec F S512x512 .f32) (K : PUnit → sProp 𝕄) :
    iprop(owns (c : Thread nD τ) arg3 fullShare a ∗ owns (c : Thread nD τ) arg4 fullShare b ∗ owns (c : Thread nD τ) arg6 fullShare s
        ∗ (iprop(owns (c : Thread nD τ) arg3 fullShare a ∗ owns (c : Thread nD τ) arg4 fullShare b
            ∗ owns (c : Thread nD τ) arg6 fullShare (k1_pay2 s a b)) -∗ K ⟨⟩))
      ⊢ wp frame (wpE (defs₀ (F := F)) Variants.none c none) E (cc1__matmul_fn i arg3 harg3 arg4 harg4 arg5 harg5 arg6 harg6) K := by
  simp only [cc1__matmul_fn_eq_skeleton]; unfold cc1__matmul_fn_skel
  unfold owns
  iintro ⟨⟨%f3, %hf3, H3⟩, ⟨%f4, %hf4, H4⟩, ⟨%f6, %hf6, H6⟩, Hk⟩
  obtain rfl := harg3.eq_unread hf3; obtain rfl := harg4.eq_unread hf4; obtain rfl := harg6.eq_unread hf6
  sl_exec (disch := first | exact h1 | exact h2)
  sl_step
  iapply Hk
  have hz : (![0, 0] : Fin S512x512.rank → ℕ) = fun _ => 0 := by funext a; fin_cases a <;> rfl
  isplitl [H3]
  · iexists _; isplitr; · ipureintro; exact hf3
    iexact H3
  isplitl [H4]
  · iexists _; isplitr; · ipureintro; exact hf4
    iexact H4
  iexists _; isplitr
  swap; · iexact H6
  ipureintro
  -- one store through the whole block leaves its payload, and each load through the whole block reads the contents
  sl_unfold_run_names
  rw [View.read_writes_eq_canon _ _ _ (View.cover_of_tiled _ S512x512.size (by rfl))]
  rw [View.canon_unit_zero hz]
  simp only [View.readAt_eq_ld, harg3.read_unread, harg4.read_unread, harg6.read_unread, View.ld_unit_zero (S := S512x512) hz]

set_option maxHeartbeats 1000000 in
/-- At a last point the product is added to the accumulator and the sum, narrowed, is stored into the output block. -/
theorem run_last (c : Dev nD) (E : Set ℕ) (i : grid1.Coords)
    (arg3 : Memref sig .tc .vmem S512x512 .bf16) (harg3 : arg3.IsWhole) (arg4 : Memref sig .tc .vmem S512x512 .bf16) (harg4 : arg4.IsWhole)
    (arg5 : Memref sig .tc .vmem S512x512 .bf16) (harg5 : arg5.IsWhole) (arg6 : Memref sig .tc .vmem S512x512 .f32) (harg6 : arg6.IsWhole)
    (h1 : ¬ atFirst i) (h2 : atLast i) (a b : Vec F S512x512 .bf16) (s : Vec F S512x512 .f32) (K : PUnit → sProp 𝕄) :
    iprop(owns (c : Thread nD τ) arg3 fullShare a ∗ owns (c : Thread nD τ) arg4 fullShare b ∗ (∃ d, owns (c : Thread nD τ) arg5 fullShare d)
        ∗ owns (c : Thread nD τ) arg6 fullShare s
        ∗ (iprop(owns (c : Thread nD τ) arg3 fullShare a ∗ owns (c : Thread nD τ) arg4 fullShare b
            ∗ owns (c : Thread nD τ) arg5 fullShare (k1_pay3 (k1_pay2 s a b))
            ∗ owns (c : Thread nD τ) arg6 fullShare (k1_pay2 s a b)) -∗ K ⟨⟩))
      ⊢ wp frame (wpE (defs₀ (F := F)) Variants.none c none) E (cc1__matmul_fn i arg3 harg3 arg4 harg4 arg5 harg5 arg6 harg6) K := by
  simp only [cc1__matmul_fn_eq_skeleton]; unfold cc1__matmul_fn_skel
  unfold owns
  iintro ⟨⟨%f3, %hf3, H3⟩, ⟨%f4, %hf4, H4⟩, ⟨%d, %f5, -, H5⟩, ⟨%f6, %hf6, H6⟩, Hk⟩
  obtain rfl := harg3.eq_unread hf3; obtain rfl := harg4.eq_unread hf4; obtain rfl := harg6.eq_unread hf6
  sl_exec (disch := first | exact h1 | exact h2)
  sl_step
  iapply Hk
  have hz : (![0, 0] : Fin S512x512.rank → ℕ) = fun _ => 0 := by funext a; fin_cases a <;> rfl
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    -- the output block holds the narrowing of the accumulator read back after its store
    sl_unfold_run_names
    rw [View.read_writes_eq_canon _ _ _ (View.cover_of_tiled _ S512x512.size (by rfl))]
    rw [View.canon_unit_zero hz]
    simp only [View.readAt_eq_ld, harg3.read_unread, harg4.read_unread, harg6.read_unread, View.ld_unit_zero (S := S512x512) hz,
      View.readCov_unit_zero (S := S512x512) _ hz]
  iexists _; isplitr
  swap; · iexact H6
  ipureintro
  -- the accumulator holds the payload of its one store
  sl_unfold_run_names
  rw [View.read_writes_eq_canon _ _ _ (View.cover_of_tiled _ S512x512.size (by rfl))]
  rw [View.canon_unit_zero hz]
  simp only [View.readAt_eq_ld, harg3.read_unread, harg4.read_unread, harg6.read_unread, View.ld_unit_zero (S := S512x512) hz]

end Cert.Kernel.Mix

end
-- ==== Proof.Bits.MixData.lean ====
import proofs.«156051_j65481071410654_1_alg».proof.Proof.Bits.MixBody

set_option maxRecDepth 16384

noncomputable section

namespace Cert.Kernel.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Region 1, point by point: what the accumulator holds after each grid point, the region's proof data over the
    contents `V` its arrays hold when it is entered, and the obligation that the kernel body meets them. -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: at a point whose innermost coordinate is 0 the product of the point's two blocks
    added to zero, elsewhere that product added to what the point before left. -/
def acc (c : Dev nD) : (n : ℕ) → n < cfg1.N → Vec F S512x512 .f32
  | 0, hn => k1_pay2 (k1_pay1 (F := F)) (iblk V c 0 ⟨0, hn⟩) (iblk V c 1 ⟨0, hn⟩)
  | n + 1, hn =>
    if (n + 1) % 8 = 0 then k1_pay2 (k1_pay1 (F := F)) (iblk V c 0 ⟨n + 1, hn⟩) (iblk V c 1 ⟨n + 1, hn⟩)
    else k1_pay2 (acc c n (Nat.lt_of_succ_lt hn)) (iblk V c 0 ⟨n + 1, hn⟩) (iblk V c 1 ⟨n + 1, hn⟩)

theorem acc_first (c : Dev nD) (t : Fin cfg1.N) (h : t.val % 8 = 0) :
    acc V c t.val t.isLt = k1_pay2 (k1_pay1 (F := F)) (iblk V c 0 t) (iblk V c 1 t) := by
  obtain ⟨n, hn⟩ := t
  cases n with
  | zero => rfl
  | succ n => exact (if_pos h).trans rfl

theorem acc_next (c : Dev nD) (t : Fin cfg1.N) (h : t.val % 8 ≠ 0) :
    acc V c t.val t.isLt = k1_pay2 (acc V c (t.val - 1) (Nat.lt_of_le_of_lt (Nat.sub_le _ _) t.isLt)) (iblk V c 0 t) (iblk V c 1 t) := by
  obtain ⟨n, hn⟩ := t
  cases n with
  | zero => exact absurd (Nat.zero_mod _) h
  | succ n => exact (if_neg h).trans rfl

/-- The accumulator's memref: a whole scoped buffer of the kernel's own. -/
abbrev scM : Memref sig .tc .vmem S512x512 .f32 := Memref.whole cc1_scratch0

/-- The core's scoped buffers that are neither a staging buffer of region 1 nor its accumulator, each at some contents. -/
def Others (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The class invariant with the accumulator taken out. -/
theorem PhiA_eq (c : Dev nD) :
    (Pipeline.ΦA spec1 c : sProp 𝕄)
      = iprop(iprop((∃ d, owns (c : Thread nD τ) scM fullShare d) ∗ Others (F := F) c) ∗ (∃ r, prngReg c r)) := by
  unfold Pipeline.ΦA Pipeline.scopedRest Others
  rw [bigSep_erase (i := cc1_scratch0) (by decide)]
  simp only [scM, owns_whole]
  try rfl

/-- The invariant before point `n`: before the first point the accumulator holds anything; afterwards what the point
    before left. -/
def Phi (c : Dev nD) : (n : ℕ) → n ≤ cfg1.N → sProp 𝕄
  | 0, _ => Pipeline.ΦA spec1 c
  | n + 1, hn => iprop(iprop(owns (c : Thread nD τ) scM fullShare (acc V c n hn) ∗ Others (F := F) c) ∗ (∃ r, prngReg c r))

/-- The proof data of region 1 on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay3 (acc V c t.val t.isLt)
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = k1_pay3 (acc V c t.val t.isLt) := by dsimp only [dat]

/-- Each input's current staging buffer holds its block at every point. -/
theorem before_0 (c : Dev nD) (t : Fin cfg1.N) (d) : (dat V c).before 0 t d = iblk V c 0 t := by
  -- an input window, never idle and uncut, whose block the body leaves in place: its buffer holds the fetched block,
  have hkeep : ∀ s, (cfg1.win 0).cut (cfg1.grid.coords s) ((dat V c).after 0 s) = (dat V c).blockOf 0 s := fun s => by
    rw [after_0]; unfold Dat.blockOf iblk; rw [A_eq]; try rfl
  rw [(dat V c).before_in_eq_fetched 0 rfl (fun _ => rfl) (fun _ _ _ => rfl) hkeep t d]
  -- and for an uncut window the fetched block is the array's block.
  unfold Dat.fetched Dat.blockOf iblk; rw [A_eq]; try rfl
theorem before_1 (c : Dev nD) (t : Fin cfg1.N) (d) : (dat V c).before 1 t d = iblk V c 1 t := by
  have hkeep : ∀ s, (cfg1.win 1).cut (cfg1.grid.coords s) ((dat V c).after 1 s) = (dat V c).blockOf 1 s := fun s => by
    rw [after_1]; unfold Dat.blockOf iblk; rw [A_eq]; try rfl
  rw [(dat V c).before_in_eq_fetched 1 rfl (fun _ => rfl) (fun _ _ _ => rfl) hkeep t d]
  unfold Dat.fetched Dat.blockOf iblk; rw [A_eq]; try rfl

/-! The invariant unfolded at a position. -/

theorem Phi_succ (c : Dev nD) (n : ℕ) (hn : n < cfg1.N) :
    Phi V c (n + 1) hn
      = iprop(iprop(owns (c : Thread nD τ) scM fullShare (acc V c n hn) ∗ Others (F := F) c) ∗ (∃ r, prngReg c r)) := rfl

theorem Phi_pos (c : Dev nD) (n : ℕ) (h : n ≤ cfg1.N) (hz : n ≠ 0) :
    Phi V c n h
      = iprop(iprop(owns (c : Thread nD τ) scM fullShare (acc V c (n - 1) (by omega)) ∗ Others (F := F) c) ∗ (∃ r, prngReg c r)) := by
  cases n with
  | zero => exact absurd rfl hz
  | succ n => rfl

/-- Before any point the accumulator holds something: anything before the first, a named value afterwards. -/
theorem Phi_some (c : Dev nD) (n : ℕ) (h : n ≤ cfg1.N) :
    Phi V c n h ⊢ iprop(iprop((∃ d, owns (c : Thread nD τ) scM fullShare d) ∗ Others (F := F) c) ∗ (∃ r, prngReg c r)) := by
  cases n with
  | zero =>
    rw [show Phi V c 0 h = Pipeline.ΦA spec1 c from rfl, PhiA_eq]
  | succ n =>
    rw [Phi_succ]
    iintro ⟨⟨HS, HO⟩, Hg⟩
    isplitr [Hg]
    · isplitl [HS]
      · iexists _; iexact HS
      · iexact HO
    · iexact Hg

theorem Phi_castSucc (c : Dev nD) (t : Fin cfg1.N) :
    (dat V c).Φ t.castSucc = Phi V c t.val (Nat.le_of_lt t.isLt) := rfl

/-! Where the output window is idle: everywhere but at the last points, and it is not written back there. -/

theorem idle_2 (t : Fin cfg1.N) (h : ¬ atLast (grid1.coords t)) : cfg1.idle 2 (grid1.coords t) = true := by
  show (!(k1_cond2 (grid1.coords t) == 1#1)) = true
  rw [Bool.not_eq_true', beq_eq_false_iff_ne]
  exact h

theorem live_2 (t : Fin cfg1.N) (h : atLast (grid1.coords t)) : cfg1.idle 2 (grid1.coords t) = false := by
  show (!(k1_cond2 (grid1.coords t) == 1#1)) = false
  rw [show k1_cond2 (grid1.coords t) = 1#1 from h]
  rfl

theorem noflush_2 (t : Fin cfg1.N) (h : t.val % 8 ≠ 7) : (cfg1.win 2).flush t = false :=
  Bool.eq_false_iff.mpr fun hf => h ((flush1_2 t).mp hf)

/-- An input window is never idle: the body leaves its block where it found it. -/
theorem leaves_0 (c : Dev nD) (t : Fin cfg1.N) :
    (dat V c).leavesExact 0 t = owns (c : Thread nD τ) (st1_0 t) fullShare (iblk V c 0 t) := by
  rw [← after_0]
theorem leaves_1 (c : Dev nD) (t : Fin cfg1.N) :
    (dat V c).leavesExact 1 t = owns (c : Thread nD τ) (st1_1 t) fullShare (iblk V c 1 t) := by
  rw [← after_1]

/-- The obligation at a point, the windows written out one by one. -/
theorem body_at (c : Dev nD) (t : Fin cfg1.N) :
    iprop((dat V c).Φ t.castSucc ∗ (dat V c).owesAt () t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d)))
      ⊢ wp frame (wpE (defs₀ (F := F)) Variants.none c none) Set.univ (bodyAt1 t) (fun _ =>
          iprop((dat V c).Φ t.succ ∗ (dat V c).owesAt () t.succ
            ∗ (dat V c).leavesExact 0 t ∗ (dat V c).leavesExact 1 t ∗ (dat V c).leavesExact 2 t)) := by
  simp only [before_0, before_1]
  rw [show (dat V c).owesAt () t.succ = (dat V c).owesAt () t.castSucc from rfl]
  rw [show (dat V c).Φ t.succ = Phi V c (t.val + 1) t.isLt from rfl, Phi_succ, leaves_0, leaves_1, Phi_castSucc]
  have hN : t.val < 512 := lt_of_lt_of_eq t.isLt N_1
  by_cases h0 : t.val % 8 = 0
  · -- a first point: the accumulator, whatever it held, is reset; the output window is idle
    have hF : atFirst (grid1.coords t) := (atFirst_iff t).mpr h0
    have hL : ¬ atLast (grid1.coords t) := fun h => by have := (atLast_iff t).mp h; omega
    rw [Dat.leavesExact_idle (dat V c) 2 t (idle_2 t hL) (noflush_2 t (by omega)), acc_first V c t h0]
    iintro ⟨HΦ, Ho, ⟨%d0, H0⟩, ⟨%d1, H1⟩, H2⟩
    icases (Phi_some V c t.val (Nat.le_of_lt t.isLt)) $$ HΦ with ⟨⟨HS, HO⟩, Hg⟩
    iapply (run_first c Set.univ (grid1.coords t) _ _ _ _ _ _ _ _ hF hL (iblk V c 0 t) (iblk V c 1 t) _)
    isplitl [H0]; · iexact H0
    isplitl [H1]; · iexact H1
    isplitl [HS]; · iexact HS
    iintro ⟨H0, H1, HS⟩
    isplitl [HS HO Hg]
    · isplitr [Hg]
      · isplitl [HS]
        · iexact HS
        · iexact HO
      · iexact Hg
    isplitl [Ho]; · iexact Ho
    isplitl [H0]; · iexact H0
    isplitl [H1]; · iexact H1
    iexact H2
  · have hF : ¬ atFirst (grid1.coords t) := fun h => h0 ((atFirst_iff t).mp h)
    have hz : t.val ≠ 0 := fun h => h0 (by rw [h])
    rw [Phi_pos V c _ _ hz, acc_next V c t h0]
    by_cases h7 : t.val % 8 = 7
    · -- a last point: the sum, narrowed, goes into the output block
      have hL : atLast (grid1.coords t) := (atLast_iff t).mpr h7
      rw [show (dat V c).leavesExact 2 t = owns (c : Thread nD τ) (st1_2 t) fullShare ((dat V c).after 2 t) from by
        unfold Dat.leavesExact; rw [live_2 t hL], after_2, acc_next V c t h0]
      iintro ⟨⟨⟨HS, HO⟩, Hg⟩, Ho, ⟨%d0, H0⟩, ⟨%d1, H1⟩, ⟨%d2, H2⟩⟩
      iapply (run_last c Set.univ (grid1.coords t) _ _ _ _ _ _ _ _ hF hL (iblk V c 0 t) (iblk V c 1 t) _ _)
      isplitl [H0]; · iexact H0
      isplitl [H1]; · iexact H1
      isplitl [H2]; · iexists _; iexact H2
      isplitl [HS]; · iexact HS
      iintro ⟨H0, H1, H2, HS⟩
      isplitl [HS HO Hg]
      · isplitr [Hg]
        · isplitl [HS]
          · iexact HS
          · iexact HO
        · iexact Hg
      isplitl [Ho]; · iexact Ho
      isplitl [H0]; · iexact H0
      isplitl [H1]; · iexact H1
      iexact H2
    · -- a middle point: the product is added to the accumulator; the output window is idle
      have hL : ¬ atLast (grid1.coords t) := fun h => h7 ((atLast_iff t).mp h)
      rw [Dat.leavesExact_idle (dat V c) 2 t (idle_2 t hL) (noflush_2 t h7)]
      iintro ⟨⟨⟨HS, HO⟩, Hg⟩, Ho, ⟨%d0, H0⟩, ⟨%d1, H1⟩, H2⟩
      iapply (run_middle c Set.univ (grid1.coords t) _ _ _ _ _ _ _ _ hF hL (iblk V c 0 t) (iblk V c 1 t) _ _)
      isplitl [H0]; · iexact H0
      isplitl [H1]; · iexact H1
      isplitl [HS]; · iexact HS
      iintro ⟨H0, H1, HS⟩
      isplitl [HS HO Hg]
      · isplitr [Hg]
        · isplitl [HS]
          · iexact HS
          · iexact HO
        · iexact Hg
      isplitl [Ho]; · iexact Ho
      isplitl [H0]; · iexact H0
      isplitl [H1]; · iexact H1
      iexact H2

/-- The body obligation at every point. -/
theorem body_obligation (c : Dev nD) : BodyObligation (dat (F := F) V c) (defs₀ (F := F)) Variants.none () Set.univ := fun t => by
  rw [bigSep_W1, bigSep_W1]
  exact body_at V c t

/-- What the launch hands the region is the invariant before the first point, -/
theorem hin (c : Dev nD) : Pipeline.ΦA spec1 c ⊢ (dat V c).Φ 0 :=
  Entails.refl _
/-- and after the last point the invariant gives it back. -/
theorem hout (c : Dev nD) : (dat V c).Φ (Fin.last cfg1.N) ⊢ Pipeline.ΦA spec1 c := by
  rw [PhiA_eq]
  exact Phi_some V c cfg1.N (Nat.le_refl _)

end Cert.Kernel.Mix

end
-- ==== Proof.Bits.ProjBody.lean ====
import proofs.«156051_j65481071410654_1_alg».proof.Proof.Gen.Kernel.Launch
import proofs.«156051_j65481071410654_1_alg».proof.Proof.Gen.Kernel.Skeleton
import proofs.«156051_j65481071410654_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Region 2 multiplies a 512×512 block of the mixed rows by the transpose of a 512×512 block of the narrowed output
    weights and adds the product to a 512×512 accumulator kept in scratch memory across the innermost grid axis: the
    accumulator is reset where that axis is at 0, and where it is at 7 the block of the bias row is added to the
    accumulator along the rows and the sum is stored into the output block. -/

/-- The innermost grid coordinate is 0: the accumulator is reset at this point. -/
abbrev atFirst (i : grid2.Coords) : Prop :=
  (Scalar.cmpi .ne (Scalar.extui (Scalar.cmpi .eq (BitVec.ofNat 32 (i 2).val) 0#32)) 0#32) = 1#1
/-- The innermost grid coordinate is 7: the output block is stored at this point. -/
abbrev atLast (i : grid2.Coords) : Prop := k2_cond2 i = 1#1

theorem atFirst_iff : ∀ t : Fin cfg2.N, atFirst (grid2.coords t) ↔ t.val % 8 = 0 :=
  (by decide +kernel : ∀ t : Fin grid2.N, atFirst (grid2.coords t) ↔ t.val % 8 = 0)
theorem atLast_iff : ∀ t : Fin cfg2.N, atLast (grid2.coords t) ↔ t.val % 8 = 7 :=
  (by decide +kernel : ∀ t : Fin grid2.N, atLast (grid2.coords t) ↔ t.val % 8 = 7)

set_option maxHeartbeats 1000000 in
/-- At a first point the accumulator, whatever it held, ends at the product of the two blocks added to zero. -/
theorem run_first (c : Dev nD) (E : Set ℕ) (i : grid2.Coords)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (h1 : atFirst i) (h2 : ¬ atLast i) (a b : Vec F S512x512 .bf16) (K : PUnit → sProp 𝕄) :
    iprop(owns (c : Thread nD τ) arg3 fullShare a ∗ owns (c : Thread nD τ) arg4 fullShare b ∗ (∃ d, owns (c : Thread nD τ) arg7 fullShare d)
        ∗ (iprop(owns (c : Thread nD τ) arg3 fullShare a ∗ owns (c : Thread nD τ) arg4 fullShare b
            ∗ owns (c : Thread nD τ) arg7 fullShare (k2_pay2 a b (k2_pay1 (F := F)))) -∗ K ⟨⟩))
      ⊢ wp frame (wpE (defs₀ (F := F)) Variants.none c none) E (cc2__final_fn i arg3 harg3 arg4 harg4 arg5 harg5 arg6 harg6 arg7 harg7) K := by
  simp only [cc2__final_fn_eq_skeleton]; unfold cc2__final_fn_skel
  unfold owns
  iintro ⟨⟨%f3, %hf3, H3⟩, ⟨%f4, %hf4, H4⟩, ⟨%d, %f7, -, H7⟩, Hk⟩
  obtain rfl := harg3.eq_unread hf3; obtain rfl := harg4.eq_unread hf4
  sl_exec (disch := first | exact h1 | exact h2)
  sl_step
  iapply Hk
  have hz : (![0, 0] : Fin S512x512.rank → ℕ) = fun _ => 0 := by funext a; fin_cases a <;> rfl
  isplitl [H3]
  · iexists _; isplitr; · ipureintro; exact hf3
    iexact H3
  isplitl [H4]
  · iexists _; isplitr; · ipureintro; exact hf4
    iexact H4
  iexists _; isplitr
  swap; · iexact H7
  ipureintro
  -- the accumulator is stored twice through the whole block: the later store decides the contents, and the value
  -- it adds to is the zero block read back from the earlier one
  sl_unfold_run_names
  rw [View.read_writes_eq_canon _ _ _ (View.cover_of_tiled _ S512x512.size (by rfl))]
  rw [View.canon_cons_unit_zero hz]
  simp only [View.readAt_eq_ld, harg3.read_unread, harg4.read_unread, View.ld_unit_zero (S := S512x512) hz,
    View.readCov_unit_zero (S := S512x512) _ hz]

set_option maxHeartbeats 1000000 in
/-- At a middle point the product of the two blocks is added to what the accumulator held. -/
theorem run_middle (c : Dev nD) (E : Set ℕ) (i : grid2.Coords)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (h1 : ¬ atFirst i) (h2 : ¬ atLast i) (a b : Vec F S512x512 .bf16) (s : Vec F S512x512 .f32) (K : PUnit → sProp 𝕄) :
    iprop(owns (c : Thread nD τ) arg3 fullShare a ∗ owns (c : Thread nD τ) arg4 fullShare b ∗ owns (c : Thread nD τ) arg7 fullShare s
        ∗ (iprop(owns (c : Thread nD τ) arg3 fullShare a ∗ owns (c : Thread nD τ) arg4 fullShare b
            ∗ owns (c : Thread nD τ) arg7 fullShare (k2_pay2 a b s)) -∗ K ⟨⟩))
      ⊢ wp frame (wpE (defs₀ (F := F)) Variants.none c none) E (cc2__final_fn i arg3 harg3 arg4 harg4 arg5 harg5 arg6 harg6 arg7 harg7) K := by
  simp only [cc2__final_fn_eq_skeleton]; unfold cc2__final_fn_skel
  unfold owns
  iintro ⟨⟨%f3, %hf3, H3⟩, ⟨%f4, %hf4, H4⟩, ⟨%f7, %hf7, H7⟩, Hk⟩
  obtain rfl := harg3.eq_unread hf3; obtain rfl := harg4.eq_unread hf4; obtain rfl := harg7.eq_unread hf7
  sl_exec (disch := first | exact h1 | exact h2)
  sl_step
  iapply Hk
  have hz : (![0, 0] : Fin S512x512.rank → ℕ) = fun _ => 0 := by funext a; fin_cases a <;> rfl
  isplitl [H3]
  · iexists _; isplitr; · ipureintro; exact hf3
    iexact H3
  isplitl [H4]
  · iexists _; isplitr; · ipureintro; exact hf4
    iexact H4
  iexists _; isplitr
  swap; · iexact H7
  ipureintro
  -- one store through the whole block leaves its payload, and each load through the whole block reads the contents
  sl_unfold_run_names
  rw [View.read_writes_eq_canon _ _ _ (View.cover_of_tiled _ S512x512.size (by rfl))]
  rw [View.canon_unit_zero hz]
  simp only [View.readAt_eq_ld, harg3.read_unread, harg4.read_unread, harg7.read_unread, View.ld_unit_zero (S := S512x512) hz]

set_option maxHeartbeats 1000000 in
/-- At a last point the product is added to the accumulator, and the sum with the bias block added is stored into the
    output block. -/
theorem run_last (c : Dev nD) (E : Set ℕ) (i : grid2.Coords)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (h1 : ¬ atFirst i) (h2 : atLast i) (a b : Vec F S512x512 .bf16) (r : Vec F S1x512 .f32) (s : Vec F S512x512 .f32) (K : PUnit → sProp 𝕄) :
    iprop(owns (c : Thread nD τ) arg3 fullShare a ∗ owns (c : Thread nD τ) arg4 fullShare b ∗ owns (c : Thread nD τ) arg5 fullShare r ∗ (∃ d, owns (c : Thread nD τ) arg6 fullShare d) ∗ owns (c : Thread nD τ) arg7 fullShare s
        ∗ (iprop(owns (c : Thread nD τ) arg3 fullShare a ∗ owns (c : Thread nD τ) arg4 fullShare b ∗ owns (c : Thread nD τ) arg5 fullShare r
            ∗ owns (c : Thread nD τ) arg6 fullShare (k2_pay3 (k2_pay2 a b s) r)
            ∗ owns (c : Thread nD τ) arg7 fullShare (k2_pay2 a b s)) -∗ K ⟨⟩))
      ⊢ wp frame (wpE (defs₀ (F := F)) Variants.none c none) E (cc2__final_fn i arg3 harg3 arg4 harg4 arg5 harg5 arg6 harg6 arg7 harg7) K := by
  simp only [cc2__final_fn_eq_skeleton]; unfold cc2__final_fn_skel
  unfold owns
  iintro ⟨⟨%f3, %hf3, H3⟩, ⟨%f4, %hf4, H4⟩, ⟨%f5, %hf5, H5⟩, ⟨%d, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact h1 | exact h2)
  sl_step
  iapply Hk
  have hz : (![0, 0] : Fin S512x512.rank → ℕ) = fun _ => 0 := by funext a; fin_cases a <;> rfl
  have hzr : (![0, 0] : Fin S1x512.rank → ℕ) = fun _ => 0 := by funext a; fin_cases a <;> rfl
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    -- the output block holds the accumulator read back after its store, with the bias row added along the rows
    sl_unfold_run_names
    rw [View.read_writes_eq_canon _ _ _ (View.cover_of_tiled _ S512x512.size (by rfl))]
    rw [View.canon_unit_zero hz]
    simp only [View.readAt_eq_ld, harg3.read_unread, harg4.read_unread, harg5.read_unread, harg7.read_unread,
      View.ld_unit_zero (S := S512x512) hz, View.ld_unit_zero (S := S1x512) hzr, View.readCov_unit_zero (S := S512x512) _ hz]
  iexists _; isplitr
  swap; · iexact H7
  ipureintro
  -- the accumulator holds the payload of its one store
  sl_unfold_run_names
  rw [View.read_writes_eq_canon _ _ _ (View.cover_of_tiled _ S512x512.size (by rfl))]
  rw [View.canon_unit_zero hz]
  simp only [View.readAt_eq_ld, harg3.read_unread, harg4.read_unread, harg7.read_unread, View.ld_unit_zero (S := S512x512) hz]

end Cert.Kernel.Proj

end
-- ==== Proof.Bits.ProjData.lean ====
import proofs.«156051_j65481071410654_1_alg».proof.Proof.Bits.ProjBody

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Region 2, point by point: what the accumulator holds after each grid point, the region's proof data over the
    contents `V` its arrays hold when it is entered, and the obligation that the kernel body meets them. -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point `n`: at a point whose innermost coordinate is 0 the product of the point's two blocks
    added to zero, elsewhere that product added to what the point before left. -/
def acc (c : Dev nD) : (n : ℕ) → n < cfg2.N → Vec F S512x512 .f32
  | 0, hn => k2_pay2 (iblk V c 0 ⟨0, hn⟩) (iblk V c 1 ⟨0, hn⟩) (k2_pay1 (F := F))
  | n + 1, hn =>
    if (n + 1) % 8 = 0 then k2_pay2 (iblk V c 0 ⟨n + 1, hn⟩) (iblk V c 1 ⟨n + 1, hn⟩) (k2_pay1 (F := F))
    else k2_pay2 (iblk V c 0 ⟨n + 1, hn⟩) (iblk V c 1 ⟨n + 1, hn⟩) (acc c n (Nat.lt_of_succ_lt hn))

theorem acc_first (c : Dev nD) (t : Fin cfg2.N) (h : t.val % 8 = 0) :
    acc V c t.val t.isLt = k2_pay2 (iblk V c 0 t) (iblk V c 1 t) (k2_pay1 (F := F)) := by
  obtain ⟨n, hn⟩ := t
  cases n with
  | zero => exact rfl
  | succ n => exact (if_pos h).trans rfl

theorem acc_next (c : Dev nD) (t : Fin cfg2.N) (h : t.val % 8 ≠ 0) :
    acc V c t.val t.isLt = k2_pay2 (iblk V c 0 t) (iblk V c 1 t) (acc V c (t.val - 1) (Nat.lt_of_le_of_lt (Nat.sub_le _ _) t.isLt)) := by
  obtain ⟨n, hn⟩ := t
  cases n with
  | zero => exact absurd (Nat.zero_mod _) h
  | succ n => exact (if_neg h).trans rfl

/-- The accumulator's memref: a whole scoped buffer of the kernel's own. -/
abbrev scM : Memref sig .tc .vmem S512x512 .f32 := Memref.whole cc2_scratch0

/-- The core's scoped buffers that are neither a staging buffer of region 2 nor its accumulator, each at some contents. -/
def Others (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

/-- The class invariant with the accumulator taken out. -/
theorem PhiA_eq (c : Dev nD) :
    (Pipeline.ΦA spec2 c : sProp 𝕄)
      = iprop(iprop((∃ d, owns (c : Thread nD τ) scM fullShare d) ∗ Others (F := F) c) ∗ (∃ r, prngReg c r)) := by
  unfold Pipeline.ΦA Pipeline.scopedRest Others
  rw [bigSep_erase (i := cc2_scratch0) (by decide)]
  simp only [scM, owns_whole]
  try rfl

/-- The invariant before point `n`: before the first point the accumulator holds anything; afterwards what the point
    before left. -/
def Phi (c : Dev nD) : (n : ℕ) → n ≤ cfg2.N → sProp 𝕄
  | 0, _ => Pipeline.ΦA spec2 c
  | n + 1, hn => iprop(iprop(owns (c : Thread nD τ) scM fullShare (acc V c n hn) ∗ Others (F := F) c) ∗ (∃ r, prngReg c r))

private theorem Phi_zero (c : Dev nD) (n : ℕ) (h : n ≤ cfg2.N) (hz : n = 0) : Phi V c n h = Pipeline.ΦA spec2 c := by
  subst hz; rfl

/-- After point `n`: the accumulator at that point's contents. -/
private theorem Phi_succ (c : Dev nD) (n : ℕ) (hn : n < cfg2.N) :
    Phi V c (n + 1) hn
      = iprop(iprop(owns (c : Thread nD τ) scM fullShare (acc V c n hn) ∗ Others (F := F) c) ∗ (∃ r, prngReg c r)) := rfl

/-- Before a point that is not the first: the accumulator at what the point before left. -/
private theorem Phi_pos (c : Dev nD) (n : ℕ) (h : n ≤ cfg2.N) (hz : n ≠ 0) :
    Phi V c n h
      = iprop(iprop(owns (c : Thread nD τ) scM fullShare (acc V c (n - 1) (by omega)) ∗ Others (F := F) c) ∗ (∃ r, prngReg c r)) := by
  cases n with
  | zero => exact absurd rfl hz
  | succ n => rfl

/-- The proof data of region 2 on core `c`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay3 (acc V c t.val t.isLt) (iblk V c 2 t)
  Φ t := Phi V c t.val (Nat.le_of_lt_succ t.isLt)
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = k2_pay3 (acc V c t.val t.isLt) (iblk V c 2 t) := by dsimp only [dat]

/-- Each input's current staging buffer holds its block at every point. -/
theorem before_0 (c : Dev nD) (t : Fin cfg2.N) (d) : (dat V c).before 0 t d = iblk V c 0 t := by
  refine ((dat V c).before_in_eq_fetched 0 rfl (fun _ => rfl) (fun _ _ _ => rfl) (fun t => ?_) t d).trans ?_
  · rw [after_0]; unfold Dat.blockOf iblk; rw [A_eq]; try rfl
  · unfold Dat.fetched Dat.blockOf iblk; rw [A_eq]; try rfl
theorem before_1 (c : Dev nD) (t : Fin cfg2.N) (d) : (dat V c).before 1 t d = iblk V c 1 t := by
  refine ((dat V c).before_in_eq_fetched 1 rfl (fun _ => rfl) (fun _ _ _ => rfl) (fun t => ?_) t d).trans ?_
  · rw [after_1]; unfold Dat.blockOf iblk; rw [A_eq]; try rfl
  · unfold Dat.fetched Dat.blockOf iblk; rw [A_eq]; try rfl
theorem before_2 (c : Dev nD) (t : Fin cfg2.N) (d) : (dat V c).before 2 t d = iblk V c 2 t := by
  refine ((dat V c).before_in_eq_fetched 2 rfl (fun _ => rfl) (fun _ _ _ => rfl) (fun t => ?_) t d).trans ?_
  · rw [after_2]; unfold Dat.blockOf iblk; rw [A_eq]; try rfl
  · unfold Dat.fetched Dat.blockOf iblk; rw [A_eq]; try rfl

/-! ## The body at a point -/

/-- The invariant at a point's start, restated at the point's position. -/
private theorem Phi_castSucc (c : Dev nD) (t : Fin cfg2.N) :
    (dat V c).Φ t.castSucc = Phi V c t.val (Nat.le_of_lt t.isLt) := by
  dsimp only [dat]; simp only [Fin.coe_castSucc]

/-- The inputs are live at every point: the body leaves each one's block in its buffer. -/
private theorem leaves_0 (c : Dev nD) (t : Fin cfg2.N) :
    (dat V c).leavesExact 0 t = owns (c : Thread nD τ) (st2_0 t) fullShare (iblk V c 0 t) := by
  unfold Dat.leavesExact; rw [show cfg2.idle 0 (cfg2.grid.coords t) = false from rfl, after_0]
private theorem leaves_1 (c : Dev nD) (t : Fin cfg2.N) :
    (dat V c).leavesExact 1 t = owns (c : Thread nD τ) (st2_1 t) fullShare (iblk V c 1 t) := by
  unfold Dat.leavesExact; rw [show cfg2.idle 1 (cfg2.grid.coords t) = false from rfl, after_1]
private theorem leaves_2 (c : Dev nD) (t : Fin cfg2.N) :
    (dat V c).leavesExact 2 t = owns (c : Thread nD τ) (st2_2 t) fullShare (iblk V c 2 t) := by
  unfold Dat.leavesExact; rw [show cfg2.idle 2 (cfg2.grid.coords t) = false from rfl, after_2]

/-- Away from the last points of the innermost axis the output window is idle, -/
private theorem idle_3 (t : Fin cfg2.N) (h : ¬ atLast (grid2.coords t)) : cfg2.idle 3 (cfg2.grid.coords t) = true := by
  show (!(k2_cond2 (grid2.coords t) == 1#1)) = true
  rw [Bool.not_eq_true', beq_eq_false_iff_ne]; exact h
/-- and its block is not written back there; -/
private theorem noFlush_3 (t : Fin cfg2.N) (h : t.val % 8 ≠ 7) : (cfg2.win 3).flush t = false :=
  Bool.eq_false_iff.mpr fun hf => h ((flush2_3 t).mp hf)
/-- at the last points it is live. -/
private theorem live_3 (t : Fin cfg2.N) (h : atLast (grid2.coords t)) : cfg2.idle 3 (cfg2.grid.coords t) = false := by
  show (!(k2_cond2 (grid2.coords t) == 1#1)) = false
  rw [show k2_cond2 (grid2.coords t) = 1#1 from h]; rfl

/-- What the body is handed at point `t`, the windows one by one, -/
private def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it hands back. -/
private def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The three inputs' buffers hold their blocks. Where the innermost coordinate is 0 the
    accumulator is overwritten, so whatever it held will do (before the very first point the class invariant's
    "anything", afterwards what the point before left, forgotten); elsewhere it holds what the point before left and
    the product is added to it. The output window is idle, and handed back as found, except where the innermost
    coordinate is 7: there it receives the accumulator with the bias block added. The bias block and, away from the
    last points, the output buffer are not touched by the body and pass through. -/
private theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = Phi V c (t.val + 1) t.isLt from rfl, Phi_succ]
  rw [leaves_0, leaves_1, leaves_2]
  have hN : t.val < 512 := lt_of_lt_of_eq t.isLt (show cfg2.N = 512 from N_2)
  by_cases h0 : t.val % 8 = 0
  · have hF : atFirst (grid2.coords t) := (atFirst_iff t).mpr h0
    have hL : ¬ atLast (grid2.coords t) := fun h => by have := (atLast_iff t).mp h; omega
    rw [Dat.leavesExact_idle (dat V c) 3 t (idle_3 t hL) (noFlush_3 t (by omega))]
    rw [acc_first V c t h0]
    by_cases hz : t.val = 0
    · rw [Phi_castSucc V c t, Phi_zero V c _ _ hz, PhiA_eq]
      iintro ⟨⟨⟨HS, HO⟩, Hg⟩, Ho, ⟨%d0, H0⟩, ⟨%d1, H1⟩, ⟨%d2, H2⟩, H3⟩
      iapply (run_first c Set.univ (grid2.coords t) _ _ _ _ _ _ _ _ _ _ hF hL (iblk V c 0 t) (iblk V c 1 t) _)
      isplitl [H0]; · iexact H0
      isplitl [H1]; · iexact H1
      isplitl [HS]; · iexact HS
      iintro ⟨H0, H1, HS⟩
      isplitl [HS HO Hg]
      · isplitl [HS HO]
        · isplitl [HS]; · iexact HS
          iexact HO
        iexact Hg
      isplitl [Ho]; · iexact Ho
      isplitl [H0]; · iexact H0
      isplitl [H1]; · iexact H1
      isplitl [H2]; · iexact H2
      iexact H3
    · rw [Phi_castSucc V c t, Phi_pos V c _ _ hz]
      iintro ⟨⟨⟨HS, HO⟩, Hg⟩, Ho, ⟨%d0, H0⟩, ⟨%d1, H1⟩, ⟨%d2, H2⟩, H3⟩
      iapply (run_first c Set.univ (grid2.coords t) _ _ _ _ _ _ _ _ _ _ hF hL (iblk V c 0 t) (iblk V c 1 t) _)
      isplitl [H0]; · iexact H0
      isplitl [H1]; · iexact H1
      isplitl [HS]; · iexists _; iexact HS
      iintro ⟨H0, H1, HS⟩
      isplitl [HS HO Hg]
      · isplitl [HS HO]
        · isplitl [HS]; · iexact HS
          iexact HO
        iexact Hg
      isplitl [Ho]; · iexact Ho
      isplitl [H0]; · iexact H0
      isplitl [H1]; · iexact H1
      isplitl [H2]; · iexact H2
      iexact H3
  · have hF : ¬ atFirst (grid2.coords t) := fun h => h0 ((atFirst_iff t).mp h)
    have hz : t.val ≠ 0 := fun h => h0 (by rw [h])
    rw [acc_next V c t h0, Phi_castSucc V c t, Phi_pos V c _ _ hz]
    by_cases h7 : t.val % 8 = 7
    · have hL : atLast (grid2.coords t) := (atLast_iff t).mpr h7
      rw [show (dat V c).leavesExact 3 t = owns (c : Thread nD τ) (st2_3 t) fullShare ((dat V c).after 3 t) from by
        unfold Dat.leavesExact; rw [live_3 t hL], after_3, acc_next V c t h0]
      iintro ⟨⟨⟨HS, HO⟩, Hg⟩, Ho, ⟨%d0, H0⟩, ⟨%d1, H1⟩, ⟨%d2, H2⟩, ⟨%d3, H3⟩⟩
      iapply (run_last c Set.univ (grid2.coords t) _ _ _ _ _ _ _ _ _ _ hF hL (iblk V c 0 t) (iblk V c 1 t) (iblk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HO Hg]
      · isplitl [HS HO]
        · isplitl [HS]; · iexact HS
          iexact HO
        iexact Hg
      isplitl [Ho]; · iexact Ho
      isplitl [H0]; · iexact H0
      isplitl [H1]; · iexact H1
      isplitl [H2]; · iexact H2
      iexact H3
    · have hL : ¬ atLast (grid2.coords t) := fun h => h7 ((atLast_iff t).mp h)
      rw [Dat.leavesExact_idle (dat V c) 3 t (idle_3 t hL) (noFlush_3 t h7)]
      iintro ⟨⟨⟨HS, HO⟩, Hg⟩, Ho, ⟨%d0, H0⟩, ⟨%d1, H1⟩, ⟨%d2, H2⟩, H3⟩
      iapply (run_middle c Set.univ (grid2.coords t) _ _ _ _ _ _ _ _ _ _ hF hL (iblk V c 0 t) (iblk V c 1 t) _ _)
      isplitl [H0]; · iexact H0
      isplitl [H1]; · iexact H1
      isplitl [HS]; · iexact HS
      iintro ⟨H0, H1, HS⟩
      isplitl [HS HO Hg]
      · isplitl [HS HO]
        · isplitl [HS]; · iexact HS
          iexact HO
        iexact Hg
      isplitl [Ho]; · iexact Ho
      isplitl [H0]; · iexact H0
      isplitl [H1]; · iexact H1
      isplitl [H2]; · iexact H2
      iexact H3

/-- The body obligation at every point. -/
theorem body_obligation (c : Dev nD) : BodyObligation (dat (F := F) V c) (defs₀ (F := F)) Variants.none () Set.univ := fun t => by
  rw [bigSep_W2, bigSep_W2]
  exact sound_body V c t

/-- What the launch hands the region is the invariant before the first point, -/
theorem hin (c : Dev nD) : Pipeline.ΦA spec2 c ⊢ (dat V c).Φ 0 := by
  rw [show (dat V c).Φ 0 = Phi V c 0 (Nat.zero_le _) from rfl, Phi_zero V c 0 _ rfl]
  try exact Idealize.SL.BI.Entails.refl _
/-- and after the last point the invariant gives it back. -/
theorem hout (c : Dev nD) : (dat V c).Φ (Fin.last cfg2.N) ⊢ Pipeline.ΦA spec2 c := by
  have hN : cfg2.N = 512 := N_2
  rw [show (dat V c).Φ (Fin.last cfg2.N) = Phi V c (Fin.last cfg2.N).val (Nat.le_of_lt_succ (Fin.last cfg2.N).isLt) from rfl,
    Phi_pos V c _ _ (by rw [Fin.val_last]; omega), PhiA_eq]
  iintro ⟨⟨HS, HO⟩, Hg⟩
  isplitl [HS HO]
  · isplitl [HS]
    · iexists _; iexact HS
    iexact HO
  iexact Hg

end Cert.Kernel.Proj

end
-- ==== Proof.Bits.Run.lean ====
import proofs.«156051_j65481071410654_1_alg».proof.Proof.Bits.GramData
import proofs.«156051_j65481071410654_1_alg».proof.Proof.Bits.MixData
import proofs.«156051_j65481071410654_1_alg».proof.Proof.Bits.ProjData
import proofs.«156051_j65481071410654_1_alg».proof.Proof.Gen.Kernel.Regions
import Idealize.ShloMosaic.Lib.Pipeline.RegionsLoop

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The whole program: one stretch of host operations, then the three regions in a row. The contents of the core's
    unscoped buffers at each boundary are a fold from the launch memory: the host stretch's results, then each region's
    output array at what its write-backs leave, every other buffer as before. Every weakly fair execution ends with
    those buffers at the last boundary's contents; the arguments are never written. -/

variable (m : (ℓ : Loc nD τ sig) → Buf (Elt F) ℓ) (ρ : Dev nD → PrngReg)

/-- Core `c`'s buffers at launch, -/
abbrev W0 : Dev nD → Valuation τ sig (Elt F) := fun c b => m (c, b)
/-- after the host stretch (region 0's entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- after region 0: its output array at what the region leaves (region 1's entry), -/
def W2 (c : Dev nD) : Valuation τ sig (Elt F) :=
  Function.update (W1 m c) (Proc.devRef .tc main_v7) ((Gram.dat (V1 m) c).arrAt 5 cfg0.N)
abbrev V2 : (c : Dev nD) → (b : Ref sig .tc) → Buf (Elt F) ((c : Thread nD τ).loc b) := fun c b => W2 m c b
/-- after region 1 (region 2's entry), -/
def W3 (c : Dev nD) : Valuation τ sig (Elt F) :=
  Function.update (W2 m c) (Proc.devRef .tc main_v8) ((Mix.dat (V2 m) c).arrAt 2 cfg1.N)
abbrev V3 : (c : Dev nD) → (b : Ref sig .tc) → Buf (Elt F) ((c : Thread nD τ).loc b) := fun c b => W3 m c b
/-- and after region 2. -/
def W4 (c : Dev nD) : Valuation τ sig (Elt F) :=
  Function.update (W3 m c) (Proc.devRef .tc main_v9) ((Proj.dat (V3 m) c).arrAt 3 cfg2.N)

/-! ## The fold read at single buffers -/

theorem V2_main_v7 (c : Dev nD) : V2 m c main_v7 = (Gram.dat (V1 m) c).arrAt 5 cfg0.N := by
  show W2 m c (Proc.devRef .tc main_v7) = _
  unfold W2; exact Function.update_self _ _ _
theorem V2_of_ne (c : Dev nD) (b : Ref sig .tc) (h : b ≠ main_v7) : V2 m c b = V1 m c b := by
  show W2 m c (Proc.devRef .tc b) = W1 m c (Proc.devRef .tc b)
  unfold W2; exact Function.update_of_ne (StableHlo.devRef_ne_of_ne h) _ _
theorem V3_main_v8 (c : Dev nD) : V3 m c main_v8 = (Mix.dat (V2 m) c).arrAt 2 cfg1.N := by
  show W3 m c (Proc.devRef .tc main_v8) = _
  unfold W3; exact Function.update_self _ _ _
theorem V3_of_ne (c : Dev nD) (b : Ref sig .tc) (h : b ≠ main_v8) : V3 m c b = V2 m c b := by
  show W3 m c (Proc.devRef .tc b) = W2 m c (Proc.devRef .tc b)
  unfold W3; exact Function.update_of_ne (StableHlo.devRef_ne_of_ne h) _ _
theorem W4_main_v9 (c : Dev nD) : W4 m c (Proc.devRef .tc main_v9) = (Proj.dat (V3 m) c).arrAt 3 cfg2.N := by
  unfold W4; exact Function.update_self _ _ _
theorem W4_of_ne (c : Dev nD) (b : Ref sig .tc) (h : b ≠ main_v9) : W4 m c (Proc.devRef .tc b) = W3 m c (Proc.devRef .tc b) := by
  unfold W4; exact Function.update_of_ne (StableHlo.devRef_ne_of_ne h) _ _
/-- A buffer that is no region's output and that no host operation writes holds at the end what it held at launch:
    each boundary's update passes it by, and so does the host stretch. -/
private theorem W4_untouched (c : Dev nD) (b : Ref sig .tc) (h9 : b ≠ main_v9) (h8 : b ≠ main_v8) (h7 : b ≠ main_v7)
    (hW : b ∉ hostOps0_W) : W4 m c (Proc.devRef .tc b) = m ((c : Thread nD τ).loc b) :=
  (W4_of_ne m c b h9).trans <| (V3_of_ne m c b h8).trans <| (V2_of_ne m c b h7).trans <| (V1_of m c b hW).trans rfl

/-- An argument reaches the end as launched: no host operation and no region writes it. -/
theorem W4_main_arg0 (c : Dev nD) : W4 m c (Proc.devRef .tc main_arg0) = m ((c : Thread nD τ).loc main_arg0) := by
  exact W4_untouched m c main_arg0 (by decide) (by decide) (by decide) (by decide)
theorem W4_main_arg1 (c : Dev nD) : W4 m c (Proc.devRef .tc main_arg1) = m ((c : Thread nD τ).loc main_arg1) := by
  exact W4_untouched m c main_arg1 (by decide) (by decide) (by decide) (by decide)
theorem W4_main_arg2 (c : Dev nD) : W4 m c (Proc.devRef .tc main_arg2) = m ((c : Thread nD τ).loc main_arg2) := by
  exact W4_untouched m c main_arg2 (by decide) (by decide) (by decide) (by decide)
theorem W4_main_arg3 (c : Dev nD) : W4 m c (Proc.devRef .tc main_arg3) = m ((c : Thread nD τ).loc main_arg3) := by
  exact W4_untouched m c main_arg3 (by decide) (by decide) (by decide) (by decide)

/-! ## The proof data of the three regions, and what rides beside the buffers -/

/-- Every region's proof data, each over the contents its region is entered from. -/
def pdats : (p : Fin 3) → (c : Dev nD) → Dat τ (Elt F) Unit ℕ (UR sig nD τ) ℕ (Pipeline.pin (pcfgs (F := F)) adm p) c
  | ⟨0, _⟩ => fun c => Gram.dat (V1 m) c
  | ⟨1, _⟩ => fun c => Mix.dat (V2 m) c
  | ⟨2, _⟩ => fun c => Proj.dat (V3 m) c

/-- No core owes another anything: no cell has a level. -/
abbrev noLv : GSem nD τ sig → Finset Unit := fun _ => ∅
abbrev lvl : GSem nD τ sig → Unit → ℕ := fun _ _ => 0

/-- Beside its buffers a core carries, from the launch to the end, its generator register at some state and the fact
    that it owes nothing. -/
abbrev Side (c : Dev nD) : sProp 𝕄 :=
  iprop((∃ r, prngReg c r) ∗ ∃ W, owes (c : Thread nD τ) (0 : CellTallies nD τ sig Unit) W)

/-- A core between two items of the program: every unscoped buffer whole at the boundary's contents, and the rest. -/
abbrev Between (W : Dev nD → Valuation τ sig (Elt F)) (c : Dev nD) : sProp 𝕄 :=
  iprop(StableHlo.held (c : Thread nD τ) (Pipeline.ucRefs τ sig) (W c) ∗ Side c)

/-! ## What the three regions' entries and exits share -/

section Shared

variable {cfg : Cfg sig Λ₀} {c : Dev nD} (d : Dat τ (Elt F) Unit ℕ (UR sig nD τ) ℕ cfg c)

/-- A core that owes nothing enters a region whose proof data owe nothing at the first point and bound nothing there. -/
private theorem owes_enter (h0 : d.owed 0 = 0) (hr : d.recorded 0 = Set.univ) :
    (iprop(∃ W, owes (c : Thread nD τ) (0 : CellTallies nD τ sig Unit) W) : sProp 𝕄) ⊢ d.owesAt () 0 := by
  unfold Pipeline.Dat.owesAt Pipeline.owesWithin
  rw [h0]
  iintro ⟨%W, HO⟩
  iexists W
  isplitr
  · ipureintro; intro x _; exact Or.inl (hr ▸ Set.mem_univ x)
  iexact HO

/-- A region whose proof data owe nothing at the last point leaves the core owing nothing. -/
private theorem owes_leave (hN : d.owed (Fin.last cfg.N) = 0) :
    d.owesAt () (Fin.last cfg.N) ⊢ (iprop(∃ W, owes (c : Thread nD τ) (0 : CellTallies nD τ sig Unit) W) : sProp 𝕄) := by
  unfold Pipeline.Dat.owesAt Pipeline.owesWithin
  rw [hN]
  iintro ⟨%W, -, HO⟩
  iexists W
  iexact HO

/-- ENTRY, given how the held buffers `B` split into the region's arrays `A` and what bypasses it `Z`: the generator
    register goes to the region's invariant, the core's owing nothing to the pipeline, and there is no prefetched
    table (`T` from nothing) and no semaphore of the kernel's own. -/
private theorem enter_of_split (h0 : d.owed 0 = 0) (hr : d.recorded 0 = Set.univ) (B A Z T : sProp 𝕄)
    (hsplit : B ⊢ iprop(A ∗ Z)) (hT : (BI.emp : sProp 𝕄) ⊢ T) :
    iprop(iprop(B ∗ Side c) ∗ BI.emp ∗ levAts noLv lvl)
      ⊢ |={Set.univ}=> iprop(A ∗ T ∗ d.owesAt () 0 ∗ (∃ r, prngReg c r) ∗ Z) := by
  iintro ⟨⟨HB, Hg, HO⟩, -, -⟩
  ihave H := hsplit $$ HB
  icases H with ⟨HA, HZ⟩
  imodintro
  isplitl [HA]; · iexact HA
  isplitr
  · iapply hT; iempintro
  isplitl [HO]
  · iapply (owes_enter d h0 hr); iexact HO
  isplitl [Hg]; · iexact Hg
  iexact HZ

/-- EXIT, given how the region's arrays `A` and what bypassed it `Z` make the held buffers `B` again. -/
private theorem leave_of_join (hN : d.owed (Fin.last cfg.N) = 0) (A Z B : sProp 𝕄) (hjoin : iprop(A ∗ Z) ⊢ B) :
    iprop(A ∗ d.owesAt () (Fin.last cfg.N) ∗ (∃ r, prngReg c r) ∗ Z) ⊢ |={Set.univ}=> iprop(B ∗ Side c) := by
  iintro ⟨HA, HO, Hg, HZ⟩
  imodintro
  isplitl [HA HZ]
  · iapply hjoin; isplitl [HA]; · iexact HA
    iexact HZ
  isplitl [Hg]; · iexact Hg
  iapply (owes_leave d hN); iexact HO

end Shared

/-- The generator register and the scoped buffers no window stages are the class's region invariant; a table, were
    there one, is not needed. -/
private theorem inv_enter {gr W : ℕ} (win : Fin W → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hg, -, Hs⟩
  isplitl [Hs]; · iexact Hs
  iexact Hg

/-- The class's region invariant gives both back, beside no semaphore of the kernel's own. -/
private theorem inv_leave {gr W : ℕ} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hs, Hg⟩
  isplitl [Hg]; · iexact Hg
  isplitr; · iempintro
  iexact Hs

/-! ## Region 0: two windows on one array -/

/-- Region 0's six windows' arrays, at contents read off a valuation `V`, are the five distinct buffers behind them,
    each whole at `V`: the narrowed input, which windows 0 and 1 both read, is held by them in two halves that make
    the full share, and every other window holds its own array whole. -/
private theorem arrays0_iff (c : Dev nD) (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    ((Gram.dat (V1 m) c).arrays G : sProp 𝕄)
      ⊣⊢ Pipeline.arrBufs (Ix := Unit) (Name := ℕ) (U := UR sig nD τ) (Lvl := ℕ) spec0 c V := by
  have harr : ∀ w, (cfg0.spec w).arr.IsWhole := arr_whole0
  have hhalves : ((((c : Thread nD τ).loc main_v4) ↦{fullShare} V main_v4 : sProp 𝕄))
      ⊣⊢ iprop((((c : Thread nD τ).loc main_v4) ↦{fullShare.left} V main_v4) ∗ (((c : Thread nD τ).loc main_v4) ↦{fullShare.right} V main_v4)) :=
    pointsTo_share (PosShare.mem_left_op_right fullShare)
  have hfive : (Pipeline.arrBufs (Ix := Unit) (Name := ℕ) (U := UR sig nD τ) (Lvl := ℕ) spec0 c V : sProp 𝕄)
      = iprop((((c : Thread nD τ).loc main_v4) ↦{fullShare} V main_v4) ∗ (((c : Thread nD τ).loc main_arg1) ↦{fullShare} V main_arg1)
          ∗ (((c : Thread nD τ).loc main_v2) ↦{fullShare} V main_v2) ∗ (((c : Thread nD τ).loc main_v3) ↦{fullShare} V main_v3)
          ∗ (((c : Thread nD τ).loc main_v7) ↦{fullShare} V main_v7)) := by
    unfold Pipeline.arrBufs
    exact bigSep_eq_bigSepL_of_eq [main_v4, main_arg1, main_v2, main_v3, main_v7] (by decide) (by decide) _
  rw [hfive]
  unfold Pipeline.Dat.arrays
  rw [bigSep_W0, (harr 0).set_eq_univ, (harr 2).set_eq_univ, (harr 3).set_eq_univ, (harr 4).set_eq_univ,
    (harr 5).set_eq_univ, hG 0, hG 1, hG 2, hG 3, hG 4, hG 5]
  constructor
  · iintro ⟨Hl, Hr, Ha, H2, H3, H7⟩
    isplitl [Hl Hr]
    · iapply hhalves.2
      isplitl [Hl]; · iexact Hl
      iexact Hr
    isplitl [Ha]; · iexact Ha
    isplitl [H2]; · iexact H2
    isplitl [H3]; · iexact H3
    iexact H7
  · iintro ⟨H4, Ha, H2, H3, H7⟩
    ihave H := hhalves.1 $$ H4
    icases H with ⟨Hl, Hr⟩
    isplitl [Hl]; · iexact Hl
    isplitl [Hr]; · iexact Hr
    isplitl [Ha]; · iexact Ha
    isplitl [H2]; · iexact H2
    isplitl [H3]; · iexact H3
    iexact H7

/-- ENTRY of region 0, the buffers' part: the held buffers are the five buffers behind the region's windows and the
    rest, and those five are the region's arrays at the contents it finds. -/
private theorem split0 (c : Dev nD) :
    StableHlo.held (c : Thread nD τ) (Pipeline.ucRefs τ sig) (W1 m c)
      ⊢ (iprop((Gram.dat (V1 m) c).arrays ((Gram.dat (V1 m) c).arrAt · 0)
          ∗ Pipeline.unscopedRest (Ix := Unit) (Name := ℕ) (U := UR sig nD τ) (Lvl := ℕ) spec0 c (V1 m c)) : sProp 𝕄) := by
  rw [← Pipeline.unscopedBufs_held (Ix := Unit) (Name := ℕ) (U := UR sig nD τ) (Lvl := ℕ) c (W1 m c),
    Pipeline.unscopedBufs_split₀ cfgs 0 winFacts₀0.arr_unscoped c]
  exact sep_mono (arrays0_iff m c (V1 m c) _ (Gram.A_eq (V1 m) c)).2 .rfl

/-- At region 0's exit each of its arrays holds what the next boundary's contents say: the output what the region
    leaves, an input what it held at entry, which the update at the output passes by. -/
private theorem arrs0_exit (c : Dev nD) : ∀ w : Fin 6, (Gram.dat (V1 m) c).arrAt w cfg0.N = V2 m c (Pipeline.arrRef spec0 w)
  | ⟨0, _⟩ => ((Gram.dat (V1 m) c).arrAt_in 0 rfl _).trans ((Gram.A_eq (V1 m) c 0).trans (V2_of_ne m c main_v4 (by decide)).symm)
  | ⟨1, _⟩ => ((Gram.dat (V1 m) c).arrAt_in 1 rfl _).trans ((Gram.A_eq (V1 m) c 1).trans (V2_of_ne m c main_v4 (by decide)).symm)
  | ⟨2, _⟩ => ((Gram.dat (V1 m) c).arrAt_in 2 rfl _).trans ((Gram.A_eq (V1 m) c 2).trans (V2_of_ne m c main_arg1 (by decide)).symm)
  | ⟨3, _⟩ => ((Gram.dat (V1 m) c).arrAt_in 3 rfl _).trans ((Gram.A_eq (V1 m) c 3).trans (V2_of_ne m c main_v2 (by decide)).symm)
  | ⟨4, _⟩ => ((Gram.dat (V1 m) c).arrAt_in 4 rfl _).trans ((Gram.A_eq (V1 m) c 4).trans (V2_of_ne m c main_v3 (by decide)).symm)
  | ⟨5, _⟩ => (V2_main_v7 m c).symm

/-- EXIT of region 0, the buffers' part: the two halves of the narrowed input, both at the contents the region found,
    make it whole again; the output array is at what the region leaves; every other buffer is as entered. -/
private theorem join0 (c : Dev nD) :
    iprop((Gram.dat (V1 m) c).arrays ((Gram.dat (V1 m) c).arrAt · cfg0.N)
        ∗ Pipeline.unscopedRest (Ix := Unit) (Name := ℕ) (U := UR sig nD τ) (Lvl := ℕ) spec0 c (V1 m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ cfgs 0 winFacts₀0.arr_unscoped c]
  refine sep_mono (arrays0_iff m c (V2 m c) _ (arrs0_exit m c)).1 (Entails.of_eq ?_)
  unfold Pipeline.unscopedRest
  exact bigSep_congr fun b hb => congrArg (fun f => ((((c : Thread nD τ).loc b) ↦{fullShare} f) : sProp 𝕄))
    (V2_of_ne m c b fun e => (Finset.mem_sdiff.mp hb).2 (Finset.mem_image.mpr ⟨5, Finset.mem_univ _, e.symm⟩)).symm

/-- Region 0 among the program's items: entered with every unscoped buffer at `W1`, left with them at `W2`. -/
def reg0 : Pipeline.RegionSeg (pcfgs (F := F)) adm (pdats m) () defs₀ Variants.none noLv lvl 0 where
  win := winFacts₀0
  block_pos := block_pos0
  stage_whole := stage_whole0
  K := PEmpty
  osem k := k.elim
  ho := Pipeline.OwnSemFacts.none _
  hbody c := (Gram.body_obligation (V1 m) c).loose
  hwaits := Pipeline.hwaits_of_owed_zero _ _ _ _ noLv lvl 0 fun _ _ => rfl
  pre := Between (W1 m)
  post := Between (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    refine enter_of_split (pdats m 0 c) rfl rfl _ _ _ _ (split0 m c) ?_
    unfold Pipeline.prefHeld
    rw [show (Finset.univ : Finset (Fin 0)) = ∅ from rfl, BI.bigSep_empty]
  hin c := (inv_enter spec0 c _).trans (Gram.hin (V1 m) c)
  hout c := by
    rw [Pipeline.ownSems0_none]
    exact (Gram.hout (V1 m) c).trans (inv_leave spec0 c)
  hexit c := leave_of_join (pdats m 0 c) rfl _ _ _ (join0 m c)

/-! ## Regions 1 and 2: every window its own array -/

/-- At region 1's exit each of its arrays holds what the next boundary's contents say: the output what the region
    leaves, an input what it held at entry, which no update since has touched. -/
private theorem arrs1_exit (c : Dev nD) : ∀ w : Fin 3, (pdats m 1 c).arrAt w cfg1.N = V3 m c (Pipeline.arrRef spec1 w)
  | ⟨0, _⟩ => ((Mix.dat (V2 m) c).arrAt_in 0 rfl _).trans ((Mix.A_eq (V2 m) c 0).trans (V3_of_ne m c main_v7 (by decide)).symm)
  | ⟨1, _⟩ => ((Mix.dat (V2 m) c).arrAt_in 1 rfl _).trans ((Mix.A_eq (V2 m) c 1).trans (V3_of_ne m c main_v4 (by decide)).symm)
  | ⟨2, _⟩ => (V3_main_v8 m c).symm

/-- Every buffer that is no array of region 1 is as the region found it. -/
private theorem rest1_exit (c : Dev nD) (b : Ref sig .tc) (hb : b ∉ Finset.univ.image (Pipeline.arrRef spec1)) : V3 m c b = V2 m c b :=
  V3_of_ne m c b fun e => hb (Finset.mem_image.mpr ⟨2, Finset.mem_univ _, e.symm⟩)

/-- Region 1 among the program's items: entered with every unscoped buffer at `W2`, left with them at `W3`. -/
def reg1 : Pipeline.RegionSeg (pcfgs (F := F)) adm (pdats m) () defs₀ Variants.none noLv lvl 1 where
  win := launch1.win.to₀
  block_pos := launch1.block_pos
  stage_whole := launch1.stage_whole
  K := PEmpty
  osem k := k.elim
  ho := Pipeline.OwnSemFacts.none _
  hbody c := (Mix.body_obligation (V2 m) c).loose
  hwaits := Pipeline.hwaits_of_owed_zero _ _ _ _ noLv lvl 1 fun _ _ => rfl
  pre := Between (W2 m)
  post := Between (W3 m)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) (Mix.A_eq (V2 m) c)
    rw [Pipeline.unscopedBufs_held] at hsplit
    refine enter_of_split (pdats m 1 c) rfl rfl _ _ _ _ hsplit ?_
    unfold Pipeline.prefHeld
    rw [show (Finset.univ : Finset (Fin 0)) = ∅ from rfl, BI.bigSep_empty]
  hin c := (inv_enter spec1 c _).trans (Mix.hin (V2 m) c)
  hout c := by
    rw [Pipeline.ownSems0_none]
    exact (Mix.hout (V2 m) c).trans (inv_leave spec1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (arrs1_exit m c) (rest1_exit m c)
    rw [Pipeline.unscopedBufs_held] at hjoin
    exact leave_of_join (pdats m 1 c) rfl _ _ _ hjoin

/-- The same at region 2's exit, against the last boundary's contents. -/
private theorem arrs2_exit (c : Dev nD) : ∀ w : Fin 4,
    (pdats m 2 c).arrAt w cfg2.N = W4 m c (Proc.devRef .tc (Pipeline.arrRef spec2 w))
  | ⟨0, _⟩ => ((Proj.dat (V3 m) c).arrAt_in 0 rfl _).trans ((Proj.A_eq (V3 m) c 0).trans (W4_of_ne m c main_v8 (by decide)).symm)
  | ⟨1, _⟩ => ((Proj.dat (V3 m) c).arrAt_in 1 rfl _).trans ((Proj.A_eq (V3 m) c 1).trans (W4_of_ne m c main_v5 (by decide)).symm)
  | ⟨2, _⟩ => ((Proj.dat (V3 m) c).arrAt_in 2 rfl _).trans ((Proj.A_eq (V3 m) c 2).trans (W4_of_ne m c main_v6 (by decide)).symm)
  | ⟨3, _⟩ => (W4_main_v9 m c).symm

private theorem rest2_exit (c : Dev nD) (b : Ref sig .tc) (hb : b ∉ Finset.univ.image (Pipeline.arrRef spec2)) :
    W4 m c (Proc.devRef .tc b) = V3 m c b :=
  W4_of_ne m c b fun e => hb (Finset.mem_image.mpr ⟨3, Finset.mem_univ _, e.symm⟩)

/-- Region 2 among the program's items: entered with every unscoped buffer at `W3`, left with them at `W4`. -/
def reg2 : Pipeline.RegionSeg (pcfgs (F := F)) adm (pdats m) () defs₀ Variants.none noLv lvl 2 where
  win := launch2.win.to₀
  block_pos := launch2.block_pos
  stage_whole := launch2.stage_whole
  K := PEmpty
  osem k := k.elim
  ho := Pipeline.OwnSemFacts.none _
  hbody c := (Proj.body_obligation (V3 m) c).loose
  hwaits := Pipeline.hwaits_of_owed_zero _ _ _ _ noLv lvl 2 fun _ _ => rfl
  pre := Between (W3 m)
  post := Between (W4 m)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) (Proj.A_eq (V3 m) c)
    rw [Pipeline.unscopedBufs_held] at hsplit
    refine enter_of_split (pdats m 2 c) rfl rfl _ _ _ _ hsplit ?_
    unfold Pipeline.prefHeld
    rw [show (Finset.univ : Finset (Fin 0)) = ∅ from rfl, BI.bigSep_empty]
  hin c := (inv_enter spec2 c _).trans (Proj.hin (V3 m) c)
  hout c := by
    rw [Pipeline.ownSems0_none]
    exact (Proj.hout (V3 m) c).trans (inv_leave spec2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (fun b => W4 m c (Proc.devRef .tc b)) ((pdats m 2 c).arrAt · cfg2.N) (arrs2_exit m c) (rest2_exit m c)
    rw [Pipeline.unscopedBufs_held] at hjoin
    exact leave_of_join (pdats m 2 c) rfl _ _ _ hjoin

/-! ## The program as its items, and the launch -/

/-- The host stretch as an item: its operations run over the unscoped buffers from the launch contents to `W1`, the
    rest riding along. -/
abbrev host0 : Pipeline.HostSeg (Name := ℕ) (U := UR sig nD τ) (pcfgs (F := F)) defs₀ Variants.none noLv lvl :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Side

/-- The program's four items in order. -/
abbrev items : List (Pipeline.Seg (pcfgs (F := F)) adm (pdats m) () defs₀ Variants.none noLv lvl) :=
  [.host (host0 m), .region (reg0 m), .region (reg1 m), .region (reg2 m)]

/-- What a core holds when the last region has ended, the owing nothing apart. -/
abbrev AtEnd (c : Dev nD) : sProp 𝕄 :=
  iprop(StableHlo.held (c : Thread nD τ) (Pipeline.ucRefs τ sig) (W4 m c) ∗ ∃ r, prngReg c r)

/-- The last region's exit state is the end state beside the core owing nothing. -/
private theorem end_of_last (c : Dev nD) :
    Between (W4 m) c ⊢ (iprop(AtEnd m c ∗ ∃ W, owes (c : Thread nD τ) (0 : CellTallies nD τ sig Unit) W) : sProp 𝕄) := by
  iintro ⟨Hh, Hg, HO⟩
  isplitr [HO]
  · isplitl [Hh]; · iexact Hh
    iexact Hg
  iexact HO

/-- The held buffers, beside the state interpretation of a final state, say what its memory holds at each. -/
private theorem read_end (c : Dev nD) (s' : Phys nD τ sig (Elt F)) :
    iprop(AtEnd m c ∗ SI s')
      ⊢ (|={Set.univ}=> iprop(⌜∀ b ∈ Pipeline.ucRefs τ sig, s'.mem.mem (((c : Thread nD τ)).1, b) = W4 m c b⌝ ∗ SI s') : sProp 𝕄) := by
  have hread : iprop(StableHlo.held (c : Thread nD τ) (Pipeline.ucRefs τ sig) (W4 m c) ∗ SI s')
      ⊢ (iprop(⌜∀ b ∈ Pipeline.ucRefs τ sig, s'.mem.mem (((c : Thread nD τ)).1, b) = W4 m c b⌝ ∗ SI s') : sProp 𝕄) :=
    pointsTo_read_all (Pipeline.ucRefs τ sig) (fun b => (((c : Thread nD τ)).1, b)) (W4 m c) s'
  iintro ⟨⟨Hh, -⟩, HSI⟩
  imodintro
  iapply hread
  isplitl [Hh]; · iexact Hh
  iexact HSI

/-! ## The run -/

set_option backward.isDefEq.respectTransparency.types false in
/-- Every weakly fair execution of the program from memory `m` with zero counters terminates, nothing faulting, and
    every final memory holds each unscoped buffer of every core at the last boundary's contents. -/
theorem run : θ_run defs (onTc (τ := τ) (main (F := F))) ⟨m, fun _ => 0, ρ⟩
    (fun r => ∀ c : Dev nD, ∀ b ∈ Pipeline.ucRefs τ sig, r.2.mem (((c : Thread nD τ)).1, b) = W4 m c b) := by
  exact Pipeline.θ_run_regions_kit (pcfgs (F := F)) adm (pdats m) () cellOf_inj emb₁ defs₀ Variants.none noLv lvl m ρ main (items m)
    (fun c Q => by
      rw [main_segs adm (pdats m) () Variants.none noLv lvl (host0 m) (reg0 m) (reg1 m) (reg2 m) rfl c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipeline library's own, and no core asks for a ghost resource besides
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have hnone : (BI.emp : sProp 𝕄) ⊢ bigSep Finset.univ (fun _ : Dev nD => (BI.emp : sProp 𝕄)) := by
        rw [BI.bigSep_emp_const]
      iintro Hu
      imodintro
      isplitl [Hu]
      · iapply hown; iexact Hu
      iapply hnone; iempintro)
    (T₀ := Between (W0 m)) (Tₙ := AtEnd m)
    (hch := ⟨fun _ => .rfl, fun _ => .rfl, fun _ => .rfl, fun _ => .rfl, end_of_last m⟩)
    (hinit := by
      -- core by core: the launch's unscoped buffers are the held set at the launch contents, the generator register
      -- is at its launch state, and the core owes nothing
      refine Pipeline.initEach noLv lvl fun c => ?_
      rw [show unscopedBufs c (fun b => m ((c : Thread nD τ).loc b))
          = StableHlo.held (c : Thread nD τ) (Pipeline.ucRefs τ sig) (W0 m c) from Pipeline.unscopedBufs_held c (W0 m c)]
      iintro ⟨⟨Hh, -, HO, -, Hg, -⟩, -⟩
      imodintro
      isplitl [Hh]; · iexact Hh
      isplitl [Hg]; · iexists _; iexact Hg
      iexists ∅; iexact HO)
    (QY := fun c s => ∀ b ∈ Pipeline.ucRefs τ sig, s.mem (((c : Thread nD τ)).1, b) = W4 m c b)
    (hfin := read_end m)
    (hQ := fun s h => h)

/-- An unscoped TensorCore reference is among those the run's post reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run, read at the result and at the arguments: the result array ends at what region 2 leaves, and every argument
    as launched. -/
theorem run_result : θ_run defs (onTc (τ := τ) (main (F := F))) ⟨m, fun _ => 0, ρ⟩ (fun r => ∀ c : Dev nD,
      r.2.mem ((c.tc : Thread nD τ).loc main_v9) = (Proj.dat (V3 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v9 (by decide))).trans (W4_main_v9 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.Kernel.Run

end
-- ==== Proof.Ideal.GramBody.lean ====
import proofs.«156051_j65481071410654_1_alg».proof.Proof.Gen.KernelIdeal.Launch
import proofs.«156051_j65481071410654_1_alg».proof.Proof.Gen.KernelIdeal.Skeleton
import proofs.«156051_j65481071410654_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 0 multiplies a 512×512 block of rows of the narrowed input by the transpose of another such block and adds
    the product to a 512×512 accumulator kept in scratch memory across the innermost grid axis: the accumulator is reset
    where that axis is at 0; where it is at 7 the squared distances are formed from the accumulator and the two blocks of
    row norms, and the kernel exp(−|w|·dist), narrowed, is stored into the output block. -/

/-- The innermost grid coordinate is 0: the accumulator is reset at this point. -/
abbrev atFirst (i : grid0.Coords) : Prop :=
  (Scalar.cmpi .ne (Scalar.extui (Scalar.cmpi .eq (BitVec.ofNat 32 (i 2).val) 0#32)) 0#32) = 1#1
/-- The innermost grid coordinate is 7: the output block is stored at this point. -/
abbrev atLast (i : grid0.Coords) : Prop := k0_cond2 i = 1#1

theorem atFirst_iff : ∀ t : Fin cfg0.N, atFirst (grid0.coords t) ↔ t.val % 8 = 0 :=
  (by decide +kernel : ∀ t : Fin grid0.N, atFirst (grid0.coords t) ↔ t.val % 8 = 0)
theorem atLast_iff : ∀ t : Fin cfg0.N, atLast (grid0.coords t) ↔ t.val % 8 = 7 :=
  (by decide +kernel : ∀ t : Fin grid0.N, atLast (grid0.coords t) ↔ t.val % 8 = 7)

set_option maxHeartbeats 1000000 in
/-- At a first point the accumulator, whatever it held, ends at the product of the two blocks added to zero. -/
theorem run_first (c : Dev nD) (E : Set ℕ) (i : grid0.Coords)
    (arg3 : Memref sig .tc .vmem S512x512 .bf16) (harg3 : arg3.IsWhole) (arg4 : Memref sig .tc .vmem S512x512 .bf16) (harg4 : arg4.IsWhole)
    (arg5 : Memref sig .tc .vmem S512x512 .f32) (harg5 : arg5.IsWhole) (arg6 : Memref sig .tc .vmem S512x1 .f32) (harg6 : arg6.IsWhole)
    (arg7 : Memref sig .tc .vmem S1x512 .f32) (harg7 : arg7.IsWhole) (arg8 : Memref sig .tc .vmem S512x512 .bf16) (harg8 : arg8.IsWhole)
    (arg9 : Memref sig .tc .vmem S512x512 .f32) (harg9 : arg9.IsWhole)
    (h1 : atFirst i) (h2 : ¬ atLast i) (a b : Vec F S512x512 .bf16) (K : PUnit → sProp 𝕄) :
    iprop(owns (c : Thread nD τ) arg3 fullShare a ∗ owns (c : Thread nD τ) arg4 fullShare b ∗ (∃ d, owns (c : Thread nD τ) arg9 fullShare d)
        ∗ (iprop(owns (c : Thread nD τ) arg3 fullShare a ∗ owns (c : Thread nD τ) arg4 fullShare b
            ∗ owns (c : Thread nD τ) arg9 fullShare (k0_pay2 a b (k0_pay1 (F := F)))) -∗ K ⟨⟩))
      ⊢ wp frame (wpE (defs₀ (F := F)) Variants.none c none) E (cc0__gram_kernel_fn i arg3 harg3 arg4 harg4 arg5 harg5 arg6 harg6 arg7 harg7 arg8 harg8 arg9 harg9) K := by
  simp only [cc0__gram_kernel_fn_eq_skeleton]; unfold cc0__gram_kernel_fn_skel
  unfold owns
  iintro ⟨⟨%f3, %hf3, H3⟩, ⟨%f4, %hf4, H4⟩, ⟨%d, %f9, -, H9⟩, Hk⟩
  obtain rfl := harg3.eq_unread hf3; obtain rfl := harg4.eq_unread hf4
  sl_exec (disch := first | exact h1 | exact h2)
  sl_step
  iapply Hk
  have hz : (![0, 0] : Fin S512x512.rank → ℕ) = fun _ => 0 := by funext a; fin_cases a <;> rfl
  isplitl [H3]
  · iexists _; isplitr; · ipureintro; exact hf3
    iexact H3
  isplitl [H4]
  · iexists _; isplitr; · ipureintro; exact hf4
    iexact H4
  iexists _; isplitr
  swap; · iexact H9
  ipureintro
  -- the accumulator is stored twice through the whole block: the later store decides the contents, and the value
  -- it adds to is the zero block read back from the earlier one
  sl_unfold_run_names
  rw [View.read_writes_eq_canon _ _ _ (View.cover_of_tiled _ S512x512.size (by rfl))]
  rw [View.canon_cons_unit_zero hz]
  simp only [View.readAt_eq_ld, harg3.read_unread, harg4.read_unread, View.ld_unit_zero (S := S512x512) hz,
    View.readCov_unit_zero (S := S512x512) _ hz]

set_option maxHeartbeats 1000000 in
/-- At a middle point the product of the two blocks is added to what the accumulator held. -/
theorem run_middle (c : Dev nD) (E : Set ℕ) (i : grid0.Coords)
    (arg3 : Memref sig .tc .vmem S512x512 .bf16) (harg3 : arg3.IsWhole) (arg4 : Memref sig .tc .vmem S512x512 .bf16) (harg4 : arg4.IsWhole)
    (arg5 : Memref sig .tc .vmem S512x512 .f32) (harg5 : arg5.IsWhole) (arg6 : Memref sig .tc .vmem S512x1 .f32) (harg6 : arg6.IsWhole)
    (arg7 : Memref sig .tc .vmem S1x512 .f32) (harg7 : arg7.IsWhole) (arg8 : Memref sig .tc .vmem S512x512 .bf16) (harg8 : arg8.IsWhole)
    (arg9 : Memref sig .tc .vmem S512x512 .f32) (harg9 : arg9.IsWhole)
    (h1 : ¬ atFirst i) (h2 : ¬ atLast i) (a b : Vec F S512x512 .bf16) (s : Vec F S512x512 .f32) (K : PUnit → sProp 𝕄) :
    iprop(owns (c : Thread nD τ) arg3 fullShare a ∗ owns (c : Thread nD τ) arg4 fullShare b ∗ owns (c : Thread nD τ) arg9 fullShare s
        ∗ (iprop(owns (c : Thread nD τ) arg3 fullShare a ∗ owns (c : Thread nD τ) arg4 fullShare b
            ∗ owns (c : Thread nD τ) arg9 fullShare (k0_pay2 a b s)) -∗ K ⟨⟩))
      ⊢ wp frame (wpE (defs₀ (F := F)) Variants.none c none) E (cc0__gram_kernel_fn i arg3 harg3 arg4 harg4 arg5 harg5 arg6 harg6 arg7 harg7 arg8 harg8 arg9 harg9) K := by
  simp only [cc0__gram_kernel_fn_eq_skeleton]; unfold cc0__gram_kernel_fn_skel
  unfold owns
  iintro ⟨⟨%f3, %hf3, H3⟩, ⟨%f4, %hf4, H4⟩, ⟨%f9, %hf9, H9⟩, Hk⟩
  obtain rfl := harg3.eq_unread hf3; obtain rfl := harg4.eq_unread hf4; obtain rfl := harg9.eq_unread hf9
  sl_exec (disch := first | exact h1 | exact h2)
  sl_step
  iapply Hk
  have hz : (![0, 0] : Fin S512x512.rank → ℕ) = fun _ => 0 := by funext a; fin_cases a <;> rfl
  isplitl [H3]
  · iexists _; isplitr; · ipureintro; exact hf3
    iexact H3
  isplitl [H4]
  · iexists _; isplitr; · ipureintro; exact hf4
    iexact H4
  iexists _; isplitr
  swap; · iexact H9
  ipureintro
  -- one store through the whole block leaves its payload, and each load through the whole block reads the contents
  sl_unfold_run_names
  rw [View.read_writes_eq_canon _ _ _ (View.cover_of_tiled _ S512x512.size (by rfl))]
  rw [View.canon_unit_zero hz]
  simp only [View.readAt_eq_ld, harg3.read_unread, harg4.read_unread, harg9.read_unread, View.ld_unit_zero (S := S512x512) hz]

set_option maxHeartbeats 1000000 in
/-- At a last point the product is added to the accumulator, and the output block is computed from the sum, the two
    blocks of row norms and the block of weights. -/
theorem run_last (c : Dev nD) (E : Set ℕ) (i : grid0.Coords)
    (arg3 : Memref sig .tc .vmem S512x512 .bf16) (harg3 : arg3.IsWhole) (arg4 : Memref sig .tc .vmem S512x512 .bf16) (harg4 : arg4.IsWhole)
    (arg5 : Memref sig .tc .vmem S512x512 .f32) (harg5 : arg5.IsWhole) (arg6 : Memref sig .tc .vmem S512x1 .f32) (harg6 : arg6.IsWhole)
    (arg7 : Memref sig .tc .vmem S1x512 .f32) (harg7 : arg7.IsWhole) (arg8 : Memref sig .tc .vmem S512x512 .bf16) (harg8 : arg8.IsWhole)
    (arg9 : Memref sig .tc .vmem S512x512 .f32) (harg9 : arg9.IsWhole)
    (h1 : ¬ atFirst i) (h2 : atLast i) (a b : Vec F S512x512 .bf16) (w : Vec F S512x512 .f32) (p : Vec F S512x1 .f32) (r : Vec F S1x512 .f32)
    (s : Vec F S512x512 .f32) (K : PUnit → sProp 𝕄) :
    iprop(owns (c : Thread nD τ) arg3 fullShare a ∗ owns (c : Thread nD τ) arg4 fullShare b ∗ owns (c : Thread nD τ) arg5 fullShare w ∗ owns (c : Thread nD τ) arg6 fullShare p ∗ owns (c : Thread nD τ) arg7 fullShare r
        ∗ (∃ d, owns (c : Thread nD τ) arg8 fullShare d) ∗ owns (c : Thread nD τ) arg9 fullShare s
        ∗ (iprop(owns (c : Thread nD τ) arg3 fullShare a ∗ owns (c : Thread nD τ) arg4 fullShare b ∗ owns (c : Thread nD τ) arg5 fullShare w ∗ owns (c : Thread nD τ) arg6 fullShare p ∗ owns (c : Thread nD τ) arg7 fullShare r
            ∗ owns (c : Thread nD τ) arg8 fullShare (k0_pay3 p r (k0_pay2 a b s) w)
            ∗ owns (c : Thread nD τ) arg9 fullShare (k0_pay2 a b s)) -∗ K ⟨⟩))
      ⊢ wp frame (wpE (defs₀ (F := F)) Variants.none c none) E (cc0__gram_kernel_fn i arg3 harg3 arg4 harg4 arg5 harg5 arg6 harg6 arg7 harg7 arg8 harg8 arg9 harg9) K := by
  simp only [cc0__gram_kernel_fn_eq_skeleton]; unfold cc0__gram_kernel_fn_skel
  unfold owns
  iintro ⟨⟨%f3, %hf3, H3⟩, ⟨%f4, %hf4, H4⟩, ⟨%f5, %hf5, H5⟩, ⟨%f6, %hf6, H6⟩, ⟨%f7, %hf7, H7⟩, ⟨%d, %f8, -, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg9.eq_unread hf9
  sl_exec (disch := first | exact h1 | exact h2)
  sl_step
  iapply Hk
  have hz : (![0, 0] : Fin S512x512.rank → ℕ) = fun _ => 0 := by funext a; fin_cases a <;> rfl
  have hzc : (![0, 0] : Fin S512x1.rank → ℕ) = fun _ => 0 := by funext a; fin_cases a <;> rfl
  have hzr : (![0, 0] : Fin S1x512.rank → ℕ) = fun _ => 0 := by funext a; fin_cases a <;> rfl
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    -- the output block holds the payload over the column and the row of norms, the accumulator read back after its
    -- store, and the weights
    sl_unfold_run_names
    rw [View.read_writes_eq_canon _ _ _ (View.cover_of_tiled _ S512x512.size (by rfl))]
    rw [View.canon_unit_zero hz]
    simp only [View.readAt_eq_ld, harg3.read_unread, harg4.read_unread, harg5.read_unread, harg6.read_unread,
      harg7.read_unread, harg9.read_unread, View.ld_unit_zero (S := S512x512) hz, View.ld_unit_zero (S := S512x1) hzc,
      View.ld_unit_zero (S := S1x512) hzr, View.readCov_unit_zero (S := S512x512) _ hz]
  iexists _; isplitr
  swap; · iexact H9
  ipureintro
  -- the accumulator holds the payload of its one store
  sl_unfold_run_names
  rw [View.read_writes_eq_canon _ _ _ (View.cover_of_tiled _ S512x512.size (by rfl))]
  rw [View.canon_unit_zero hz]
  simp only [View.readAt_eq_ld, harg3.read_unread, harg4.read_unread, harg9.read_unread, View.ld_unit_zero (S := S512x512) hz]

end Cert.KernelIdeal.Gram

end
-- ==== Proof.Ideal.GramData.lean ====
import proofs.«156051_j65481071410654_1_alg».proof.Proof.Ideal.GramBody

set_option maxRecDepth 16384

noncomputable section

namespace Cert.KernelIdeal.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 0, point by point: what the accumulator holds after each grid point, the region's proof data over the
    contents `V` its arrays hold when it is entered, and the obligation that the kernel body meets them. Two of the
    region's input windows read one array; each holds half of it. -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`: at a point whose innermost coordinate is 0 the product of the point's two blocks
    added to zero, elsewhere that product added to what the point before left. -/
def acc (c : Dev nD) : (n : ℕ) → n < cfg0.N → Vec F S512x512 .f32
  | 0, hn => k0_pay2 (iblk V c 0 ⟨0, hn⟩) (iblk V c 1 ⟨0, hn⟩) (k0_pay1 (F := F))
  | n + 1, hn =>
    if (n + 1) % 8 = 0 then k0_pay2 (iblk V c 0 ⟨n + 1, hn⟩) (iblk V c 1 ⟨n + 1, hn⟩) (k0_pay1 (F := F))
    else k0_pay2 (iblk V c 0 ⟨n + 1, hn⟩) (iblk V c 1 ⟨n + 1, hn⟩) (acc c n (Nat.lt_of_succ_lt hn))

theorem acc_first (c : Dev nD) (t : Fin cfg0.N) (h : t.val % 8 = 0) :
    acc V c t.val t.isLt = k0_pay2 (iblk V c 0 t) (iblk V c 1 t) (k0_pay1 (F := F)) := by
  obtain ⟨n, hn⟩ := t
  cases n with
  | zero => rfl
  | succ n => exact (if_pos h).trans rfl

theorem acc_next (c : Dev nD) (t : Fin cfg0.N) (h : t.val % 8 ≠ 0) :
    acc V c t.val t.isLt = k0_pay2 (iblk V c 0 t) (iblk V c 1 t) (acc V c (t.val - 1) (Nat.lt_of_le_of_lt (Nat.sub_le _ _) t.isLt)) := by
  obtain ⟨n, hn⟩ := t
  cases n with
  | zero => exact absurd (Nat.zero_mod _) h
  | succ n => exact (if_neg h).trans rfl

/-- The accumulator's memref: a whole scoped buffer of the kernel's own. -/
abbrev scM : Memref sig .tc .vmem S512x512 .f32 := Memref.whole cc0_scratch0

/-- The core's scoped buffers that are neither a staging buffer of region 0 nor its accumulator, each at some contents. -/
def Others (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The class invariant with the accumulator taken out. -/
theorem PhiA_eq (c : Dev nD) :
    (Pipeline.ΦA spec0 c : sProp 𝕄)
      = iprop(iprop((∃ d, owns (c : Thread nD τ) scM fullShare d) ∗ Others (F := F) c) ∗ (∃ r, prngReg c r)) := by
  unfold Pipeline.ΦA Pipeline.scopedRest Others
  rw [bigSep_erase (i := cc0_scratch0) (by decide)]
  simp only [scM, owns_whole]
  rfl

/-- The invariant before point `n`: before the first point the accumulator holds anything; afterwards what the point
    before left. -/
def Phi (c : Dev nD) : (n : ℕ) → n ≤ cfg0.N → sProp 𝕄
  | 0, _ => Pipeline.ΦA spec0 c
  | n + 1, hn => iprop(iprop(owns (c : Thread nD τ) scM fullShare (acc V c n hn) ∗ Others (F := F) c) ∗ (∃ r, prngReg c r))

/-- The proof data of region 0 on core `c`: the two windows that read the narrowed input hold a half of it each. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k0_pay3 (iblk V c 3 t) (iblk V c 4 t) (acc V c t.val t.isLt) (iblk V c 2 t)
  Φ t := Phi V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) :
    (dat V c).after 5 t = k0_pay3 (iblk V c 3 t) (iblk V c 4 t) (acc V c t.val t.isLt) (iblk V c 2 t) := by dsimp only [dat]

/-- Each input's current staging buffer holds its block at every point. -/
theorem before_0 (c : Dev nD) (t : Fin cfg0.N) (d) : (dat V c).before 0 t d = iblk V c 0 t := by
  exact ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t := by
  exact ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t := by
  exact ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t := by
  exact ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t := by
  exact ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! The invariant at a point, read off its position. -/

private theorem Phi_zero (c : Dev nD) (n : ℕ) (h : n ≤ cfg0.N) (hz : n = 0) : Phi V c n h = Pipeline.ΦA spec0 c := by
  subst hz; rfl

/-- Before a point that is not the first the accumulator holds what the point before left. -/
private theorem Phi_pos (c : Dev nD) (n : ℕ) (h : n ≤ cfg0.N) (hz : n ≠ 0) :
    Phi V c n h = iprop(iprop(owns (c : Thread nD τ) scM fullShare (acc V c (n - 1) (by omega)) ∗ Others (F := F) c) ∗ (∃ r, prngReg c r)) := by
  cases n with
  | zero => exact absurd rfl hz
  | succ n => rfl

private theorem Phi_at (c : Dev nD) (t : Fin cfg0.N) :
    (dat V c).Φ t.castSucc = Phi V c t.val (Nat.le_of_lt t.isLt) := by
  dsimp only [dat]; simp only [Fin.coe_castSucc]

/-! The output window is idle exactly off the last points of the innermost axis, and is written back only there. -/

private theorem idle5_of (t : Fin cfg0.N) (h : ¬ atLast (grid0.coords t)) : cfg0.idle 5 (cfg0.grid.coords t) = true := by
  show (!(k0_cond2 (grid0.coords t) == 1#1)) = true
  rw [Bool.not_eq_true', beq_eq_false_iff_ne]; exact h

private theorem live5_of (t : Fin cfg0.N) (h : atLast (grid0.coords t)) : cfg0.idle 5 (cfg0.grid.coords t) = false := by
  show (!(k0_cond2 (grid0.coords t) == 1#1)) = false
  rw [show k0_cond2 (grid0.coords t) = 1#1 from h]; rfl

private theorem noflush5_of (t : Fin cfg0.N) (h : t.val % 8 ≠ 7) : (cfg0.win 5).flush t = false :=
  Bool.eq_false_iff.mpr fun hf => h ((flush0_5 t).mp hf)

/-! What the body leaves in each window's current buffer: an input's block, as it found it; the output block at a last
    point. -/

private theorem leaves_0 (c : Dev nD) (t : Fin cfg0.N) :
    (dat V c).leavesExact 0 t = owns (c : Thread nD τ) (st0_0 t) fullShare (iblk V c 0 t) := by
  unfold Dat.leavesExact; rw [show cfg0.idle 0 (cfg0.grid.coords t) = false from rfl, after_0]
private theorem leaves_1 (c : Dev nD) (t : Fin cfg0.N) :
    (dat V c).leavesExact 1 t = owns (c : Thread nD τ) (st0_1 t) fullShare (iblk V c 1 t) := by
  unfold Dat.leavesExact; rw [show cfg0.idle 1 (cfg0.grid.coords t) = false from rfl, after_1]
private theorem leaves_2 (c : Dev nD) (t : Fin cfg0.N) :
    (dat V c).leavesExact 2 t = owns (c : Thread nD τ) (st0_2 t) fullShare (iblk V c 2 t) := by
  unfold Dat.leavesExact; rw [show cfg0.idle 2 (cfg0.grid.coords t) = false from rfl, after_2]
private theorem leaves_3 (c : Dev nD) (t : Fin cfg0.N) :
    (dat V c).leavesExact 3 t = owns (c : Thread nD τ) (st0_3 t) fullShare (iblk V c 3 t) := by
  unfold Dat.leavesExact; rw [show cfg0.idle 3 (cfg0.grid.coords t) = false from rfl, after_3]
private theorem leaves_4 (c : Dev nD) (t : Fin cfg0.N) :
    (dat V c).leavesExact 4 t = owns (c : Thread nD τ) (st0_4 t) fullShare (iblk V c 4 t) := by
  unfold Dat.leavesExact; rw [show cfg0.idle 4 (cfg0.grid.coords t) = false from rfl, after_4]
private theorem leaves_5 (c : Dev nD) (t : Fin cfg0.N) (h : atLast (grid0.coords t)) :
    (dat V c).leavesExact 5 t = owns (c : Thread nD τ) (st0_5 t) fullShare
      (k0_pay3 (iblk V c 3 t) (iblk V c 4 t) (acc V c t.val t.isLt) (iblk V c 2 t)) := by
  unfold Dat.leavesExact; rw [live5_of t h, after_5]

set_option maxHeartbeats 4800000 in
/-- The body at any point. By the innermost coordinate the point is a first, a middle or a last one. The inputs' buffers
    hold their blocks; the invariant hands the body the accumulator — at anything before the region's first point, at
    what the point before left elsewhere — and takes it back at this point's sum; the output's buffer goes through
    untouched off the last points and holds the output block at them; the windows a case does not read stay aside. -/
private theorem sound_body (c : Dev nD) (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d))
      ∗ (∃ d, owns (c : Thread nD τ) (st0_4 t) fullShare ((dat V c).before 4 t d))
      ∗ (∃ d, owns (c : Thread nD τ) (st0_5 t) fullShare ((dat V c).before 5 t d)))
    ⊢ wp frame (wpE (defs₀ (F := F)) Variants.none c none) Set.univ (bodyAt0 t) (fun _ =>
        iprop((dat V c).Φ t.succ ∗ (dat V c).owesAt () t.succ
          ∗ (dat V c).leavesExact 0 t ∗ (dat V c).leavesExact 1 t ∗ (dat V c).leavesExact 2 t
          ∗ (dat V c).leavesExact 3 t ∗ (dat V c).leavesExact 4 t ∗ (dat V c).leavesExact 5 t)) := by
  rw [leaves_0, leaves_1, leaves_2, leaves_3, leaves_4]
  simp only [before_0, before_1, before_2, before_3, before_4]
  rw [show (dat V c).owesAt () t.succ = (dat V c).owesAt () t.castSucc from rfl]
  rw [show (dat V c).Φ t.succ = iprop(iprop(owns (c : Thread nD τ) scM fullShare (acc V c t.val t.isLt) ∗ Others (F := F) c) ∗ (∃ r, prngReg c r)) from rfl]
  have hN : t.val < 512 := lt_of_lt_of_eq t.isLt (show cfg0.N = 512 from N_0)
  by_cases h0 : t.val % 8 = 0
  · have hF : atFirst (grid0.coords t) := (atFirst_iff t).mpr h0
    have hL : ¬ atLast (grid0.coords t) := fun h => by have := (atLast_iff t).mp h; omega
    rw [Dat.leavesExact_idle (dat V c) 5 t (idle5_of t hL) (noflush5_of t (by omega)), acc_first V c t h0]
    by_cases hz : t.val = 0
    · rw [Phi_at, Phi_zero V c _ _ hz, PhiA_eq]
      iintro ⟨⟨⟨HS, HO⟩, Hg⟩, Ho, ⟨%d0, H0⟩, ⟨%d1, H1⟩, ⟨%d2, H2⟩, ⟨%d3, H3⟩, ⟨%d4, H4⟩, H5⟩
      iapply (run_first c Set.univ (grid0.coords t) _ _ _ _ _ _ _ _ _ _ _ _ _ _ hF hL (iblk V c 0 t) (iblk V c 1 t) _)
      isplitl [H0]; · iexact H0
      isplitl [H1]; · iexact H1
      isplitl [HS]; · iexact HS
      iintro ⟨H0, H1, HS⟩
      isplitl [HS HO Hg]
      · isplitl [HS HO]
        · isplitl [HS]; · iexact HS
          iexact HO
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Phi_at, Phi_pos V c _ _ hz]
      iintro ⟨⟨⟨HS, HO⟩, Hg⟩, Ho, ⟨%d0, H0⟩, ⟨%d1, H1⟩, ⟨%d2, H2⟩, ⟨%d3, H3⟩, ⟨%d4, H4⟩, H5⟩
      iapply (run_first c Set.univ (grid0.coords t) _ _ _ _ _ _ _ _ _ _ _ _ _ _ hF hL (iblk V c 0 t) (iblk V c 1 t) _)
      isplitl [H0]; · iexact H0
      isplitl [H1]; · iexact H1
      isplitl [HS]; · iexists _; iexact HS
      iintro ⟨H0, H1, HS⟩
      isplitl [HS HO Hg]
      · isplitl [HS HO]
        · isplitl [HS]; · iexact HS
          iexact HO
        iexact Hg
      isplitl [Ho]; · iexact Ho
      isplitl [H0]; · iexact H0
      isplitl [H1]; · iexact H1
      isplitl [H2]; · iexact H2
      isplitl [H3]; · iexact H3
      isplitl [H4]; · iexact H4
      iexact H5
  · have hF : ¬ atFirst (grid0.coords t) := fun h => h0 ((atFirst_iff t).mp h)
    have hz : t.val ≠ 0 := fun h => h0 (by rw [h])
    by_cases h7 : t.val % 8 = 7
    · have hL : atLast (grid0.coords t) := (atLast_iff t).mpr h7
      rw [leaves_5 V c t hL, acc_next V c t h0, Phi_at, Phi_pos V c _ _ hz]
      iintro ⟨⟨⟨HS, HO⟩, Hg⟩, Ho, ⟨%d0, H0⟩, ⟨%d1, H1⟩, ⟨%d2, H2⟩, ⟨%d3, H3⟩, ⟨%d4, H4⟩, ⟨%d5, H5⟩⟩
      iapply (run_last c Set.univ (grid0.coords t) _ _ _ _ _ _ _ _ _ _ _ _ _ _ hF hL (iblk V c 0 t) (iblk V c 1 t)
        (iblk V c 2 t) (iblk V c 3 t) (iblk V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HO Hg]
      · isplitl [HS HO]
        · isplitl [HS]; · iexact HS
          iexact HO
        iexact Hg
      isplitl [Ho]; · iexact Ho
      isplitl [H0]; · iexact H0
      isplitl [H1]; · iexact H1
      isplitl [H2]; · iexact H2
      isplitl [H3]; · iexact H3
      isplitl [H4]; · iexact H4
      iexact H5
    · have hL : ¬ atLast (grid0.coords t) := fun h => h7 ((atLast_iff t).mp h)
      rw [Dat.leavesExact_idle (dat V c) 5 t (idle5_of t hL) (noflush5_of t h7), acc_next V c t h0, Phi_at,
        Phi_pos V c _ _ hz]
      iintro ⟨⟨⟨HS, HO⟩, Hg⟩, Ho, ⟨%d0, H0⟩, ⟨%d1, H1⟩, ⟨%d2, H2⟩, ⟨%d3, H3⟩, ⟨%d4, H4⟩, H5⟩
      iapply (run_middle c Set.univ (grid0.coords t) _ _ _ _ _ _ _ _ _ _ _ _ _ _ hF hL (iblk V c 0 t) (iblk V c 1 t) _ _)
      isplitl [H0]; · iexact H0
      isplitl [H1]; · iexact H1
      isplitl [HS]; · iexact HS
      iintro ⟨H0, H1, HS⟩
      isplitl [HS HO Hg]
      · isplitl [HS HO]
        · isplitl [HS]; · iexact HS
          iexact HO
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body obligation at every point. -/
theorem body_obligation (c : Dev nD) : BodyObligation (dat (F := F) V c) (defs₀ (F := F)) Variants.none () Set.univ := by
  intro t
  rw [bigSep_W0, bigSep_W0]
  exact sound_body V c t

/-- What the launch hands the region is the invariant before the first point, -/
theorem hin (c : Dev nD) : Pipeline.ΦA spec0 c ⊢ (dat V c).Φ 0 := by
  rw [show (dat V c).Φ 0 = Phi V c 0 (Nat.zero_le _) from rfl, Phi_zero V c 0 _ rfl]
/-- and after the last point the invariant gives it back. -/
theorem hout (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl,
    Phi_pos V c _ _ (by rw [Fin.val_last]; have : cfg0.N = 512 := N_0; omega), PhiA_eq]
  iintro ⟨⟨HS, HO⟩, Hg⟩
  isplitl [HS HO]
  · isplitl [HS]
    · iexists _; iexact HS
    iexact HO
  iexact Hg

end Cert.KernelIdeal.Gram

end
-- ==== Proof.Ideal.MixBody.lean ====
import proofs.«156051_j65481071410654_1_alg».proof.Proof.Gen.KernelIdeal.Launch
import proofs.«156051_j65481071410654_1_alg».proof.Proof.Gen.KernelIdeal.Skeleton
import proofs.«156051_j65481071410654_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 1 multiplies a 512×512 block of the first operand by a 512×512 block of the second and adds the product
    to a 512×512 accumulator kept in scratch memory across the innermost grid axis: the accumulator is reset where
    that axis is at 0, and where it is at 7 the accumulator is narrowed and stored into the output block. -/

/-- The innermost grid coordinate is 0: the accumulator is reset at this point. -/
abbrev atFirst (i : grid1.Coords) : Prop :=
  (Scalar.cmpi .ne (Scalar.extui (Scalar.cmpi .eq (BitVec.ofNat 32 (i 2).val) 0#32)) 0#32) = 1#1
/-- The innermost grid coordinate is 7: the output block is stored at this point. -/
abbrev atLast (i : grid1.Coords) : Prop := k1_cond2 i = 1#1

theorem atFirst_iff : ∀ t : Fin cfg1.N, atFirst (grid1.coords t) ↔ t.val % 8 = 0 :=
  (by decide +kernel : ∀ t : Fin grid1.N, atFirst (grid1.coords t) ↔ t.val % 8 = 0)
theorem atLast_iff : ∀ t : Fin cfg1.N, atLast (grid1.coords t) ↔ t.val % 8 = 7 :=
  (by decide +kernel : ∀ t : Fin grid1.N, atLast (grid1.coords t) ↔ t.val % 8 = 7)

set_option maxHeartbeats 1000000 in
/-- At a first point the accumulator, whatever it held, ends at the product of the two blocks added to zero. -/
theorem run_first (c : Dev nD) (E : Set ℕ) (i : grid1.Coords)
    (arg3 : Memref sig .tc .vmem S512x512 .bf16) (harg3 : arg3.IsWhole) (arg4 : Memref sig .tc .vmem S512x512 .bf16) (harg4 : arg4.IsWhole)
    (arg5 : Memref sig .tc .vmem S512x512 .bf16) (harg5 : arg5.IsWhole) (arg6 : Memref sig .tc .vmem S512x512 .f32) (harg6 : arg6.IsWhole)
    (h1 : atFirst i) (h2 : ¬ atLast i) (a b : Vec F S512x512 .bf16) (K : PUnit → sProp 𝕄) :
    iprop(owns (c : Thread nD τ) arg3 fullShare a ∗ owns (c : Thread nD τ) arg4 fullShare b ∗ (∃ d, owns (c : Thread nD τ) arg6 fullShare d)
        ∗ (iprop(owns (c : Thread nD τ) arg3 fullShare a ∗ owns (c : Thread nD τ) arg4 fullShare b
            ∗ owns (c : Thread nD τ) arg6 fullShare (k1_pay2 (k1_pay1 (F := F)) a b)) -∗ K ⟨⟩))
      ⊢ wp frame (wpE (defs₀ (F := F)) Variants.none c none) E (cc1__matmul_fn i arg3 harg3 arg4 harg4 arg5 harg5 arg6 harg6) K := by
  simp only [cc1__matmul_fn_eq_skeleton]; unfold cc1__matmul_fn_skel
  unfold owns
  iintro ⟨⟨%f3, %hf3, H3⟩, ⟨%f4, %hf4, H4⟩, ⟨%d, %f6, -, H6⟩, Hk⟩
  obtain rfl := harg3.eq_unread hf3; obtain rfl := harg4.eq_unread hf4
  sl_exec (disch := first | exact h1 | exact h2)
  sl_step
  iapply Hk
  have hz : (![0, 0] : Fin S512x512.rank → ℕ) = fun _ => 0 := by funext a; fin_cases a <;> rfl
  isplitl [H3]
  · iexists _; isplitr; · ipureintro; exact hf3
    iexact H3
  isplitl [H4]
  · iexists _; isplitr; · ipureintro; exact hf4
    iexact H4
  iexists _; isplitr
  swap; · iexact H6
  ipureintro
  -- the accumulator is stored twice through the whole block: the later store decides the contents, and the value
  -- it adds to is the zero block read back from the earlier one
  sl_unfold_run_names
  rw [View.read_writes_eq_canon _ _ _ (View.cover_of_tiled _ S512x512.size (by rfl))]
  rw [View.canon_cons_unit_zero hz]
  simp only [View.readAt_eq_ld, harg3.read_unread, harg4.read_unread, View.ld_unit_zero (S := S512x512) hz,
    View.readCov_unit_zero (S := S512x512) _ hz]

set_option maxHeartbeats 1000000 in
/-- At a middle point the product of the two blocks is added to what the accumulator held. -/
theorem run_middle (c : Dev nD) (E : Set ℕ) (i : grid1.Coords)
    (arg3 : Memref sig .tc .vmem S512x512 .bf16) (harg3 : arg3.IsWhole) (arg4 : Memref sig .tc .vmem S512x512 .bf16) (harg4 : arg4.IsWhole)
    (arg5 : Memref sig .tc .vmem S512x512 .bf16) (harg5 : arg5.IsWhole) (arg6 : Memref sig .tc .vmem S512x512 .f32) (harg6 : arg6.IsWhole)
    (h1 : ¬ atFirst i) (h2 : ¬ atLast i) (a b : Vec F S512x512 .bf16) (s : Vec F S512x512 .f32) (K : PUnit → sProp 𝕄) :
    iprop(owns (c : Thread nD τ) arg3 fullShare a ∗ owns (c : Thread nD τ) arg4 fullShare b ∗ owns (c : Thread nD τ) arg6 fullShare s
        ∗ (iprop(owns (c : Thread nD τ) arg3 fullShare a ∗ owns (c : Thread nD τ) arg4 fullShare b
            ∗ owns (c : Thread nD τ) arg6 fullShare (k1_pay2 s a b)) -∗ K ⟨⟩))
      ⊢ wp frame (wpE (defs₀ (F := F)) Variants.none c none) E (cc1__matmul_fn i arg3 harg3 arg4 harg4 arg5 harg5 arg6 harg6) K := by
  simp only [cc1__matmul_fn_eq_skeleton]; unfold cc1__matmul_fn_skel
  unfold owns
  iintro ⟨⟨%f3, %hf3, H3⟩, ⟨%f4, %hf4, H4⟩, ⟨%f6, %hf6, H6⟩, Hk⟩
  obtain rfl := harg3.eq_unread hf3; obtain rfl := harg4.eq_unread hf4; obtain rfl := harg6.eq_unread hf6
  sl_exec (disch := first | exact h1 | exact h2)
  sl_step
  iapply Hk
  have hz : (![0, 0] : Fin S512x512.rank → ℕ) = fun _ => 0 := by funext a; fin_cases a <;> rfl
  isplitl [H3]
  · iexists _; isplitr; · ipureintro; exact hf3
    iexact H3
  isplitl [H4]
  · iexists _; isplitr; · ipureintro; exact hf4
    iexact H4
  iexists _; isplitr
  swap; · iexact H6
  ipureintro
  -- one store through the whole block leaves its payload, and each load through the whole block reads the contents
  sl_unfold_run_names
  rw [View.read_writes_eq_canon _ _ _ (View.cover_of_tiled _ S512x512.size (by rfl))]
  rw [View.canon_unit_zero hz]
  simp only [View.readAt_eq_ld, harg3.read_unread, harg4.read_unread, harg6.read_unread, View.ld_unit_zero (S := S512x512) hz]

set_option maxHeartbeats 1000000 in
/-- At a last point the product is added to the accumulator and the sum, narrowed, is stored into the output block. -/
theorem run_last (c : Dev nD) (E : Set ℕ) (i : grid1.Coords)
    (arg3 : Memref sig .tc .vmem S512x512 .bf16) (harg3 : arg3.IsWhole) (arg4 : Memref sig .tc .vmem S512x512 .bf16) (harg4 : arg4.IsWhole)
    (arg5 : Memref sig .tc .vmem S512x512 .bf16) (harg5 : arg5.IsWhole) (arg6 : Memref sig .tc .vmem S512x512 .f32) (harg6 : arg6.IsWhole)
    (h1 : ¬ atFirst i) (h2 : atLast i) (a b : Vec F S512x512 .bf16) (s : Vec F S512x512 .f32) (K : PUnit → sProp 𝕄) :
    iprop(owns (c : Thread nD τ) arg3 fullShare a ∗ owns (c : Thread nD τ) arg4 fullShare b ∗ (∃ d, owns (c : Thread nD τ) arg5 fullShare d)
        ∗ owns (c : Thread nD τ) arg6 fullShare s
        ∗ (iprop(owns (c : Thread nD τ) arg3 fullShare a ∗ owns (c : Thread nD τ) arg4 fullShare b
            ∗ owns (c : Thread nD τ) arg5 fullShare (k1_pay3 (k1_pay2 s a b))
            ∗ owns (c : Thread nD τ) arg6 fullShare (k1_pay2 s a b)) -∗ K ⟨⟩))
      ⊢ wp frame (wpE (defs₀ (F := F)) Variants.none c none) E (cc1__matmul_fn i arg3 harg3 arg4 harg4 arg5 harg5 arg6 harg6) K := by
  simp only [cc1__matmul_fn_eq_skeleton]; unfold cc1__matmul_fn_skel
  unfold owns
  iintro ⟨⟨%f3, %hf3, H3⟩, ⟨%f4, %hf4, H4⟩, ⟨%d, %f5, -, H5⟩, ⟨%f6, %hf6, H6⟩, Hk⟩
  obtain rfl := harg3.eq_unread hf3; obtain rfl := harg4.eq_unread hf4; obtain rfl := harg6.eq_unread hf6
  sl_exec (disch := first | exact h1 | exact h2)
  sl_step
  iapply Hk
  have hz : (![0, 0] : Fin S512x512.rank → ℕ) = fun _ => 0 := by funext a; fin_cases a <;> rfl
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    -- the output block holds the narrowing of the accumulator read back after its store
    sl_unfold_run_names
    rw [View.read_writes_eq_canon _ _ _ (View.cover_of_tiled _ S512x512.size (by rfl))]
    rw [View.canon_unit_zero hz]
    simp only [View.readAt_eq_ld, harg3.read_unread, harg4.read_unread, harg6.read_unread, View.ld_unit_zero (S := S512x512) hz,
      View.readCov_unit_zero (S := S512x512) _ hz]
  iexists _; isplitr
  swap; · iexact H6
  ipureintro
  -- the accumulator holds the payload of its one store
  sl_unfold_run_names
  rw [View.read_writes_eq_canon _ _ _ (View.cover_of_tiled _ S512x512.size (by rfl))]
  rw [View.canon_unit_zero hz]
  simp only [View.readAt_eq_ld, harg3.read_unread, harg4.read_unread, harg6.read_unread, View.ld_unit_zero (S := S512x512) hz]

end Cert.KernelIdeal.Mix

end
-- ==== Proof.Ideal.MixData.lean ====
import proofs.«156051_j65481071410654_1_alg».proof.Proof.Ideal.MixBody

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 1, point by point: what the accumulator holds after each grid point, the region's proof data over the
    contents `V` its arrays hold when it is entered, and the obligation that the kernel body meets them. -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: at a point whose innermost coordinate is 0 the product of the point's two blocks
    added to zero, elsewhere that product added to what the point before left. -/
def acc (c : Dev nD) : (n : ℕ) → n < cfg1.N → Vec F S512x512 .f32
  | 0, hn => k1_pay2 (k1_pay1 (F := F)) (iblk V c 0 ⟨0, hn⟩) (iblk V c 1 ⟨0, hn⟩)
  | n + 1, hn =>
    if (n + 1) % 8 = 0 then k1_pay2 (k1_pay1 (F := F)) (iblk V c 0 ⟨n + 1, hn⟩) (iblk V c 1 ⟨n + 1, hn⟩)
    else k1_pay2 (acc c n (Nat.lt_of_succ_lt hn)) (iblk V c 0 ⟨n + 1, hn⟩) (iblk V c 1 ⟨n + 1, hn⟩)

theorem acc_first (c : Dev nD) (t : Fin cfg1.N) (h : t.val % 8 = 0) :
    acc V c t.val t.isLt = k1_pay2 (k1_pay1 (F := F)) (iblk V c 0 t) (iblk V c 1 t) := by
  obtain ⟨n, hn⟩ := t
  cases n with
  | zero => rfl
  | succ n => exact (if_pos h).trans rfl

theorem acc_next (c : Dev nD) (t : Fin cfg1.N) (h : t.val % 8 ≠ 0) :
    acc V c t.val t.isLt = k1_pay2 (acc V c (t.val - 1) (Nat.lt_of_le_of_lt (Nat.sub_le _ _) t.isLt)) (iblk V c 0 t) (iblk V c 1 t) := by
  obtain ⟨n, hn⟩ := t
  cases n with
  | zero => exact absurd (Nat.zero_mod _) h
  | succ n => exact (if_neg h).trans rfl

/-- The accumulator's memref: a whole scoped buffer of the kernel's own. -/
abbrev scM : Memref sig .tc .vmem S512x512 .f32 := Memref.whole cc1_scratch0

/-- The core's scoped buffers that are neither a staging buffer of region 1 nor its accumulator, each at some contents. -/
def Others (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The class invariant with the accumulator taken out. -/
theorem PhiA_eq (c : Dev nD) :
    (Pipeline.ΦA spec1 c : sProp 𝕄)
      = iprop(iprop((∃ d, owns (c : Thread nD τ) scM fullShare d) ∗ Others (F := F) c) ∗ (∃ r, prngReg c r)) := by
  unfold Pipeline.ΦA Pipeline.scopedRest Others
  rw [bigSep_erase (i := cc1_scratch0) (by decide)]
  simp only [scM, owns_whole]
  try rfl

/-- The invariant before point `n`: before the first point the accumulator holds anything; afterwards what the point
    before left. -/
def Phi (c : Dev nD) : (n : ℕ) → n ≤ cfg1.N → sProp 𝕄
  | 0, _ => Pipeline.ΦA spec1 c
  | n + 1, hn => iprop(iprop(owns (c : Thread nD τ) scM fullShare (acc V c n hn) ∗ Others (F := F) c) ∗ (∃ r, prngReg c r))

/-- The proof data of region 1 on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay3 (acc V c t.val t.isLt)
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = k1_pay3 (acc V c t.val t.isLt) := by dsimp only [dat]

/-- Each input's current staging buffer holds its block at every point. -/
theorem before_0 (c : Dev nD) (t : Fin cfg1.N) (d) : (dat V c).before 0 t d = iblk V c 0 t := by
  -- an input window, never idle and uncut, whose block the body leaves in place: its buffer holds the fetched block,
  have hkeep : ∀ s, (cfg1.win 0).cut (cfg1.grid.coords s) ((dat V c).after 0 s) = (dat V c).blockOf 0 s := fun s => by
    rw [after_0]; unfold Dat.blockOf iblk; rw [A_eq]; try rfl
  rw [(dat V c).before_in_eq_fetched 0 rfl (fun _ => rfl) (fun _ _ _ => rfl) hkeep t d]
  -- and for an uncut window the fetched block is the array's block.
  unfold Dat.fetched Dat.blockOf iblk; rw [A_eq]; try rfl
theorem before_1 (c : Dev nD) (t : Fin cfg1.N) (d) : (dat V c).before 1 t d = iblk V c 1 t := by
  have hkeep : ∀ s, (cfg1.win 1).cut (cfg1.grid.coords s) ((dat V c).after 1 s) = (dat V c).blockOf 1 s := fun s => by
    rw [after_1]; unfold Dat.blockOf iblk; rw [A_eq]; try rfl
  rw [(dat V c).before_in_eq_fetched 1 rfl (fun _ => rfl) (fun _ _ _ => rfl) hkeep t d]
  unfold Dat.fetched Dat.blockOf iblk; rw [A_eq]; try rfl

/-! The invariant unfolded at a position. -/

theorem Phi_succ (c : Dev nD) (n : ℕ) (hn : n < cfg1.N) :
    Phi V c (n + 1) hn
      = iprop(iprop(owns (c : Thread nD τ) scM fullShare (acc V c n hn) ∗ Others (F := F) c) ∗ (∃ r, prngReg c r)) := rfl

theorem Phi_pos (c : Dev nD) (n : ℕ) (h : n ≤ cfg1.N) (hz : n ≠ 0) :
    Phi V c n h
      = iprop(iprop(owns (c : Thread nD τ) scM fullShare (acc V c (n - 1) (by omega)) ∗ Others (F := F) c) ∗ (∃ r, prngReg c r)) := by
  cases n with
  | zero => exact absurd rfl hz
  | succ n => rfl

/-- Before any point the accumulator holds something: anything before the first, a named value afterwards. -/
theorem Phi_some (c : Dev nD) (n : ℕ) (h : n ≤ cfg1.N) :
    Phi V c n h ⊢ iprop(iprop((∃ d, owns (c : Thread nD τ) scM fullShare d) ∗ Others (F := F) c) ∗ (∃ r, prngReg c r)) := by
  cases n with
  | zero =>
    rw [show Phi V c 0 h = Pipeline.ΦA spec1 c from rfl, PhiA_eq]
  | succ n =>
    rw [Phi_succ]
    iintro ⟨⟨HS, HO⟩, Hg⟩
    isplitr [Hg]
    · isplitl [HS]
      · iexists _; iexact HS
      · iexact HO
    · iexact Hg

theorem Phi_castSucc (c : Dev nD) (t : Fin cfg1.N) :
    (dat V c).Φ t.castSucc = Phi V c t.val (Nat.le_of_lt t.isLt) := rfl

/-! Where the output window is idle: everywhere but at the last points, and it is not written back there. -/

theorem idle_2 (t : Fin cfg1.N) (h : ¬ atLast (grid1.coords t)) : cfg1.idle 2 (grid1.coords t) = true := by
  show (!(k1_cond2 (grid1.coords t) == 1#1)) = true
  rw [Bool.not_eq_true', beq_eq_false_iff_ne]
  exact h

theorem live_2 (t : Fin cfg1.N) (h : atLast (grid1.coords t)) : cfg1.idle 2 (grid1.coords t) = false := by
  show (!(k1_cond2 (grid1.coords t) == 1#1)) = false
  rw [show k1_cond2 (grid1.coords t) = 1#1 from h]
  rfl

theorem noflush_2 (t : Fin cfg1.N) (h : t.val % 8 ≠ 7) : (cfg1.win 2).flush t = false :=
  Bool.eq_false_iff.mpr fun hf => h ((flush1_2 t).mp hf)

/-- An input window is never idle: the body leaves its block where it found it. -/
theorem leaves_0 (c : Dev nD) (t : Fin cfg1.N) :
    (dat V c).leavesExact 0 t = owns (c : Thread nD τ) (st1_0 t) fullShare (iblk V c 0 t) := by
  rw [← after_0]
theorem leaves_1 (c : Dev nD) (t : Fin cfg1.N) :
    (dat V c).leavesExact 1 t = owns (c : Thread nD τ) (st1_1 t) fullShare (iblk V c 1 t) := by
  rw [← after_1]

/-- The obligation at a point, the windows written out one by one. -/
theorem body_at (c : Dev nD) (t : Fin cfg1.N) :
    iprop((dat V c).Φ t.castSucc ∗ (dat V c).owesAt () t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d)))
      ⊢ wp frame (wpE (defs₀ (F := F)) Variants.none c none) Set.univ (bodyAt1 t) (fun _ =>
          iprop((dat V c).Φ t.succ ∗ (dat V c).owesAt () t.succ
            ∗ (dat V c).leavesExact 0 t ∗ (dat V c).leavesExact 1 t ∗ (dat V c).leavesExact 2 t)) := by
  simp only [before_0, before_1]
  rw [show (dat V c).owesAt () t.succ = (dat V c).owesAt () t.castSucc from rfl]
  rw [show (dat V c).Φ t.succ = Phi V c (t.val + 1) t.isLt from rfl, Phi_succ, leaves_0, leaves_1, Phi_castSucc]
  have hN : t.val < 512 := lt_of_lt_of_eq t.isLt N_1
  by_cases h0 : t.val % 8 = 0
  · -- a first point: the accumulator, whatever it held, is reset; the output window is idle
    have hF : atFirst (grid1.coords t) := (atFirst_iff t).mpr h0
    have hL : ¬ atLast (grid1.coords t) := fun h => by have := (atLast_iff t).mp h; omega
    rw [Dat.leavesExact_idle (dat V c) 2 t (idle_2 t hL) (noflush_2 t (by omega)), acc_first V c t h0]
    iintro ⟨HΦ, Ho, ⟨%d0, H0⟩, ⟨%d1, H1⟩, H2⟩
    icases (Phi_some V c t.val (Nat.le_of_lt t.isLt)) $$ HΦ with ⟨⟨HS, HO⟩, Hg⟩
    iapply (run_first c Set.univ (grid1.coords t) _ _ _ _ _ _ _ _ hF hL (iblk V c 0 t) (iblk V c 1 t) _)
    isplitl [H0]; · iexact H0
    isplitl [H1]; · iexact H1
    isplitl [HS]; · iexact HS
    iintro ⟨H0, H1, HS⟩
    isplitl [HS HO Hg]
    · isplitr [Hg]
      · isplitl [HS]
        · iexact HS
        · iexact HO
      · iexact Hg
    isplitl [Ho]; · iexact Ho
    isplitl [H0]; · iexact H0
    isplitl [H1]; · iexact H1
    iexact H2
  · have hF : ¬ atFirst (grid1.coords t) := fun h => h0 ((atFirst_iff t).mp h)
    have hz : t.val ≠ 0 := fun h => h0 (by rw [h])
    rw [Phi_pos V c _ _ hz, acc_next V c t h0]
    by_cases h7 : t.val % 8 = 7
    · -- a last point: the sum, narrowed, goes into the output block
      have hL : atLast (grid1.coords t) := (atLast_iff t).mpr h7
      rw [show (dat V c).leavesExact 2 t = owns (c : Thread nD τ) (st1_2 t) fullShare ((dat V c).after 2 t) from by
        unfold Dat.leavesExact; rw [live_2 t hL], after_2, acc_next V c t h0]
      iintro ⟨⟨⟨HS, HO⟩, Hg⟩, Ho, ⟨%d0, H0⟩, ⟨%d1, H1⟩, ⟨%d2, H2⟩⟩
      iapply (run_last c Set.univ (grid1.coords t) _ _ _ _ _ _ _ _ hF hL (iblk V c 0 t) (iblk V c 1 t) _ _)
      isplitl [H0]; · iexact H0
      isplitl [H1]; · iexact H1
      isplitl [H2]; · iexists _; iexact H2
      isplitl [HS]; · iexact HS
      iintro ⟨H0, H1, H2, HS⟩
      isplitl [HS HO Hg]
      · isplitr [Hg]
        · isplitl [HS]
          · iexact HS
          · iexact HO
        · iexact Hg
      isplitl [Ho]; · iexact Ho
      isplitl [H0]; · iexact H0
      isplitl [H1]; · iexact H1
      iexact H2
    · -- a middle point: the product is added to the accumulator; the output window is idle
      have hL : ¬ atLast (grid1.coords t) := fun h => h7 ((atLast_iff t).mp h)
      rw [Dat.leavesExact_idle (dat V c) 2 t (idle_2 t hL) (noflush_2 t h7)]
      iintro ⟨⟨⟨HS, HO⟩, Hg⟩, Ho, ⟨%d0, H0⟩, ⟨%d1, H1⟩, H2⟩
      iapply (run_middle c Set.univ (grid1.coords t) _ _ _ _ _ _ _ _ hF hL (iblk V c 0 t) (iblk V c 1 t) _ _)
      isplitl [H0]; · iexact H0
      isplitl [H1]; · iexact H1
      isplitl [HS]; · iexact HS
      iintro ⟨H0, H1, HS⟩
      isplitl [HS HO Hg]
      · isplitr [Hg]
        · isplitl [HS]
          · iexact HS
          · iexact HO
        · iexact Hg
      isplitl [Ho]; · iexact Ho
      isplitl [H0]; · iexact H0
      isplitl [H1]; · iexact H1
      iexact H2

/-- The body obligation at every point. -/
theorem body_obligation (c : Dev nD) : BodyObligation (dat (F := F) V c) (defs₀ (F := F)) Variants.none () Set.univ := fun t => by
  rw [bigSep_W1, bigSep_W1]
  exact body_at V c t

/-- What the launch hands the region is the invariant before the first point, -/
theorem hin (c : Dev nD) : Pipeline.ΦA spec1 c ⊢ (dat V c).Φ 0 :=
  Entails.refl _
/-- and after the last point the invariant gives it back. -/
theorem hout (c : Dev nD) : (dat V c).Φ (Fin.last cfg1.N) ⊢ Pipeline.ΦA spec1 c := by
  rw [PhiA_eq]
  exact Phi_some V c cfg1.N (Nat.le_refl _)

end Cert.KernelIdeal.Mix

end
-- ==== Proof.Ideal.ProjBody.lean ====
import proofs.«156051_j65481071410654_1_alg».proof.Proof.Gen.KernelIdeal.Launch
import proofs.«156051_j65481071410654_1_alg».proof.Proof.Gen.KernelIdeal.Skeleton
import proofs.«156051_j65481071410654_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 2 multiplies a 512×512 block of the mixed rows by the transpose of a 512×512 block of the narrowed output
    weights and adds the product to a 512×512 accumulator kept in scratch memory across the innermost grid axis: the
    accumulator is reset where that axis is at 0, and where it is at 7 the block of the bias row is added to the
    accumulator along the rows and the sum is stored into the output block. -/

/-- The innermost grid coordinate is 0: the accumulator is reset at this point. -/
abbrev atFirst (i : grid2.Coords) : Prop :=
  (Scalar.cmpi .ne (Scalar.extui (Scalar.cmpi .eq (BitVec.ofNat 32 (i 2).val) 0#32)) 0#32) = 1#1
/-- The innermost grid coordinate is 7: the output block is stored at this point. -/
abbrev atLast (i : grid2.Coords) : Prop := k2_cond2 i = 1#1

theorem atFirst_iff : ∀ t : Fin cfg2.N, atFirst (grid2.coords t) ↔ t.val % 8 = 0 :=
  (by decide +kernel : ∀ t : Fin grid2.N, atFirst (grid2.coords t) ↔ t.val % 8 = 0)
theorem atLast_iff : ∀ t : Fin cfg2.N, atLast (grid2.coords t) ↔ t.val % 8 = 7 :=
  (by decide +kernel : ∀ t : Fin grid2.N, atLast (grid2.coords t) ↔ t.val % 8 = 7)

set_option maxHeartbeats 1000000 in
/-- At a first point the accumulator, whatever it held, ends at the product of the two blocks added to zero. -/
theorem run_first (c : Dev nD) (E : Set ℕ) (i : grid2.Coords)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (h1 : atFirst i) (h2 : ¬ atLast i) (a b : Vec F S512x512 .bf16) (K : PUnit → sProp 𝕄) :
    iprop(owns (c : Thread nD τ) arg3 fullShare a ∗ owns (c : Thread nD τ) arg4 fullShare b ∗ (∃ d, owns (c : Thread nD τ) arg7 fullShare d)
        ∗ (iprop(owns (c : Thread nD τ) arg3 fullShare a ∗ owns (c : Thread nD τ) arg4 fullShare b
            ∗ owns (c : Thread nD τ) arg7 fullShare (k2_pay2 a b (k2_pay1 (F := F)))) -∗ K ⟨⟩))
      ⊢ wp frame (wpE (defs₀ (F := F)) Variants.none c none) E (cc2__final_fn i arg3 harg3 arg4 harg4 arg5 harg5 arg6 harg6 arg7 harg7) K := by
  simp only [cc2__final_fn_eq_skeleton]; unfold cc2__final_fn_skel
  unfold owns
  iintro ⟨⟨%f3, %hf3, H3⟩, ⟨%f4, %hf4, H4⟩, ⟨%d, %f7, -, H7⟩, Hk⟩
  obtain rfl := harg3.eq_unread hf3; obtain rfl := harg4.eq_unread hf4
  sl_exec (disch := first | exact h1 | exact h2)
  sl_step
  iapply Hk
  have hz : (![0, 0] : Fin S512x512.rank → ℕ) = fun _ => 0 := by funext a; fin_cases a <;> rfl
  isplitl [H3]
  · iexists _; isplitr; · ipureintro; exact hf3
    iexact H3
  isplitl [H4]
  · iexists _; isplitr; · ipureintro; exact hf4
    iexact H4
  iexists _; isplitr
  swap; · iexact H7
  ipureintro
  -- the accumulator is stored twice through the whole block: the later store decides the contents, and the value
  -- it adds to is the zero block read back from the earlier one
  sl_unfold_run_names
  rw [View.read_writes_eq_canon _ _ _ (View.cover_of_tiled _ S512x512.size (by rfl))]
  rw [View.canon_cons_unit_zero hz]
  simp only [View.readAt_eq_ld, harg3.read_unread, harg4.read_unread, View.ld_unit_zero (S := S512x512) hz,
    View.readCov_unit_zero (S := S512x512) _ hz]

set_option maxHeartbeats 1000000 in
/-- At a middle point the product of the two blocks is added to what the accumulator held. -/
theorem run_middle (c : Dev nD) (E : Set ℕ) (i : grid2.Coords)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (h1 : ¬ atFirst i) (h2 : ¬ atLast i) (a b : Vec F S512x512 .bf16) (s : Vec F S512x512 .f32) (K : PUnit → sProp 𝕄) :
    iprop(owns (c : Thread nD τ) arg3 fullShare a ∗ owns (c : Thread nD τ) arg4 fullShare b ∗ owns (c : Thread nD τ) arg7 fullShare s
        ∗ (iprop(owns (c : Thread nD τ) arg3 fullShare a ∗ owns (c : Thread nD τ) arg4 fullShare b
            ∗ owns (c : Thread nD τ) arg7 fullShare (k2_pay2 a b s)) -∗ K ⟨⟩))
      ⊢ wp frame (wpE (defs₀ (F := F)) Variants.none c none) E (cc2__final_fn i arg3 harg3 arg4 harg4 arg5 harg5 arg6 harg6 arg7 harg7) K := by
  simp only [cc2__final_fn_eq_skeleton]; unfold cc2__final_fn_skel
  unfold owns
  iintro ⟨⟨%f3, %hf3, H3⟩, ⟨%f4, %hf4, H4⟩, ⟨%f7, %hf7, H7⟩, Hk⟩
  obtain rfl := harg3.eq_unread hf3; obtain rfl := harg4.eq_unread hf4; obtain rfl := harg7.eq_unread hf7
  sl_exec (disch := first | exact h1 | exact h2)
  sl_step
  iapply Hk
  have hz : (![0, 0] : Fin S512x512.rank → ℕ) = fun _ => 0 := by funext a; fin_cases a <;> rfl
  isplitl [H3]
  · iexists _; isplitr; · ipureintro; exact hf3
    iexact H3
  isplitl [H4]
  · iexists _; isplitr; · ipureintro; exact hf4
    iexact H4
  iexists _; isplitr
  swap; · iexact H7
  ipureintro
  -- one store through the whole block leaves its payload, and each load through the whole block reads the contents
  sl_unfold_run_names
  rw [View.read_writes_eq_canon _ _ _ (View.cover_of_tiled _ S512x512.size (by rfl))]
  rw [View.canon_unit_zero hz]
  simp only [View.readAt_eq_ld, harg3.read_unread, harg4.read_unread, harg7.read_unread, View.ld_unit_zero (S := S512x512) hz]

set_option maxHeartbeats 1000000 in
/-- At a last point the product is added to the accumulator, and the sum with the bias block added is stored into the
    output block. -/
theorem run_last (c : Dev nD) (E : Set ℕ) (i : grid2.Coords)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (h1 : ¬ atFirst i) (h2 : atLast i) (a b : Vec F S512x512 .bf16) (r : Vec F S1x512 .f32) (s : Vec F S512x512 .f32) (K : PUnit → sProp 𝕄) :
    iprop(owns (c : Thread nD τ) arg3 fullShare a ∗ owns (c : Thread nD τ) arg4 fullShare b ∗ owns (c : Thread nD τ) arg5 fullShare r ∗ (∃ d, owns (c : Thread nD τ) arg6 fullShare d) ∗ owns (c : Thread nD τ) arg7 fullShare s
        ∗ (iprop(owns (c : Thread nD τ) arg3 fullShare a ∗ owns (c : Thread nD τ) arg4 fullShare b ∗ owns (c : Thread nD τ) arg5 fullShare r
            ∗ owns (c : Thread nD τ) arg6 fullShare (k2_pay3 (k2_pay2 a b s) r)
            ∗ owns (c : Thread nD τ) arg7 fullShare (k2_pay2 a b s)) -∗ K ⟨⟩))
      ⊢ wp frame (wpE (defs₀ (F := F)) Variants.none c none) E (cc2__final_fn i arg3 harg3 arg4 harg4 arg5 harg5 arg6 harg6 arg7 harg7) K := by
  simp only [cc2__final_fn_eq_skeleton]; unfold cc2__final_fn_skel
  unfold owns
  iintro ⟨⟨%f3, %hf3, H3⟩, ⟨%f4, %hf4, H4⟩, ⟨%f5, %hf5, H5⟩, ⟨%d, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact h1 | exact h2)
  sl_step
  iapply Hk
  have hz : (![0, 0] : Fin S512x512.rank → ℕ) = fun _ => 0 := by funext a; fin_cases a <;> rfl
  have hzr : (![0, 0] : Fin S1x512.rank → ℕ) = fun _ => 0 := by funext a; fin_cases a <;> rfl
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    -- the output block holds the accumulator read back after its store, with the bias row added along the rows
    sl_unfold_run_names
    rw [View.read_writes_eq_canon _ _ _ (View.cover_of_tiled _ S512x512.size (by rfl))]
    rw [View.canon_unit_zero hz]
    simp only [View.readAt_eq_ld, harg3.read_unread, harg4.read_unread, harg5.read_unread, harg7.read_unread,
      View.ld_unit_zero (S := S512x512) hz, View.ld_unit_zero (S := S1x512) hzr, View.readCov_unit_zero (S := S512x512) _ hz]
  iexists _; isplitr
  swap; · iexact H7
  ipureintro
  -- the accumulator holds the payload of its one store
  sl_unfold_run_names
  rw [View.read_writes_eq_canon _ _ _ (View.cover_of_tiled _ S512x512.size (by rfl))]
  rw [View.canon_unit_zero hz]
  simp only [View.readAt_eq_ld, harg3.read_unread, harg4.read_unread, harg7.read_unread, View.ld_unit_zero (S := S512x512) hz]

end Cert.KernelIdeal.Proj

end
-- ==== Proof.Ideal.ProjData.lean ====
import proofs.«156051_j65481071410654_1_alg».proof.Proof.Ideal.ProjBody

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 2, point by point: what the accumulator holds after each grid point, the region's proof data over the
    contents `V` its arrays hold when it is entered, and the obligation that the kernel body meets them. -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point `n`: at a point whose innermost coordinate is 0 the product of the point's two blocks
    added to zero, elsewhere that product added to what the point before left. -/
def acc (c : Dev nD) : (n : ℕ) → n < cfg2.N → Vec F S512x512 .f32
  | 0, hn => k2_pay2 (iblk V c 0 ⟨0, hn⟩) (iblk V c 1 ⟨0, hn⟩) (k2_pay1 (F := F))
  | n + 1, hn =>
    if (n + 1) % 8 = 0 then k2_pay2 (iblk V c 0 ⟨n + 1, hn⟩) (iblk V c 1 ⟨n + 1, hn⟩) (k2_pay1 (F := F))
    else k2_pay2 (iblk V c 0 ⟨n + 1, hn⟩) (iblk V c 1 ⟨n + 1, hn⟩) (acc c n (Nat.lt_of_succ_lt hn))

theorem acc_first (c : Dev nD) (t : Fin cfg2.N) (h : t.val % 8 = 0) :
    acc V c t.val t.isLt = k2_pay2 (iblk V c 0 t) (iblk V c 1 t) (k2_pay1 (F := F)) := by
  obtain ⟨n, hn⟩ := t
  cases n with
  | zero => exact rfl
  | succ n => exact (if_pos h).trans rfl

theorem acc_next (c : Dev nD) (t : Fin cfg2.N) (h : t.val % 8 ≠ 0) :
    acc V c t.val t.isLt = k2_pay2 (iblk V c 0 t) (iblk V c 1 t) (acc V c (t.val - 1) (Nat.lt_of_le_of_lt (Nat.sub_le _ _) t.isLt)) := by
  obtain ⟨n, hn⟩ := t
  cases n with
  | zero => exact absurd (Nat.zero_mod _) h
  | succ n => exact (if_neg h).trans rfl

/-- The accumulator's memref: a whole scoped buffer of the kernel's own. -/
abbrev scM : Memref sig .tc .vmem S512x512 .f32 := Memref.whole cc2_scratch0

/-- The core's scoped buffers that are neither a staging buffer of region 2 nor its accumulator, each at some contents. -/
def Others (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

/-- The class invariant with the accumulator taken out. -/
theorem PhiA_eq (c : Dev nD) :
    (Pipeline.ΦA spec2 c : sProp 𝕄)
      = iprop(iprop((∃ d, owns (c : Thread nD τ) scM fullShare d) ∗ Others (F := F) c) ∗ (∃ r, prngReg c r)) := by
  unfold Pipeline.ΦA Pipeline.scopedRest Others
  rw [bigSep_erase (i := cc2_scratch0) (by decide)]
  simp only [scM, owns_whole]
  try rfl

/-- The invariant before point `n`: before the first point the accumulator holds anything; afterwards what the point
    before left. -/
def Phi (c : Dev nD) : (n : ℕ) → n ≤ cfg2.N → sProp 𝕄
  | 0, _ => Pipeline.ΦA spec2 c
  | n + 1, hn => iprop(iprop(owns (c : Thread nD τ) scM fullShare (acc V c n hn) ∗ Others (F := F) c) ∗ (∃ r, prngReg c r))

private theorem Phi_zero (c : Dev nD) (n : ℕ) (h : n ≤ cfg2.N) (hz : n = 0) : Phi V c n h = Pipeline.ΦA spec2 c := by
  subst hz; rfl

/-- After point `n`: the accumulator at that point's contents. -/
private theorem Phi_succ (c : Dev nD) (n : ℕ) (hn : n < cfg2.N) :
    Phi V c (n + 1) hn
      = iprop(iprop(owns (c : Thread nD τ) scM fullShare (acc V c n hn) ∗ Others (F := F) c) ∗ (∃ r, prngReg c r)) := rfl

/-- Before a point that is not the first: the accumulator at what the point before left. -/
private theorem Phi_pos (c : Dev nD) (n : ℕ) (h : n ≤ cfg2.N) (hz : n ≠ 0) :
    Phi V c n h
      = iprop(iprop(owns (c : Thread nD τ) scM fullShare (acc V c (n - 1) (by omega)) ∗ Others (F := F) c) ∗ (∃ r, prngReg c r)) := by
  cases n with
  | zero => exact absurd rfl hz
  | succ n => rfl

/-- The proof data of region 2 on core `c`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay3 (acc V c t.val t.isLt) (iblk V c 2 t)
  Φ t := Phi V c t.val (Nat.le_of_lt_succ t.isLt)
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = k2_pay3 (acc V c t.val t.isLt) (iblk V c 2 t) := by dsimp only [dat]

/-- Each input's current staging buffer holds its block at every point. -/
theorem before_0 (c : Dev nD) (t : Fin cfg2.N) (d) : (dat V c).before 0 t d = iblk V c 0 t := by
  refine ((dat V c).before_in_eq_fetched 0 rfl (fun _ => rfl) (fun _ _ _ => rfl) (fun t => ?_) t d).trans ?_
  · rw [after_0]; unfold Dat.blockOf iblk; rw [A_eq]; try rfl
  · unfold Dat.fetched Dat.blockOf iblk; rw [A_eq]; try rfl
theorem before_1 (c : Dev nD) (t : Fin cfg2.N) (d) : (dat V c).before 1 t d = iblk V c 1 t := by
  refine ((dat V c).before_in_eq_fetched 1 rfl (fun _ => rfl) (fun _ _ _ => rfl) (fun t => ?_) t d).trans ?_
  · rw [after_1]; unfold Dat.blockOf iblk; rw [A_eq]; try rfl
  · unfold Dat.fetched Dat.blockOf iblk; rw [A_eq]; try rfl
theorem before_2 (c : Dev nD) (t : Fin cfg2.N) (d) : (dat V c).before 2 t d = iblk V c 2 t := by
  refine ((dat V c).before_in_eq_fetched 2 rfl (fun _ => rfl) (fun _ _ _ => rfl) (fun t => ?_) t d).trans ?_
  · rw [after_2]; unfold Dat.blockOf iblk; rw [A_eq]; try rfl
  · unfold Dat.fetched Dat.blockOf iblk; rw [A_eq]; try rfl

/-! ## The body at a point -/

/-- The invariant at a point's start, restated at the point's position. -/
private theorem Phi_castSucc (c : Dev nD) (t : Fin cfg2.N) :
    (dat V c).Φ t.castSucc = Phi V c t.val (Nat.le_of_lt t.isLt) := by
  dsimp only [dat]; simp only [Fin.coe_castSucc]

/-- The inputs are live at every point: the body leaves each one's block in its buffer. -/
private theorem leaves_0 (c : Dev nD) (t : Fin cfg2.N) :
    (dat V c).leavesExact 0 t = owns (c : Thread nD τ) (st2_0 t) fullShare (iblk V c 0 t) := by
  unfold Dat.leavesExact; rw [show cfg2.idle 0 (cfg2.grid.coords t) = false from rfl, after_0]
private theorem leaves_1 (c : Dev nD) (t : Fin cfg2.N) :
    (dat V c).leavesExact 1 t = owns (c : Thread nD τ) (st2_1 t) fullShare (iblk V c 1 t) := by
  unfold Dat.leavesExact; rw [show cfg2.idle 1 (cfg2.grid.coords t) = false from rfl, after_1]
private theorem leaves_2 (c : Dev nD) (t : Fin cfg2.N) :
    (dat V c).leavesExact 2 t = owns (c : Thread nD τ) (st2_2 t) fullShare (iblk V c 2 t) := by
  unfold Dat.leavesExact; rw [show cfg2.idle 2 (cfg2.grid.coords t) = false from rfl, after_2]

/-- Away from the last points of the innermost axis the output window is idle, -/
private theorem idle_3 (t : Fin cfg2.N) (h : ¬ atLast (grid2.coords t)) : cfg2.idle 3 (cfg2.grid.coords t) = true := by
  show (!(k2_cond2 (grid2.coords t) == 1#1)) = true
  rw [Bool.not_eq_true', beq_eq_false_iff_ne]; exact h
/-- and its block is not written back there; -/
private theorem noFlush_3 (t : Fin cfg2.N) (h : t.val % 8 ≠ 7) : (cfg2.win 3).flush t = false :=
  Bool.eq_false_iff.mpr fun hf => h ((flush2_3 t).mp hf)
/-- at the last points it is live. -/
private theorem live_3 (t : Fin cfg2.N) (h : atLast (grid2.coords t)) : cfg2.idle 3 (cfg2.grid.coords t) = false := by
  show (!(k2_cond2 (grid2.coords t) == 1#1)) = false
  rw [show k2_cond2 (grid2.coords t) = 1#1 from h]; rfl

/-- What the body is handed at point `t`, the windows one by one, -/
private def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it hands back. -/
private def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The three inputs' buffers hold their blocks. Where the innermost coordinate is 0 the
    accumulator is overwritten, so whatever it held will do (before the very first point the class invariant's
    "anything", afterwards what the point before left, forgotten); elsewhere it holds what the point before left and
    the product is added to it. The output window is idle, and handed back as found, except where the innermost
    coordinate is 7: there it receives the accumulator with the bias block added. The bias block and, away from the
    last points, the output buffer are not touched by the body and pass through. -/
private theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = Phi V c (t.val + 1) t.isLt from rfl, Phi_succ]
  rw [leaves_0, leaves_1, leaves_2]
  have hN : t.val < 512 := lt_of_lt_of_eq t.isLt (show cfg2.N = 512 from N_2)
  by_cases h0 : t.val % 8 = 0
  · have hF : atFirst (grid2.coords t) := (atFirst_iff t).mpr h0
    have hL : ¬ atLast (grid2.coords t) := fun h => by have := (atLast_iff t).mp h; omega
    rw [Dat.leavesExact_idle (dat V c) 3 t (idle_3 t hL) (noFlush_3 t (by omega))]
    rw [acc_first V c t h0]
    by_cases hz : t.val = 0
    · rw [Phi_castSucc V c t, Phi_zero V c _ _ hz, PhiA_eq]
      iintro ⟨⟨⟨HS, HO⟩, Hg⟩, Ho, ⟨%d0, H0⟩, ⟨%d1, H1⟩, ⟨%d2, H2⟩, H3⟩
      iapply (run_first c Set.univ (grid2.coords t) _ _ _ _ _ _ _ _ _ _ hF hL (iblk V c 0 t) (iblk V c 1 t) _)
      isplitl [H0]; · iexact H0
      isplitl [H1]; · iexact H1
      isplitl [HS]; · iexact HS
      iintro ⟨H0, H1, HS⟩
      isplitl [HS HO Hg]
      · isplitl [HS HO]
        · isplitl [HS]; · iexact HS
          iexact HO
        iexact Hg
      isplitl [Ho]; · iexact Ho
      isplitl [H0]; · iexact H0
      isplitl [H1]; · iexact H1
      isplitl [H2]; · iexact H2
      iexact H3
    · rw [Phi_castSucc V c t, Phi_pos V c _ _ hz]
      iintro ⟨⟨⟨HS, HO⟩, Hg⟩, Ho, ⟨%d0, H0⟩, ⟨%d1, H1⟩, ⟨%d2, H2⟩, H3⟩
      iapply (run_first c Set.univ (grid2.coords t) _ _ _ _ _ _ _ _ _ _ hF hL (iblk V c 0 t) (iblk V c 1 t) _)
      isplitl [H0]; · iexact H0
      isplitl [H1]; · iexact H1
      isplitl [HS]; · iexists _; iexact HS
      iintro ⟨H0, H1, HS⟩
      isplitl [HS HO Hg]
      · isplitl [HS HO]
        · isplitl [HS]; · iexact HS
          iexact HO
        iexact Hg
      isplitl [Ho]; · iexact Ho
      isplitl [H0]; · iexact H0
      isplitl [H1]; · iexact H1
      isplitl [H2]; · iexact H2
      iexact H3
  · have hF : ¬ atFirst (grid2.coords t) := fun h => h0 ((atFirst_iff t).mp h)
    have hz : t.val ≠ 0 := fun h => h0 (by rw [h])
    rw [acc_next V c t h0, Phi_castSucc V c t, Phi_pos V c _ _ hz]
    by_cases h7 : t.val % 8 = 7
    · have hL : atLast (grid2.coords t) := (atLast_iff t).mpr h7
      rw [show (dat V c).leavesExact 3 t = owns (c : Thread nD τ) (st2_3 t) fullShare ((dat V c).after 3 t) from by
        unfold Dat.leavesExact; rw [live_3 t hL], after_3, acc_next V c t h0]
      iintro ⟨⟨⟨HS, HO⟩, Hg⟩, Ho, ⟨%d0, H0⟩, ⟨%d1, H1⟩, ⟨%d2, H2⟩, ⟨%d3, H3⟩⟩
      iapply (run_last c Set.univ (grid2.coords t) _ _ _ _ _ _ _ _ _ _ hF hL (iblk V c 0 t) (iblk V c 1 t) (iblk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HO Hg]
      · isplitl [HS HO]
        · isplitl [HS]; · iexact HS
          iexact HO
        iexact Hg
      isplitl [Ho]; · iexact Ho
      isplitl [H0]; · iexact H0
      isplitl [H1]; · iexact H1
      isplitl [H2]; · iexact H2
      iexact H3
    · have hL : ¬ atLast (grid2.coords t) := fun h => h7 ((atLast_iff t).mp h)
      rw [Dat.leavesExact_idle (dat V c) 3 t (idle_3 t hL) (noFlush_3 t h7)]
      iintro ⟨⟨⟨HS, HO⟩, Hg⟩, Ho, ⟨%d0, H0⟩, ⟨%d1, H1⟩, ⟨%d2, H2⟩, H3⟩
      iapply (run_middle c Set.univ (grid2.coords t) _ _ _ _ _ _ _ _ _ _ hF hL (iblk V c 0 t) (iblk V c 1 t) _ _)
      isplitl [H0]; · iexact H0
      isplitl [H1]; · iexact H1
      isplitl [HS]; · iexact HS
      iintro ⟨H0, H1, HS⟩
      isplitl [HS HO Hg]
      · isplitl [HS HO]
        · isplitl [HS]; · iexact HS
          iexact HO
        iexact Hg
      isplitl [Ho]; · iexact Ho
      isplitl [H0]; · iexact H0
      isplitl [H1]; · iexact H1
      isplitl [H2]; · iexact H2
      iexact H3

/-- The body obligation at every point. -/
theorem body_obligation (c : Dev nD) : BodyObligation (dat (F := F) V c) (defs₀ (F := F)) Variants.none () Set.univ := fun t => by
  rw [bigSep_W2, bigSep_W2]
  exact sound_body V c t

/-- What the launch hands the region is the invariant before the first point, -/
theorem hin (c : Dev nD) : Pipeline.ΦA spec2 c ⊢ (dat V c).Φ 0 := by
  rw [show (dat V c).Φ 0 = Phi V c 0 (Nat.zero_le _) from rfl, Phi_zero V c 0 _ rfl]
  try exact Idealize.SL.BI.Entails.refl _
/-- and after the last point the invariant gives it back. -/
theorem hout (c : Dev nD) : (dat V c).Φ (Fin.last cfg2.N) ⊢ Pipeline.ΦA spec2 c := by
  have hN : cfg2.N = 512 := N_2
  rw [show (dat V c).Φ (Fin.last cfg2.N) = Phi V c (Fin.last cfg2.N).val (Nat.le_of_lt_succ (Fin.last cfg2.N).isLt) from rfl,
    Phi_pos V c _ _ (by rw [Fin.val_last]; omega), PhiA_eq]
  iintro ⟨⟨HS, HO⟩, Hg⟩
  isplitl [HS HO]
  · isplitl [HS]
    · iexists _; iexact HS
    iexact HO
  iexact Hg

end Cert.KernelIdeal.Proj

end
-- ==== Proof.Ideal.Run.lean ====
import proofs.«156051_j65481071410654_1_alg».proof.Proof.Ideal.GramData
import proofs.«156051_j65481071410654_1_alg».proof.Proof.Ideal.MixData
import proofs.«156051_j65481071410654_1_alg».proof.Proof.Ideal.ProjData
import proofs.«156051_j65481071410654_1_alg».proof.Proof.Gen.KernelIdeal.Regions
import Idealize.ShloMosaic.Lib.Pipeline.RegionsLoop

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The whole program: one stretch of host operations, then the three regions in a row. The contents of the core's
    unscoped buffers at each boundary are a fold from the launch memory: the host stretch's results, then each region's
    output array at what its write-backs leave, every other buffer as before. Every weakly fair execution ends with
    those buffers at the last boundary's contents; the arguments are never written. -/

variable (m : (ℓ : Loc nD τ sig) → Buf (Elt F) ℓ) (ρ : Dev nD → PrngReg)

/-- Core `c`'s buffers at launch, -/
abbrev W0 : Dev nD → Valuation τ sig (Elt F) := fun c b => m (c, b)
/-- after the host stretch (region 0's entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- after region 0: its output array at what the region leaves (region 1's entry), -/
def W2 (c : Dev nD) : Valuation τ sig (Elt F) :=
  Function.update (W1 m c) (Proc.devRef .tc main_v7) ((Gram.dat (V1 m) c).arrAt 5 cfg0.N)
abbrev V2 : (c : Dev nD) → (b : Ref sig .tc) → Buf (Elt F) ((c : Thread nD τ).loc b) := fun c b => W2 m c b
/-- after region 1 (region 2's entry), -/
def W3 (c : Dev nD) : Valuation τ sig (Elt F) :=
  Function.update (W2 m c) (Proc.devRef .tc main_v8) ((Mix.dat (V2 m) c).arrAt 2 cfg1.N)
abbrev V3 : (c : Dev nD) → (b : Ref sig .tc) → Buf (Elt F) ((c : Thread nD τ).loc b) := fun c b => W3 m c b
/-- and after region 2. -/
def W4 (c : Dev nD) : Valuation τ sig (Elt F) :=
  Function.update (W3 m c) (Proc.devRef .tc main_v9) ((Proj.dat (V3 m) c).arrAt 3 cfg2.N)

/-! ## The fold read at single buffers -/

theorem V2_main_v7 (c : Dev nD) : V2 m c main_v7 = (Gram.dat (V1 m) c).arrAt 5 cfg0.N := by
  show W2 m c (Proc.devRef .tc main_v7) = _
  unfold W2; exact Function.update_self _ _ _
theorem V2_of_ne (c : Dev nD) (b : Ref sig .tc) (h : b ≠ main_v7) : V2 m c b = V1 m c b := by
  show W2 m c (Proc.devRef .tc b) = W1 m c (Proc.devRef .tc b)
  unfold W2; exact Function.update_of_ne (StableHlo.devRef_ne_of_ne h) _ _
theorem V3_main_v8 (c : Dev nD) : V3 m c main_v8 = (Mix.dat (V2 m) c).arrAt 2 cfg1.N := by
  show W3 m c (Proc.devRef .tc main_v8) = _
  unfold W3; exact Function.update_self _ _ _
theorem V3_of_ne (c : Dev nD) (b : Ref sig .tc) (h : b ≠ main_v8) : V3 m c b = V2 m c b := by
  show W3 m c (Proc.devRef .tc b) = W2 m c (Proc.devRef .tc b)
  unfold W3; exact Function.update_of_ne (StableHlo.devRef_ne_of_ne h) _ _
theorem W4_main_v9 (c : Dev nD) : W4 m c (Proc.devRef .tc main_v9) = (Proj.dat (V3 m) c).arrAt 3 cfg2.N := by
  unfold W4; exact Function.update_self _ _ _
theorem W4_of_ne (c : Dev nD) (b : Ref sig .tc) (h : b ≠ main_v9) : W4 m c (Proc.devRef .tc b) = W3 m c (Proc.devRef .tc b) := by
  unfold W4; exact Function.update_of_ne (StableHlo.devRef_ne_of_ne h) _ _
/-- A buffer that is no region's output and that no host operation writes holds at the end what it held at launch:
    each boundary's update passes it by, and so does the host stretch. -/
private theorem W4_untouched (c : Dev nD) (b : Ref sig .tc) (h9 : b ≠ main_v9) (h8 : b ≠ main_v8) (h7 : b ≠ main_v7)
    (hW : b ∉ hostOps0_W) : W4 m c (Proc.devRef .tc b) = m ((c : Thread nD τ).loc b) :=
  (W4_of_ne m c b h9).trans <| (V3_of_ne m c b h8).trans <| (V2_of_ne m c b h7).trans <| (V1_of m c b hW).trans rfl

/-- An argument reaches the end as launched: no host operation and no region writes it. -/
theorem W4_main_arg0 (c : Dev nD) : W4 m c (Proc.devRef .tc main_arg0) = m ((c : Thread nD τ).loc main_arg0) := by
  exact W4_untouched m c main_arg0 (by decide) (by decide) (by decide) (by decide)
theorem W4_main_arg1 (c : Dev nD) : W4 m c (Proc.devRef .tc main_arg1) = m ((c : Thread nD τ).loc main_arg1) := by
  exact W4_untouched m c main_arg1 (by decide) (by decide) (by decide) (by decide)
theorem W4_main_arg2 (c : Dev nD) : W4 m c (Proc.devRef .tc main_arg2) = m ((c : Thread nD τ).loc main_arg2) := by
  exact W4_untouched m c main_arg2 (by decide) (by decide) (by decide) (by decide)
theorem W4_main_arg3 (c : Dev nD) : W4 m c (Proc.devRef .tc main_arg3) = m ((c : Thread nD τ).loc main_arg3) := by
  exact W4_untouched m c main_arg3 (by decide) (by decide) (by decide) (by decide)

/-! ## The proof data of the three regions, and what rides beside the buffers -/

/-- Every region's proof data, each over the contents its region is entered from. -/
def pdats : (p : Fin 3) → (c : Dev nD) → Dat τ (Elt F) Unit ℕ (UR sig nD τ) ℕ (Pipeline.pin (pcfgs (F := F)) adm p) c
  | ⟨0, _⟩ => fun c => Gram.dat (V1 m) c
  | ⟨1, _⟩ => fun c => Mix.dat (V2 m) c
  | ⟨2, _⟩ => fun c => Proj.dat (V3 m) c

/-- No core owes another anything: no cell has a level. -/
abbrev noLv : GSem nD τ sig → Finset Unit := fun _ => ∅
abbrev lvl : GSem nD τ sig → Unit → ℕ := fun _ _ => 0

/-- Beside its buffers a core carries, from the launch to the end, its generator register at some state and the fact
    that it owes nothing. -/
abbrev Side (c : Dev nD) : sProp 𝕄 :=
  iprop((∃ r, prngReg c r) ∗ ∃ W, owes (c : Thread nD τ) (0 : CellTallies nD τ sig Unit) W)

/-- A core between two items of the program: every unscoped buffer whole at the boundary's contents, and the rest. -/
abbrev Between (W : Dev nD → Valuation τ sig (Elt F)) (c : Dev nD) : sProp 𝕄 :=
  iprop(StableHlo.held (c : Thread nD τ) (Pipeline.ucRefs τ sig) (W c) ∗ Side c)

/-! ## What the three regions' entries and exits share -/

section Shared

variable {cfg : Cfg sig Λ₀} {c : Dev nD} (d : Dat τ (Elt F) Unit ℕ (UR sig nD τ) ℕ cfg c)

/-- A core that owes nothing enters a region whose proof data owe nothing at the first point and bound nothing there. -/
private theorem owes_enter (h0 : d.owed 0 = 0) (hr : d.recorded 0 = Set.univ) :
    (iprop(∃ W, owes (c : Thread nD τ) (0 : CellTallies nD τ sig Unit) W) : sProp 𝕄) ⊢ d.owesAt () 0 := by
  unfold Pipeline.Dat.owesAt Pipeline.owesWithin
  rw [h0]
  iintro ⟨%W, HO⟩
  iexists W
  isplitr
  · ipureintro; intro x _; exact Or.inl (hr ▸ Set.mem_univ x)
  iexact HO

/-- A region whose proof data owe nothing at the last point leaves the core owing nothing. -/
private theorem owes_leave (hN : d.owed (Fin.last cfg.N) = 0) :
    d.owesAt () (Fin.last cfg.N) ⊢ (iprop(∃ W, owes (c : Thread nD τ) (0 : CellTallies nD τ sig Unit) W) : sProp 𝕄) := by
  unfold Pipeline.Dat.owesAt Pipeline.owesWithin
  rw [hN]
  iintro ⟨%W, -, HO⟩
  iexists W
  iexact HO

/-- ENTRY, given how the held buffers `B` split into the region's arrays `A` and what bypasses it `Z`: the generator
    register goes to the region's invariant, the core's owing nothing to the pipeline, and there is no prefetched
    table (`T` from nothing) and no semaphore of the kernel's own. -/
private theorem enter_of_split (h0 : d.owed 0 = 0) (hr : d.recorded 0 = Set.univ) (B A Z T : sProp 𝕄)
    (hsplit : B ⊢ iprop(A ∗ Z)) (hT : (BI.emp : sProp 𝕄) ⊢ T) :
    iprop(iprop(B ∗ Side c) ∗ BI.emp ∗ levAts noLv lvl)
      ⊢ |={Set.univ}=> iprop(A ∗ T ∗ d.owesAt () 0 ∗ (∃ r, prngReg c r) ∗ Z) := by
  iintro ⟨⟨HB, Hg, HO⟩, -, -⟩
  ihave H := hsplit $$ HB
  icases H with ⟨HA, HZ⟩
  imodintro
  isplitl [HA]; · iexact HA
  isplitr
  · iapply hT; iempintro
  isplitl [HO]
  · iapply (owes_enter d h0 hr); iexact HO
  isplitl [Hg]; · iexact Hg
  iexact HZ

/-- EXIT, given how the region's arrays `A` and what bypassed it `Z` make the held buffers `B` again. -/
private theorem leave_of_join (hN : d.owed (Fin.last cfg.N) = 0) (A Z B : sProp 𝕄) (hjoin : iprop(A ∗ Z) ⊢ B) :
    iprop(A ∗ d.owesAt () (Fin.last cfg.N) ∗ (∃ r, prngReg c r) ∗ Z) ⊢ |={Set.univ}=> iprop(B ∗ Side c) := by
  iintro ⟨HA, HO, Hg, HZ⟩
  imodintro
  isplitl [HA HZ]
  · iapply hjoin; isplitl [HA]; · iexact HA
    iexact HZ
  isplitl [Hg]; · iexact Hg
  iapply (owes_leave d hN); iexact HO

end Shared

/-- The generator register and the scoped buffers no window stages are the class's region invariant; a table, were
    there one, is not needed. -/
private theorem inv_enter {gr W : ℕ} (win : Fin W → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hg, -, Hs⟩
  isplitl [Hs]; · iexact Hs
  iexact Hg

/-- The class's region invariant gives both back, beside no semaphore of the kernel's own. -/
private theorem inv_leave {gr W : ℕ} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hs, Hg⟩
  isplitl [Hg]; · iexact Hg
  isplitr; · iempintro
  iexact Hs

/-! ## Region 0: two windows on one array -/

/-- Region 0's six windows' arrays, at contents read off a valuation `V`, are the five distinct buffers behind them,
    each whole at `V`: the narrowed input, which windows 0 and 1 both read, is held by them in two halves that make
    the full share, and every other window holds its own array whole. -/
private theorem arrays0_iff (c : Dev nD) (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    ((Gram.dat (V1 m) c).arrays G : sProp 𝕄)
      ⊣⊢ Pipeline.arrBufs (Ix := Unit) (Name := ℕ) (U := UR sig nD τ) (Lvl := ℕ) spec0 c V := by
  have harr : ∀ w, (cfg0.spec w).arr.IsWhole := arr_whole0
  have hhalves : ((((c : Thread nD τ).loc main_v4) ↦{fullShare} V main_v4 : sProp 𝕄))
      ⊣⊢ iprop((((c : Thread nD τ).loc main_v4) ↦{fullShare.left} V main_v4) ∗ (((c : Thread nD τ).loc main_v4) ↦{fullShare.right} V main_v4)) :=
    pointsTo_share (PosShare.mem_left_op_right fullShare)
  have hfive : (Pipeline.arrBufs (Ix := Unit) (Name := ℕ) (U := UR sig nD τ) (Lvl := ℕ) spec0 c V : sProp 𝕄)
      = iprop((((c : Thread nD τ).loc main_v4) ↦{fullShare} V main_v4) ∗ (((c : Thread nD τ).loc main_arg1) ↦{fullShare} V main_arg1)
          ∗ (((c : Thread nD τ).loc main_v2) ↦{fullShare} V main_v2) ∗ (((c : Thread nD τ).loc main_v3) ↦{fullShare} V main_v3)
          ∗ (((c : Thread nD τ).loc main_v7) ↦{fullShare} V main_v7)) := by
    unfold Pipeline.arrBufs
    exact bigSep_eq_bigSepL_of_eq [main_v4, main_arg1, main_v2, main_v3, main_v7] (by decide) (by decide) _
  rw [hfive]
  unfold Pipeline.Dat.arrays
  rw [bigSep_W0, (harr 0).set_eq_univ, (harr 2).set_eq_univ, (harr 3).set_eq_univ, (harr 4).set_eq_univ,
    (harr 5).set_eq_univ, hG 0, hG 1, hG 2, hG 3, hG 4, hG 5]
  constructor
  · iintro ⟨Hl, Hr, Ha, H2, H3, H7⟩
    isplitl [Hl Hr]
    · iapply hhalves.2
      isplitl [Hl]; · iexact Hl
      iexact Hr
    isplitl [Ha]; · iexact Ha
    isplitl [H2]; · iexact H2
    isplitl [H3]; · iexact H3
    iexact H7
  · iintro ⟨H4, Ha, H2, H3, H7⟩
    ihave H := hhalves.1 $$ H4
    icases H with ⟨Hl, Hr⟩
    isplitl [Hl]; · iexact Hl
    isplitl [Hr]; · iexact Hr
    isplitl [Ha]; · iexact Ha
    isplitl [H2]; · iexact H2
    isplitl [H3]; · iexact H3
    iexact H7

/-- ENTRY of region 0, the buffers' part: the held buffers are the five buffers behind the region's windows and the
    rest, and those five are the region's arrays at the contents it finds. -/
private theorem split0 (c : Dev nD) :
    StableHlo.held (c : Thread nD τ) (Pipeline.ucRefs τ sig) (W1 m c)
      ⊢ (iprop((Gram.dat (V1 m) c).arrays ((Gram.dat (V1 m) c).arrAt · 0)
          ∗ Pipeline.unscopedRest (Ix := Unit) (Name := ℕ) (U := UR sig nD τ) (Lvl := ℕ) spec0 c (V1 m c)) : sProp 𝕄) := by
  rw [← Pipeline.unscopedBufs_held (Ix := Unit) (Name := ℕ) (U := UR sig nD τ) (Lvl := ℕ) c (W1 m c),
    Pipeline.unscopedBufs_split₀ cfgs 0 winFacts₀0.arr_unscoped c]
  exact sep_mono (arrays0_iff m c (V1 m c) _ (Gram.A_eq (V1 m) c)).2 .rfl

/-- At region 0's exit each of its arrays holds what the next boundary's contents say: the output what the region
    leaves, an input what it held at entry, which the update at the output passes by. -/
private theorem arrs0_exit (c : Dev nD) : ∀ w : Fin 6, (Gram.dat (V1 m) c).arrAt w cfg0.N = V2 m c (Pipeline.arrRef spec0 w)
  | ⟨0, _⟩ => ((Gram.dat (V1 m) c).arrAt_in 0 rfl _).trans ((Gram.A_eq (V1 m) c 0).trans (V2_of_ne m c main_v4 (by decide)).symm)
  | ⟨1, _⟩ => ((Gram.dat (V1 m) c).arrAt_in 1 rfl _).trans ((Gram.A_eq (V1 m) c 1).trans (V2_of_ne m c main_v4 (by decide)).symm)
  | ⟨2, _⟩ => ((Gram.dat (V1 m) c).arrAt_in 2 rfl _).trans ((Gram.A_eq (V1 m) c 2).trans (V2_of_ne m c main_arg1 (by decide)).symm)
  | ⟨3, _⟩ => ((Gram.dat (V1 m) c).arrAt_in 3 rfl _).trans ((Gram.A_eq (V1 m) c 3).trans (V2_of_ne m c main_v2 (by decide)).symm)
  | ⟨4, _⟩ => ((Gram.dat (V1 m) c).arrAt_in 4 rfl _).trans ((Gram.A_eq (V1 m) c 4).trans (V2_of_ne m c main_v3 (by decide)).symm)
  | ⟨5, _⟩ => (V2_main_v7 m c).symm

/-- EXIT of region 0, the buffers' part: the two halves of the narrowed input, both at the contents the region found,
    make it whole again; the output array is at what the region leaves; every other buffer is as entered. -/
private theorem join0 (c : Dev nD) :
    iprop((Gram.dat (V1 m) c).arrays ((Gram.dat (V1 m) c).arrAt · cfg0.N)
        ∗ Pipeline.unscopedRest (Ix := Unit) (Name := ℕ) (U := UR sig nD τ) (Lvl := ℕ) spec0 c (V1 m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ cfgs 0 winFacts₀0.arr_unscoped c]
  refine sep_mono (arrays0_iff m c (V2 m c) _ (arrs0_exit m c)).1 (Entails.of_eq ?_)
  unfold Pipeline.unscopedRest
  exact bigSep_congr fun b hb => congrArg (fun f => ((((c : Thread nD τ).loc b) ↦{fullShare} f) : sProp 𝕄))
    (V2_of_ne m c b fun e => (Finset.mem_sdiff.mp hb).2 (Finset.mem_image.mpr ⟨5, Finset.mem_univ _, e.symm⟩)).symm

/-- Region 0 among the program's items: entered with every unscoped buffer at `W1`, left with them at `W2`. -/
def reg0 : Pipeline.RegionSeg (pcfgs (F := F)) adm (pdats m) () defs₀ Variants.none noLv lvl 0 where
  win := winFacts₀0
  block_pos := block_pos0
  stage_whole := stage_whole0
  K := PEmpty
  osem k := k.elim
  ho := Pipeline.OwnSemFacts.none _
  hbody c := (Gram.body_obligation (V1 m) c).loose
  hwaits := Pipeline.hwaits_of_owed_zero _ _ _ _ noLv lvl 0 fun _ _ => rfl
  pre := Between (W1 m)
  post := Between (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    refine enter_of_split (pdats m 0 c) rfl rfl _ _ _ _ (split0 m c) ?_
    unfold Pipeline.prefHeld
    rw [show (Finset.univ : Finset (Fin 0)) = ∅ from rfl, BI.bigSep_empty]
  hin c := (inv_enter spec0 c _).trans (Gram.hin (V1 m) c)
  hout c := by
    rw [Pipeline.ownSems0_none]
    exact (Gram.hout (V1 m) c).trans (inv_leave spec0 c)
  hexit c := leave_of_join (pdats m 0 c) rfl _ _ _ (join0 m c)

/-! ## Regions 1 and 2: every window its own array -/

/-- At region 1's exit each of its arrays holds what the next boundary's contents say: the output what the region
    leaves, an input what it held at entry, which no update since has touched. -/
private theorem arrs1_exit (c : Dev nD) : ∀ w : Fin 3, (pdats m 1 c).arrAt w cfg1.N = V3 m c (Pipeline.arrRef spec1 w)
  | ⟨0, _⟩ => ((Mix.dat (V2 m) c).arrAt_in 0 rfl _).trans ((Mix.A_eq (V2 m) c 0).trans (V3_of_ne m c main_v7 (by decide)).symm)
  | ⟨1, _⟩ => ((Mix.dat (V2 m) c).arrAt_in 1 rfl _).trans ((Mix.A_eq (V2 m) c 1).trans (V3_of_ne m c main_v4 (by decide)).symm)
  | ⟨2, _⟩ => (V3_main_v8 m c).symm

/-- Every buffer that is no array of region 1 is as the region found it. -/
private theorem rest1_exit (c : Dev nD) (b : Ref sig .tc) (hb : b ∉ Finset.univ.image (Pipeline.arrRef spec1)) : V3 m c b = V2 m c b :=
  V3_of_ne m c b fun e => hb (Finset.mem_image.mpr ⟨2, Finset.mem_univ _, e.symm⟩)

/-- Region 1 among the program's items: entered with every unscoped buffer at `W2`, left with them at `W3`. -/
def reg1 : Pipeline.RegionSeg (pcfgs (F := F)) adm (pdats m) () defs₀ Variants.none noLv lvl 1 where
  win := launch1.win.to₀
  block_pos := launch1.block_pos
  stage_whole := launch1.stage_whole
  K := PEmpty
  osem k := k.elim
  ho := Pipeline.OwnSemFacts.none _
  hbody c := (Mix.body_obligation (V2 m) c).loose
  hwaits := Pipeline.hwaits_of_owed_zero _ _ _ _ noLv lvl 1 fun _ _ => rfl
  pre := Between (W2 m)
  post := Between (W3 m)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) (Mix.A_eq (V2 m) c)
    rw [Pipeline.unscopedBufs_held] at hsplit
    refine enter_of_split (pdats m 1 c) rfl rfl _ _ _ _ hsplit ?_
    unfold Pipeline.prefHeld
    rw [show (Finset.univ : Finset (Fin 0)) = ∅ from rfl, BI.bigSep_empty]
  hin c := (inv_enter spec1 c _).trans (Mix.hin (V2 m) c)
  hout c := by
    rw [Pipeline.ownSems0_none]
    exact (Mix.hout (V2 m) c).trans (inv_leave spec1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (arrs1_exit m c) (rest1_exit m c)
    rw [Pipeline.unscopedBufs_held] at hjoin
    exact leave_of_join (pdats m 1 c) rfl _ _ _ hjoin

/-- The same at region 2's exit, against the last boundary's contents. -/
private theorem arrs2_exit (c : Dev nD) : ∀ w : Fin 4,
    (pdats m 2 c).arrAt w cfg2.N = W4 m c (Proc.devRef .tc (Pipeline.arrRef spec2 w))
  | ⟨0, _⟩ => ((Proj.dat (V3 m) c).arrAt_in 0 rfl _).trans ((Proj.A_eq (V3 m) c 0).trans (W4_of_ne m c main_v8 (by decide)).symm)
  | ⟨1, _⟩ => ((Proj.dat (V3 m) c).arrAt_in 1 rfl _).trans ((Proj.A_eq (V3 m) c 1).trans (W4_of_ne m c main_v5 (by decide)).symm)
  | ⟨2, _⟩ => ((Proj.dat (V3 m) c).arrAt_in 2 rfl _).trans ((Proj.A_eq (V3 m) c 2).trans (W4_of_ne m c main_v6 (by decide)).symm)
  | ⟨3, _⟩ => (W4_main_v9 m c).symm

private theorem rest2_exit (c : Dev nD) (b : Ref sig .tc) (hb : b ∉ Finset.univ.image (Pipeline.arrRef spec2)) :
    W4 m c (Proc.devRef .tc b) = V3 m c b :=
  W4_of_ne m c b fun e => hb (Finset.mem_image.mpr ⟨3, Finset.mem_univ _, e.symm⟩)

/-- Region 2 among the program's items: entered with every unscoped buffer at `W3`, left with them at `W4`. -/
def reg2 : Pipeline.RegionSeg (pcfgs (F := F)) adm (pdats m) () defs₀ Variants.none noLv lvl 2 where
  win := launch2.win.to₀
  block_pos := launch2.block_pos
  stage_whole := launch2.stage_whole
  K := PEmpty
  osem k := k.elim
  ho := Pipeline.OwnSemFacts.none _
  hbody c := (Proj.body_obligation (V3 m) c).loose
  hwaits := Pipeline.hwaits_of_owed_zero _ _ _ _ noLv lvl 2 fun _ _ => rfl
  pre := Between (W3 m)
  post := Between (W4 m)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) (Proj.A_eq (V3 m) c)
    rw [Pipeline.unscopedBufs_held] at hsplit
    refine enter_of_split (pdats m 2 c) rfl rfl _ _ _ _ hsplit ?_
    unfold Pipeline.prefHeld
    rw [show (Finset.univ : Finset (Fin 0)) = ∅ from rfl, BI.bigSep_empty]
  hin c := (inv_enter spec2 c _).trans (Proj.hin (V3 m) c)
  hout c := by
    rw [Pipeline.ownSems0_none]
    exact (Proj.hout (V3 m) c).trans (inv_leave spec2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (fun b => W4 m c (Proc.devRef .tc b)) ((pdats m 2 c).arrAt · cfg2.N) (arrs2_exit m c) (rest2_exit m c)
    rw [Pipeline.unscopedBufs_held] at hjoin
    exact leave_of_join (pdats m 2 c) rfl _ _ _ hjoin

/-! ## The program as its items, and the launch -/

/-- The host stretch as an item: its operations run over the unscoped buffers from the launch contents to `W1`, the
    rest riding along. -/
abbrev host0 : Pipeline.HostSeg (Name := ℕ) (U := UR sig nD τ) (pcfgs (F := F)) defs₀ Variants.none noLv lvl :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Side

/-- The program's four items in order. -/
abbrev items : List (Pipeline.Seg (pcfgs (F := F)) adm (pdats m) () defs₀ Variants.none noLv lvl) :=
  [.host (host0 m), .region (reg0 m), .region (reg1 m), .region (reg2 m)]

/-- What a core holds when the last region has ended, the owing nothing apart. -/
abbrev AtEnd (c : Dev nD) : sProp 𝕄 :=
  iprop(StableHlo.held (c : Thread nD τ) (Pipeline.ucRefs τ sig) (W4 m c) ∗ ∃ r, prngReg c r)

/-- The last region's exit state is the end state beside the core owing nothing. -/
private theorem end_of_last (c : Dev nD) :
    Between (W4 m) c ⊢ (iprop(AtEnd m c ∗ ∃ W, owes (c : Thread nD τ) (0 : CellTallies nD τ sig Unit) W) : sProp 𝕄) := by
  iintro ⟨Hh, Hg, HO⟩
  isplitr [HO]
  · isplitl [Hh]; · iexact Hh
    iexact Hg
  iexact HO

/-- The held buffers, beside the state interpretation of a final state, say what its memory holds at each. -/
private theorem read_end (c : Dev nD) (s' : Phys nD τ sig (Elt F)) :
    iprop(AtEnd m c ∗ SI s')
      ⊢ (|={Set.univ}=> iprop(⌜∀ b ∈ Pipeline.ucRefs τ sig, s'.mem.mem (((c : Thread nD τ)).1, b) = W4 m c b⌝ ∗ SI s') : sProp 𝕄) := by
  have hread : iprop(StableHlo.held (c : Thread nD τ) (Pipeline.ucRefs τ sig) (W4 m c) ∗ SI s')
      ⊢ (iprop(⌜∀ b ∈ Pipeline.ucRefs τ sig, s'.mem.mem (((c : Thread nD τ)).1, b) = W4 m c b⌝ ∗ SI s') : sProp 𝕄) :=
    pointsTo_read_all (Pipeline.ucRefs τ sig) (fun b => (((c : Thread nD τ)).1, b)) (W4 m c) s'
  iintro ⟨⟨Hh, -⟩, HSI⟩
  imodintro
  iapply hread
  isplitl [Hh]; · iexact Hh
  iexact HSI

/-! ## The run -/

set_option backward.isDefEq.respectTransparency.types false in
/-- Every weakly fair execution of the program from memory `m` with zero counters terminates, nothing faulting, and
    every final memory holds each unscoped buffer of every core at the last boundary's contents. -/
theorem run : θ_run defs (onTc (τ := τ) (main (F := F))) ⟨m, fun _ => 0, ρ⟩
    (fun r => ∀ c : Dev nD, ∀ b ∈ Pipeline.ucRefs τ sig, r.2.mem (((c : Thread nD τ)).1, b) = W4 m c b) := by
  exact Pipeline.θ_run_regions_kit (pcfgs (F := F)) adm (pdats m) () cellOf_inj emb₁ defs₀ Variants.none noLv lvl m ρ main (items m)
    (fun c Q => by
      rw [main_segs adm (pdats m) () Variants.none noLv lvl (host0 m) (reg0 m) (reg1 m) (reg2 m) rfl c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipeline library's own, and no core asks for a ghost resource besides
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have hnone : (BI.emp : sProp 𝕄) ⊢ bigSep Finset.univ (fun _ : Dev nD => (BI.emp : sProp 𝕄)) := by
        rw [BI.bigSep_emp_const]
      iintro Hu
      imodintro
      isplitl [Hu]
      · iapply hown; iexact Hu
      iapply hnone; iempintro)
    (T₀ := Between (W0 m)) (Tₙ := AtEnd m)
    (hch := ⟨fun _ => .rfl, fun _ => .rfl, fun _ => .rfl, fun _ => .rfl, end_of_last m⟩)
    (hinit := by
      -- core by core: the launch's unscoped buffers are the held set at the launch contents, the generator register
      -- is at its launch state, and the core owes nothing
      refine Pipeline.initEach noLv lvl fun c => ?_
      rw [show unscopedBufs c (fun b => m ((c : Thread nD τ).loc b))
          = StableHlo.held (c : Thread nD τ) (Pipeline.ucRefs τ sig) (W0 m c) from Pipeline.unscopedBufs_held c (W0 m c)]
      iintro ⟨⟨Hh, -, HO, -, Hg, -⟩, -⟩
      imodintro
      isplitl [Hh]; · iexact Hh
      isplitl [Hg]; · iexists _; iexact Hg
      iexists ∅; iexact HO)
    (QY := fun c s => ∀ b ∈ Pipeline.ucRefs τ sig, s.mem (((c : Thread nD τ)).1, b) = W4 m c b)
    (hfin := read_end m)
    (hQ := fun s h => h)

/-- An unscoped TensorCore reference is among those the run's post reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run, read at the result and at the arguments: the result array ends at what region 2 leaves, and every argument
    as launched. -/
theorem run_result : θ_run defs (onTc (τ := τ) (main (F := F))) ⟨m, fun _ => 0, ρ⟩ (fun r => ∀ c : Dev nD,
      r.2.mem ((c.tc : Thread nD τ).loc main_v9) = (Proj.dat (V3 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v9 (by decide))).trans (W4_main_v9 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.KernelIdeal.Run

end
-- ==== Proof.Spec.lean ====
import Idealize.ShloMosaic.PureOps.Ideal
import Idealize.ShloMosaic.Lib.ValueIdx

/-! The function both programs compute, over the extended reals, index by index.

    With `x` the 4096×4096 input, `w` the kernel weights, `v` the output weights and `b` the bias:
    the squared norm of row i is  sq i = ∑ₖ x i k · x i k;  the distance of rows i and j is the square root of
    max (sq i + sq j − 2·∑ₖ x i k · x j k) 0  where that is positive and 0 where it is 0;  the radial kernel is
    g i j = exp (−|w i j| · dist i j);  the mixed rows are  m i f = ∑ⱼ g i j · x j f;  and the result is
    out i o = ∑_f m i f · v o f + b o. -/

noncomputable section

namespace Cert.Spec

open Idealize.ShloMosaic Idealize.ShloMosaic.ValueIdx

/-- 4096×4096 matrices, 4096×1 columns, 1×4096 rows and vectors of length 4096. -/
abbrev Mat : Shape := ⟨2, ![4096, 4096]⟩
abbrev Col : Shape := ⟨2, ![4096, 1]⟩
abbrev Row : Shape := ⟨2, ![1, 4096]⟩
abbrev Vec1 : Shape := ⟨1, ![4096]⟩

/-- The three float literals of both programs, by their words: 0, 1 and 2. -/
def zero : EReal := Ideal.ofBits .f32 0x00000000#32
def one : EReal := Ideal.ofBits .f32 0x3F800000#32
def two : EReal := Ideal.ofBits .f32 0x40000000#32

/-- The distance of two rows from their squared norms `p`, `r` and their inner product `g`: with
    d2 = max (p + r − 2·g) 0, the square root of d2 where d2 is positive (taken of 1 elsewhere), and 0 where it is not. -/
def dist (p r g : EReal) : EReal :=
  Scalar.select (Ideal.cmp .ogt (max ((p + r) - two * g) zero) zero)
    (Ideal.sqrt (Scalar.select (Ideal.cmp .ogt (max ((p + r) - two * g) zero) zero) (max ((p + r) - two * g) zero) one))
    zero

/-- The radial kernel of a weight and a distance: exp (−|w| · d). -/
def rbf (w d : EReal) : EReal := Ideal.exp (-(max w (-w)) * d)

/-- The squared norm of row `i`. -/
def sq (x : Mat.Idx → EReal) (i : Fin 4096) : EReal := ∑ k : Fin 4096, x (ix2 i k) * x (ix2 i k)

/-- The radial-kernel matrix from the rows `xb`, the weights `w` and the rows' squared norms given as a column `p`
    and as a row `r`. -/
def gramAt (xb w : Mat.Idx → EReal) (p : Col.Idx → EReal) (r : Row.Idx → EReal) (i j : Fin 4096) : EReal :=
  rbf (w (ix2 i j)) (dist (p (ix2 i (0 : Fin 1))) (r (ix2 (0 : Fin 1) j)) (∑ k : Fin 4096, xb (ix2 i k) * xb (ix2 j k)))
def gramOf (xb w : Mat.Idx → EReal) (p : Col.Idx → EReal) (r : Row.Idx → EReal) : Mat.Idx → EReal :=
  fun ij => gramAt xb w p r (ij 0) (ij 1)

/-- The product of the kernel matrix with the rows. -/
def mixAt (g xb : Mat.Idx → EReal) (i f : Fin 4096) : EReal := ∑ j : Fin 4096, g (ix2 i j) * xb (ix2 j f)
def mixOf (g xb : Mat.Idx → EReal) : Mat.Idx → EReal := fun ij => mixAt g xb (ij 0) (ij 1)

/-- The product of the mixed rows with the transposed output weights, plus the bias row. -/
def projAt (mx v : Mat.Idx → EReal) (bias : Row.Idx → EReal) (i o : Fin 4096) : EReal :=
  (∑ f : Fin 4096, mx (ix2 i f) * v (ix2 o f)) + bias (ix2 (0 : Fin 1) o)
def projOf (mx v : Mat.Idx → EReal) (bias : Row.Idx → EReal) : Mat.Idx → EReal := fun ij => projAt mx v bias (ij 0) (ij 1)

/-- The whole function of the four inputs. -/
def out (x w v : Mat.Idx → EReal) (b : Vec1.Idx → EReal) : Mat.Idx → EReal :=
  projOf (mixOf (gramOf x w (fun pi => sq x (pi 0)) (fun ri => sq x (ri 1))) x) v (fun ri => b (ix1 (ri 1)))

end Cert.Spec

end
-- ==== Proof.LibBlockSum.lean ====
import Mathlib.Data.EReal.Basic
import Mathlib.Algebra.BigOperators.Fin
import Mathlib.Data.Fintype.BigOperators
import Mathlib.Logic.Equiv.Fin.Basic

/-! A sum over 4096 consecutive indices is the sum over 8 consecutive blocks of 512 of the blocks' sums: the
    regrouping by which a contraction accumulated block by block is the contraction taken at once. It holds in any
    commutative additive monoid; the extended reals are one (their addition is associative and commutative at the
    infinities too). -/

namespace Cert.LibBlockSum

/-- A sum over `Fin (8 * 512)` as eight block sums. -/
theorem sum_blocks {M : Type} [AddCommMonoid M] (f : Fin 4096 → M) :
    ∑ k : Fin 4096, f k = ∑ kb : Fin 8, ∑ j : Fin 512, f ⟨512 * kb.val + j.val, by omega⟩ := by
  -- The pairs (block, offset) enumerate the 4096 indices once each: (kb, j) ↦ j + 512 * kb is a bijection.
  have h := (finProdFinEquiv (m := 8) (n := 512)).sum_comp (fun k : Fin (8 * 512) => f ⟨k.val, k.isLt⟩)
  rw [Fintype.sum_prod_type] at h
  -- The right side of `h` is the sum on the left of the claim (8 * 512 is 4096).
  refine Eq.trans (b := ∑ k : Fin (8 * 512), f ⟨k.val, k.isLt⟩) rfl ?_
  rw [← h]
  refine Finset.sum_congr rfl fun kb _ => Finset.sum_congr rfl fun j _ => ?_
  -- The same index, written j + 512 * kb and 512 * kb + j.
  exact congrArg f (Fin.ext (by simp only [finProdFinEquiv_apply_val]; omega))

/-- The left fold of block sums from zero that an accumulator reset at block 0 performs is the sum of the blocks. -/
theorem fold_blocks {M : Type} [AddCommMonoid M] (s : Fin 8 → M) (a : ℕ → M) (h0 : a 0 = 0 + s 0)
    (hs : ∀ n : ℕ, (h : n + 1 < 8) → a (n + 1) = a n + s ⟨n + 1, h⟩) : a 7 = ∑ kb : Fin 8, s kb := by
  -- Unfold the seven steps of the fold down to its start, and write the sum over eight indices term by term.
  rw [hs 6 (by omega), hs 5 (by omega), hs 4 (by omega), hs 3 (by omega), hs 2 (by omega), hs 1 (by omega),
    hs 0 (by omega), h0, zero_add, Fin.sum_univ_eight]
  rfl

end Cert.LibBlockSum
-- ==== Proof.Ideal.GramValue.lean ====
import proofs.«156051_j65481071410654_1_alg».proof.Proof.Ideal.GramData
import proofs.«156051_j65481071410654_1_alg».proof.Proof.Spec
import proofs.«156051_j65481071410654_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

/-! ## The body's arithmetic at an index, over the extended reals -/

/-- The reset value of the accumulator is zero at every index. -/
theorem pay1_apply (p q : Fin 512) : k0_pay1 (F := Ideal) (ix2 p q) = 0 := by
  unfold k0_pay1
  rw [shapeCast_self]
  exact Ideal.ofBits_zero_f32

theorem lhs_ax0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_ax1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_ax0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_ax1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product of a block with a zero accumulator, at an index: the plain sum over the contracted axis. -/
theorem matmul_zero_apply (l r : FVec Ideal S512x512 .bf16) (p q : Fin 512) :
    FloatOps.matmul dot_S512x512_S512x512_S512x512_1_0_0_1_n_n none l r (constant S512x512 .f32 0x00000000#32) (ix2 p q)
      = ∑ k : Fin 512, l (ix2 p k) * r (ix2 k q) := by
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p q) ((ValueIdx.contrEquiv1 dot_S512x512_S512x512_S512x512_1_0_0_1_n_n 512 rfl rfl).symm k) = ix2 p k := funext fun a => Fin.ext (by
    match a with
    | ⟨0, _⟩ => exact lhs_ax0 _ _
    | ⟨1, _⟩ => exact (lhs_ax1 _ _).trans hk)
  have er : dot_S512x512_S512x512_S512x512_1_0_0_1_n_n.rhsIdx (ix2 p q) ((ValueIdx.contrEquiv1 dot_S512x512_S512x512_S512x512_1_0_0_1_n_n 512 rfl rfl).symm k) = ix2 k q := funext fun a => Fin.ext (by
    match a with
    | ⟨0, _⟩ => exact (rhs_ax0 _ _).trans hk
    | ⟨1, _⟩ => exact rhs_ax1 _ _)
  rw [el, er]

/-- One step of the accumulation at an index: what was there plus the inner product of row `p` of the first block
    with row `q` of the second. -/
theorem pay2_apply (a b : Vec Ideal S512x512 .bf16) (s : Vec Ideal S512x512 .f32) (p q : Fin 512) :
    k0_pay2 a b s (ix2 p q) = s (ix2 p q) + ∑ k : Fin 512, a (ix2 p k) * b (ix2 q k) := by
  unfold k0_pay2
  simp only [shapeCast_self]
  refine (addf_apply _ _ _).trans ?_
  refine congrArg (fun z => s (ix2 p q) + z) ?_
  refine (matmul_zero_apply _ _ p q).trans ?_
  refine Finset.sum_congr rfl fun k _ => ?_
  rw [transpose_ix2_apply]

/-- The epilogue at an index: the radial kernel of the weight and the distance formed from the two norms and the
    accumulated inner product. -/
theorem pay3_apply (pc : Vec Ideal S512x1 .f32) (rr : Vec Ideal S1x512 .f32) (g w : Vec Ideal S512x512 .f32) (p q : Fin 512) :
    k0_pay3 pc rr g w (ix2 p q)
      = Cert.Spec.rbf (w (ix2 p q)) (Cert.Spec.dist (pc (ix2 p (0 : Fin 1))) (rr (ix2 (0 : Fin 1) q)) (g (ix2 p q))) := by
  have hb1 : broadcastTo S512x512 pc broadcasts_S512x1_S512x512 (ix2 p q) = pc (ix2 p (0 : Fin 1)) :=
    broadcastTo_apply pc _ _ _ fun a => match a with | ⟨0, _⟩ => rfl | ⟨1, _⟩ => rfl
  have hb2 : broadcastTo S512x512 rr broadcasts_S1x512_S512x512 (ix2 p q) = rr (ix2 (0 : Fin 1) q) :=
    broadcastTo_apply rr _ _ _ fun a => match a with | ⟨0, _⟩ => rfl | ⟨1, _⟩ => rfl
  unfold k0_pay3
  simp only [shapeCast_self]
  show Ideal.exp ((Ideal.ofBits .f32 0x00000000#32 - max (w (ix2 p q)) (-(w (ix2 p q))))
      * Cert.Spec.dist (broadcastTo S512x512 pc broadcasts_S512x1_S512x512 (ix2 p q))
          (broadcastTo S512x512 rr broadcasts_S1x512_S512x512 (ix2 p q)) (g (ix2 p q))) = _
  rw [hb1, hb2, Ideal.ofBits_zero_f32, zero_sub]
  rfl

/-! ## The blocks, read where the grid point's rectangle says -/

variable (V : (c : Dev nD) → (b : Ref sig .tc) → Buf (Elt Ideal) ((c : Thread nD τ).loc b))

/-- The four arrays the region reads, as the region finds them, and the five input blocks at a point. -/
abbrev xarr (c : Dev nD) : S4096x4096.Idx → EReal := V c main_v4
abbrev warr (c : Dev nD) : S4096x4096.Idx → EReal := V c main_arg1
abbrev parr (c : Dev nD) : S4096x1.Idx → EReal := V c main_v2
abbrev rarr (c : Dev nD) : S1x4096.Idx → EReal := V c main_v3
abbrev blkI (c : Dev nD) (t : Fin cfg0.N) : Vec Ideal S512x512 .bf16 := iblk V c 0 t
abbrev blkJ (c : Dev nD) (t : Fin cfg0.N) : Vec Ideal S512x512 .bf16 := iblk V c 1 t
abbrev blkW (c : Dev nD) (t : Fin cfg0.N) : Vec Ideal S512x512 .f32 := iblk V c 2 t
abbrev blkP (c : Dev nD) (t : Fin cfg0.N) : Vec Ideal S512x1 .f32 := iblk V c 3 t
abbrev blkR (c : Dev nD) (t : Fin cfg0.N) : Vec Ideal S1x512 .f32 := iblk V c 4 t

/-- The block indices of the six windows at a point, in closed form: with the point `t = (i·8 + j)·8 + k`,
    rows `i` × columns `k`; rows `j` × columns `k`; and the `(i, j)` tile of the weights, the column of norms,
    the row of norms and the output. -/
theorem idx0 : ∀ t : Fin cfg0.N, win0_0.index t 0 = t.val / 64 ∧ win0_0.index t 1 = t.val % 8 :=
  (by decide +kernel : ∀ t : Fin grid0.N, win0_0.index t (0 : Fin 2) = t.val / 64 ∧ win0_0.index t (1 : Fin 2) = t.val % 8)
theorem idx1 : ∀ t : Fin cfg0.N, win0_1.index t 0 = t.val / 8 % 8 ∧ win0_1.index t 1 = t.val % 8 :=
  (by decide +kernel : ∀ t : Fin grid0.N, win0_1.index t (0 : Fin 2) = t.val / 8 % 8 ∧ win0_1.index t (1 : Fin 2) = t.val % 8)
theorem idx2 : ∀ t : Fin cfg0.N, win0_2.index t 0 = t.val / 64 ∧ win0_2.index t 1 = t.val / 8 % 8 :=
  (by decide +kernel : ∀ t : Fin grid0.N, win0_2.index t (0 : Fin 2) = t.val / 64 ∧ win0_2.index t (1 : Fin 2) = t.val / 8 % 8)
theorem idx3 : ∀ t : Fin cfg0.N, win0_3.index t 0 = t.val / 64 ∧ win0_3.index t 1 = 0 :=
  (by decide +kernel : ∀ t : Fin grid0.N, win0_3.index t (0 : Fin 2) = t.val / 64 ∧ win0_3.index t (1 : Fin 2) = 0)
theorem idx4 : ∀ t : Fin cfg0.N, win0_4.index t 0 = 0 ∧ win0_4.index t 1 = t.val / 8 % 8 :=
  (by decide +kernel : ∀ t : Fin grid0.N, win0_4.index t (0 : Fin 2) = 0 ∧ win0_4.index t (1 : Fin 2) = t.val / 8 % 8)
theorem idx5 : ∀ t : Fin cfg0.N, win0_5.index t 0 = t.val / 64 ∧ win0_5.index t 1 = t.val / 8 % 8 :=
  (by decide +kernel : ∀ t : Fin grid0.N, win0_5.index t (0 : Fin 2) = t.val / 64 ∧ win0_5.index t (1 : Fin 2) = t.val / 8 % 8)

/-- Window 0's block at `t`, entry `(p, k)`: the narrowed input at row `512·i + p`, column `512·k' + k`. -/
theorem iblk0_apply (c : Dev nD) (t : Fin cfg0.N) (p k : Fin 512) (i j : Fin 4096)
    (hi : i.val = 512 * (t.val / 64) + p.val) (hj : j.val = 512 * (t.val % 8) + k.val) :
    blkI V c t (ix2 p k) = xarr V c (ix2 i j) := by
  show iblk V c 0 t (ix2 p k) = V c main_v4 (ix2 i j)
  unfold iblk
  rw [View.read_apply]
  show V c main_v4 _ = V c main_v4 _
  refine congrArg (V c main_v4) (funext fun a => Fin.ext ?_)
  match a with
  | ⟨0, _⟩ => show win0_0.index t 0 * 512 + 1 * p.val = i.val; rw [(idx0 t).1, hi]; omega
  | ⟨1, _⟩ => show win0_0.index t 1 * 512 + 1 * k.val = j.val; rw [(idx0 t).2, hj]; omega

/-- Window 1's block at `t`, entry `(q, k)`: the narrowed input at row `512·j + q`, column `512·k' + k`. -/
theorem iblk1_apply (c : Dev nD) (t : Fin cfg0.N) (q k : Fin 512) (i j : Fin 4096)
    (hi : i.val = 512 * (t.val / 8 % 8) + q.val) (hj : j.val = 512 * (t.val % 8) + k.val) :
    blkJ V c t (ix2 q k) = xarr V c (ix2 i j) := by
  show iblk V c 1 t (ix2 q k) = V c main_v4 (ix2 i j)
  unfold iblk
  rw [View.read_apply]
  show V c main_v4 _ = V c main_v4 _
  refine congrArg (V c main_v4) (funext fun a => Fin.ext ?_)
  match a with
  | ⟨0, _⟩ => show win0_1.index t 0 * 512 + 1 * q.val = i.val; rw [(idx1 t).1, hi]; omega
  | ⟨1, _⟩ => show win0_1.index t 1 * 512 + 1 * k.val = j.val; rw [(idx1 t).2, hj]; omega

/-- Window 2's block at `t`, entry `(p, q)`: the weights at `(512·i + p, 512·j + q)`. -/
theorem iblk2_apply (c : Dev nD) (t : Fin cfg0.N) (p q : Fin 512) (i j : Fin 4096)
    (hi : i.val = 512 * (t.val / 64) + p.val) (hj : j.val = 512 * (t.val / 8 % 8) + q.val) :
    blkW V c t (ix2 p q) = warr V c (ix2 i j) := by
  show iblk V c 2 t (ix2 p q) = V c main_arg1 (ix2 i j)
  unfold iblk
  rw [View.read_apply]
  show V c main_arg1 _ = V c main_arg1 _
  refine congrArg (V c main_arg1) (funext fun a => Fin.ext ?_)
  match a with
  | ⟨0, _⟩ => show win0_2.index t 0 * 512 + 1 * p.val = i.val; rw [(idx2 t).1, hi]; omega
  | ⟨1, _⟩ => show win0_2.index t 1 * 512 + 1 * q.val = j.val; rw [(idx2 t).2, hj]; omega

/-- Window 3's block at `t`, entry `(p, 0)`: the column of squared norms at row `512·i + p`. -/
theorem iblk3_apply (c : Dev nD) (t : Fin cfg0.N) (p : Fin 512) (i : Fin 4096)
    (hi : i.val = 512 * (t.val / 64) + p.val) :
    blkP V c t (ix2 p (0 : Fin 1)) = parr V c (ix2 i (0 : Fin 1)) := by
  show iblk V c 3 t (ix2 p (0 : Fin 1)) = V c main_v2 (ix2 i (0 : Fin 1))
  unfold iblk
  rw [View.read_apply]
  show V c main_v2 _ = V c main_v2 _
  refine congrArg (V c main_v2) (funext fun a => Fin.ext ?_)
  match a with
  | ⟨0, _⟩ => show win0_3.index t 0 * 512 + 1 * p.val = i.val; rw [(idx3 t).1, hi]; omega
  | ⟨1, _⟩ => show win0_3.index t 1 * 1 + 1 * 0 = 0; rw [(idx3 t).2]

/-- Window 4's block at `t`, entry `(0, q)`: the row of squared norms at column `512·j + q`. -/
theorem iblk4_apply (c : Dev nD) (t : Fin cfg0.N) (q : Fin 512) (j : Fin 4096)
    (hj : j.val = 512 * (t.val / 8 % 8) + q.val) :
    blkR V c t (ix2 (0 : Fin 1) q) = rarr V c (ix2 (0 : Fin 1) j) := by
  show iblk V c 4 t (ix2 (0 : Fin 1) q) = V c main_v3 (ix2 (0 : Fin 1) j)
  unfold iblk
  rw [View.read_apply]
  show V c main_v3 _ = V c main_v3 _
  refine congrArg (V c main_v3) (funext fun a => Fin.ext ?_)
  match a with
  | ⟨0, _⟩ => show win0_4.index t 0 * 1 + 1 * 0 = 0; rw [(idx4 t).1]
  | ⟨1, _⟩ => show win0_4.index t 1 * 512 + 1 * q.val = j.val; rw [(idx4 t).2, hj]; omega

/-! ## The accumulator: the inner product of two rows, block of columns by block of columns -/

/-- The part of the inner product of rows `i` and `j` of `X` over the `kb`-th block of 512 columns. -/
def blockSum (X : S4096x4096.Idx → EReal) (i j : Fin 4096) (kb : Fin 8) : EReal :=
  ∑ k : Fin 512, X (ix2 i ⟨512 * kb.val + k.val, by omega⟩) * X (ix2 j ⟨512 * kb.val + k.val, by omega⟩)

/-- The product of a point's two blocks at `(p, q)` is the block sum of the point's column block. -/
theorem prod_eq_blockSum (c : Dev nD) (t : Fin cfg0.N) (p q : Fin 512) (i j : Fin 4096) (kb : Fin 8)
    (hi : i.val = 512 * (t.val / 64) + p.val) (hj : j.val = 512 * (t.val / 8 % 8) + q.val) (hk : kb.val = t.val % 8) :
    (∑ k : Fin 512, blkI V c t (ix2 p k) * blkJ V c t (ix2 q k)) = blockSum (xarr V c) i j kb := by
  unfold blockSum
  refine Finset.sum_congr rfl fun k _ => ?_
  rw [iblk0_apply V c t p k i ⟨512 * kb.val + k.val, by omega⟩ hi (by show 512 * kb.val + k.val = _; rw [hk]),
    iblk1_apply V c t q k j ⟨512 * kb.val + k.val, by omega⟩ hj (by show 512 * kb.val + k.val = _; rw [hk])]

/-- At a point that resets the accumulator it ends at zero plus the point's block sum; -/
theorem acc_reset (c : Dev nD) (t : Fin cfg0.N) (h : t.val % 8 = 0) (p q : Fin 512) (i j : Fin 4096) (kb : Fin 8)
    (hi : i.val = 512 * (t.val / 64) + p.val) (hj : j.val = 512 * (t.val / 8 % 8) + q.val) (hk : kb.val = t.val % 8) :
    acc V c t.val t.isLt (ix2 p q) = 0 + blockSum (xarr V c) i j kb := by
  rw [acc_first V c t h]
  refine (pay2_apply (blkI V c t) (blkJ V c t) (k0_pay1 (F := Ideal)) p q).trans ?_
  rw [pay1_apply, prod_eq_blockSum V c t p q i j kb hi hj hk]

/-- at any other point it ends at what the point before left plus the point's block sum. -/
theorem acc_add (c : Dev nD) (n : ℕ) (hn : n + 1 < cfg0.N) (h : (n + 1) % 8 ≠ 0) (p q : Fin 512) (i j : Fin 4096) (kb : Fin 8)
    (hi : i.val = 512 * ((n + 1) / 64) + p.val) (hj : j.val = 512 * ((n + 1) / 8 % 8) + q.val) (hk : kb.val = (n + 1) % 8) :
    acc V c (n + 1) hn (ix2 p q) = acc V c n (Nat.lt_of_succ_lt hn) (ix2 p q) + blockSum (xarr V c) i j kb := by
  have e : acc V c (n + 1) hn = k0_pay2 (iblk V c 0 ⟨n + 1, hn⟩) (iblk V c 1 ⟨n + 1, hn⟩) (acc V c n (Nat.lt_of_succ_lt hn)) :=
    acc_next V c ⟨n + 1, hn⟩ h
  rw [e]
  refine (pay2_apply (blkI V c ⟨n + 1, hn⟩) (blkJ V c ⟨n + 1, hn⟩) (acc V c n (Nat.lt_of_succ_lt hn)) p q).trans ?_
  rw [prod_eq_blockSum V c ⟨n + 1, hn⟩ p q i j kb hi hj hk]

/-- So after the last of a tile's eight points the accumulator holds the whole inner product of the two rows. -/
theorem acc_last (c : Dev nD) (t : Fin cfg0.N) (h7 : t.val % 8 = 7) (p q : Fin 512) (i j : Fin 4096)
    (hi : i.val = 512 * (t.val / 64) + p.val) (hj : j.val = 512 * (t.val / 8 % 8) + q.val) :
    acc V c t.val t.isLt (ix2 p q)
      = ∑ k : Fin 4096, xarr V c (ix2 i k) * xarr V c (ix2 j k) := by
  have hN : cfg0.N = 512 := N_0
  have ht : t.val < 512 := hN ▸ t.isLt
  obtain ⟨b, hb⟩ : ∃ b : ℕ, t.val = b + 7 := ⟨t.val - 7, by omega⟩
  have hb8 : b % 8 = 0 := by omega
  let a : ℕ → EReal := fun n => if hlt : b + n < cfg0.N then acc V c (b + n) hlt (ix2 p q) else 0
  have h0 : a 0 = 0 + blockSum (xarr V c) i j 0 := by
    show (if hlt : b + 0 < cfg0.N then acc V c (b + 0) hlt (ix2 p q) else 0) = _
    rw [dif_pos (by rw [hN]; omega)]
    exact acc_reset V c ⟨b + 0, by rw [hN]; omega⟩ (by show (b + 0) % 8 = 0; omega) p q i j 0
      (by show i.val = 512 * ((b + 0) / 64) + p.val; rw [hi, hb]; omega)
      (by show j.val = 512 * ((b + 0) / 8 % 8) + q.val; rw [hj, hb]; omega)
      (by show (0 : Fin 8).val = (b + 0) % 8; rw [Nat.add_zero, hb8]; rfl)
  have hs : ∀ n : ℕ, (h : n + 1 < 8) → a (n + 1) = a n + blockSum (xarr V c) i j ⟨n + 1, h⟩ := by
    intro n h
    show (if hlt : b + (n + 1) < cfg0.N then acc V c (b + (n + 1)) hlt (ix2 p q) else 0)
      = (if hlt : b + n < cfg0.N then acc V c (b + n) hlt (ix2 p q) else 0) + _
    rw [dif_pos (by rw [hN]; omega), dif_pos (by rw [hN]; omega)]
    exact acc_add V c (b + n) (by rw [hN]; omega) (by omega) p q i j ⟨n + 1, h⟩
      (by rw [hi, hb]; omega) (by rw [hj, hb]; omega) (by show n + 1 = (b + n + 1) % 8; omega)
  have h7' := Cert.LibBlockSum.fold_blocks (fun kb => blockSum (xarr V c) i j kb) a h0 hs
  have e7 : a 7 = acc V c t.val t.isLt (ix2 p q) := by
    show (if hlt : b + 7 < cfg0.N then acc V c (b + 7) hlt (ix2 p q) else 0) = _
    rw [dif_pos (by rw [hN]; omega)]
    have : ∀ (m : ℕ) (hm : m < cfg0.N), m = t.val → acc V c m hm (ix2 p q) = acc V c t.val t.isLt (ix2 p q) := by
      intro m hm e; subst e; rfl
    exact this _ _ hb.symm
  rw [← e7, h7', Cert.LibBlockSum.sum_blocks]
  rfl

/-! ## The output block at a point that writes back, and the whole array -/

/-- What a writing-back point leaves at `(p, q)` of its block is the radial-kernel matrix at
    `(512·i + p, 512·j + q)`. -/
theorem out_apply (c : Dev nD) (t : Fin cfg0.N) (h7 : t.val % 8 = 7) (p q : Fin 512) (i j : Fin 4096)
    (hi : i.val = 512 * (t.val / 64) + p.val) (hj : j.val = 512 * (t.val / 8 % 8) + q.val) :
    k0_pay3 (blkP V c t) (blkR V c t) (acc V c t.val t.isLt) (blkW V c t) (ix2 p q)
      = Cert.Spec.gramAt (xarr V c) (warr V c) (parr V c) (rarr V c) i j := by
  refine (pay3_apply (blkP V c t) (blkR V c t) (acc V c t.val t.isLt) (blkW V c t) p q).trans ?_
  rw [iblk2_apply V c t p q i j hi hj, iblk3_apply V c t p i hi, iblk4_apply V c t q j hj,
    acc_last V c t h7 p q i j hi hj]
  rfl

/-- The radial-kernel matrix of the arrays the region was entered with. -/
abbrev gram (c : Dev nD) : S4096x4096.Idx → EReal :=
  Cert.Spec.gramOf (xarr V c) (warr V c) (parr V c) (rarr V c)

/-- A point that writes back writes its block of that matrix. -/
theorem flushed_eq (c : Dev nD) (t : Fin cfg0.N) (hf : (cfg0.win 5).flush t = true) :
    (dat (F := Ideal) V c).flushed 5 t = ((cfg0.win 5).blk t).view.read (Elt Ideal) (gram V c) := by
  have h7 : t.val % 8 = 7 := (flush0_5 t).mp hf
  show (cfg0.win 5).cut (grid0.coords t) ((dat (F := Ideal) V c).after 5 t) = _
  rw [after_5]
  funext y
  obtain ⟨p, q, rfl⟩ : ∃ (p q : Fin 512), y = ix2 p q := ⟨y 0, y 1, eq_ix2 (n0 := 512) (n1 := 512) y⟩
  rw [View.read_apply]
  show k0_pay3 (blkP V c t) (blkR V c t) (acc V c t.val t.isLt) (blkW V c t) (ix2 p q)
    = Cert.Spec.gramAt (xarr V c) (warr V c) (parr V c) (rarr V c)
        (((cfg0.win 5).blk t).view.emb (ix2 p q) 0) (((cfg0.win 5).blk t).view.emb (ix2 p q) 1)
  refine out_apply V c t h7 p q _ _ ?_ ?_
  · show win0_5.index t 0 * 512 + 1 * p.val = _
    rw [(idx5 t).1]; omega
  · show win0_5.index t 1 * 512 + 1 * q.val = _
    rw [(idx5 t).2]; omega

/-- Every index of the output lies in the block of the last point of its tile. -/
theorem cover (i : S4096x4096.Idx) :
    ∃ t : Fin cfg0.N, (cfg0.win 5).flush t = true ∧ i ∈ ((cfg0.win 5).blk t).view.set := by
  have hN : cfg0.N = 512 := N_0
  have h0 : (i 0 : Nat) < 4096 := (i 0).isLt
  have h1 : (i 1 : Nat) < 4096 := (i 1).isLt
  have ht : ((i 0).val / 512 * 8 + (i 1).val / 512) * 8 + 7 < cfg0.N := by rw [hN]; omega
  refine ⟨⟨((i 0).val / 512 * 8 + (i 1).val / 512) * 8 + 7, ht⟩, (flush0_5 _).mpr (by
    show (((i 0).val / 512 * 8 + (i 1).val / 512) * 8 + 7) % 8 = 7; omega), ?_⟩
  show i ∈ ((View.whole main_v7).slice (win0_5.rect ⟨((i 0).val / 512 * 8 + (i 1).val / 512) * 8 + 7, ht⟩)).set
  rw [View.set_slice_whole, Rect.mem_set_unit]
  intro a
  match a with
  | ⟨0, _⟩ =>
    show win0_5.index ⟨((i 0).val / 512 * 8 + (i 1).val / 512) * 8 + 7, ht⟩ 0 * 512 ≤ (i 0 : Nat)
      ∧ (i 0 : Nat) < win0_5.index ⟨((i 0).val / 512 * 8 + (i 1).val / 512) * 8 + 7, ht⟩ 0 * 512 + 512
    rw [(idx5 _).1]
    show (((i 0).val / 512 * 8 + (i 1).val / 512) * 8 + 7) / 64 * 512 ≤ (i 0 : Nat)
      ∧ (i 0 : Nat) < (((i 0).val / 512 * 8 + (i 1).val / 512) * 8 + 7) / 64 * 512 + 512
    omega
  | ⟨1, _⟩ =>
    show win0_5.index ⟨((i 0).val / 512 * 8 + (i 1).val / 512) * 8 + 7, ht⟩ 1 * 512 ≤ (i 1 : Nat)
      ∧ (i 1 : Nat) < win0_5.index ⟨((i 0).val / 512 * 8 + (i 1).val / 512) * 8 + 7, ht⟩ 1 * 512 + 512
    rw [(idx5 _).2]
    show (((i 0).val / 512 * 8 + (i 1).val / 512) * 8 + 7) / 8 % 8 * 512 ≤ (i 1 : Nat)
      ∧ (i 1 : Nat) < (((i 0).val / 512 * 8 + (i 1).val / 512) * 8 + 7) / 8 % 8 * 512 + 512
    omega

/-! What region 0 leaves in its output array, at the extended reals: the radial-kernel matrix of the arrays it read. -/

/-- After region 0 its output array holds, index by index, exp (−|w| · dist) of the rows of the narrowed input, the
    weights, and the column and the row of squared norms it was entered with. -/
theorem final (V : (c : Dev nD) → (b : Ref sig .tc) → Buf (Elt Ideal) ((c : Thread nD τ).loc b)) (c : Dev nD) :
    (dat (F := Ideal) V c).arrAt 5 cfg0.N
      = Cert.Spec.gramOf (V c main_v4) (V c main_arg1) (V c main_v2) (V c main_v3) :=
  (dat (F := Ideal) V c).arrAt_eq_of_cover 5 (gram V c) (fun t hf => flushed_eq V c t hf) cover

end Cert.KernelIdeal.Gram

end
-- ==== Proof.Ideal.MixValue.lean ====
import proofs.«156051_j65481071410654_1_alg».proof.Proof.Ideal.MixData
import proofs.«156051_j65481071410654_1_alg».proof.Proof.Spec
import proofs.«156051_j65481071410654_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

/-! What region 1 leaves in its output array, at the extended reals: the product of the two arrays it read. -/

/-! ### The body's arithmetic at an index

    Over the extended reals the block product into a zero accumulator is, at row `p` and column `q`, the plain sum
    over the 512 contraction indices of the products; the update adds it to the accumulator there; the reset leaves
    zero; the narrowing changes nothing. -/

private theorem lhs_axis0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
private theorem lhs_axis1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
private theorem rhs_axis0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
private theorem rhs_axis1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The block product into the zero accumulator, at an index: the sum over the contraction index of the products. -/
private theorem blockProduct_apply (a b : FVec Ideal S512x512 .bf16) (p q : Fin 512) :
    (matmul dot_S512x512_S512x512_S512x512_1_0_0_1_n_n none a b (constant (F := Ideal) S512x512 .f32 0x00000000#32) : FVec Ideal S512x512 .f32) (ix2 p q)
      = ∑ k : Fin 512, a (ix2 p k) * b (ix2 k q) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p q) ((ValueIdx.contrEquiv1 dot_S512x512_S512x512_S512x512_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S512x512_S512x512_S512x512_1_0_0_1_n_n.rhsIdx (ix2 p q) ((ValueIdx.contrEquiv1 dot_S512x512_S512x512_S512x512_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-- The update at an index: the accumulator there plus the block product there. -/
private theorem update_apply (s : Vec Ideal S512x512 .f32) (a b : Vec Ideal S512x512 .bf16) (p q : Fin 512) :
    k1_pay2 s a b (ix2 p q) = s (ix2 p q) + ∑ k : Fin 512, a (ix2 p k) * b (ix2 k q) := by
  unfold k1_pay2
  simp only [shapeCast_self]
  exact congrArg (s (ix2 p q) + ·) (blockProduct_apply a b p q)

/-- The reset block is zero everywhere. -/
private theorem reset_apply (j : S512x512.Idx) : k1_pay1 (F := Ideal) j = 0 := by
  unfold k1_pay1
  simp only [shapeCast_self]
  exact Ideal.ofBits_zero_f32

/-- Over the extended reals the narrowing is the identity. -/
private theorem narrow_eq (s : Vec Ideal S512x512 .f32) : k1_pay3 s = s := rfl

/-! ### Where the blocks lie

    The grid is 8 × 8 × 8, the innermost axis the contraction's: at point `t` the first operand's block is block
    (t / 64, t % 8) of its array, the second's block (t % 8, t / 8 % 8), and the output's block (t / 64, t / 8 % 8). -/

/-- The block indices of the three windows at a point, in closed form. -/
private theorem block_indices : ∀ t : Fin cfg1.N,
    win1_0.index t (0 : Fin 2) = t.val / 64 ∧ win1_0.index t (1 : Fin 2) = t.val % 8
    ∧ win1_1.index t (0 : Fin 2) = t.val % 8 ∧ win1_1.index t (1 : Fin 2) = t.val / 8 % 8
    ∧ win1_2.index t (0 : Fin 2) = t.val / 64 ∧ win1_2.index t (1 : Fin 2) = t.val / 8 % 8 :=
  (by decide +kernel : ∀ t : Fin grid1.N, _)

variable (V : (c : Dev nD) → (b : Ref sig .tc) → Buf (Elt Ideal) ((c : Thread nD τ).loc b))

/-- The first operand's block at point `t`, at row `p` and column `k`: the kernel matrix at row 512·(t / 64) + p and
    column 512·(t % 8) + k. -/
private theorem left_block_apply (c : Dev nD) (t : Fin cfg1.N) (p k : Fin 512) (I K : Fin 4096)
    (hI : I.val = 512 * (t.val / 64) + p.val) (hK : K.val = 512 * (t.val % 8) + k.val) :
    (iblk V c 0 t : Vec Ideal S512x512 .bf16) (ix2 p k) = V c main_v7 (ix2 I K) := by
  obtain ⟨e0, e1, -⟩ := block_indices t
  unfold iblk
  rw [View.read_apply]
  show V c main_v7 _ = V c main_v7 _
  refine congrArg (V c main_v7) (funext fun a => Fin.ext ?_)
  match a with
  | ⟨0, _⟩ => show win1_0.index t (0 : Fin 2) * 512 + 1 * p.val = I.val; omega
  | ⟨1, _⟩ => show win1_0.index t (1 : Fin 2) * 512 + 1 * k.val = K.val; omega

/-- The second operand's block at point `t`, at row `k` and column `q`: the narrowed input at row 512·(t % 8) + k and
    column 512·(t / 8 % 8) + q. -/
private theorem right_block_apply (c : Dev nD) (t : Fin cfg1.N) (k q : Fin 512) (K J : Fin 4096)
    (hK : K.val = 512 * (t.val % 8) + k.val) (hJ : J.val = 512 * (t.val / 8 % 8) + q.val) :
    (iblk V c 1 t : Vec Ideal S512x512 .bf16) (ix2 k q) = V c main_v4 (ix2 K J) := by
  obtain ⟨-, -, e2, e3, -⟩ := block_indices t
  unfold iblk
  rw [View.read_apply]
  show V c main_v4 _ = V c main_v4 _
  refine congrArg (V c main_v4) (funext fun a => Fin.ext ?_)
  match a with
  | ⟨0, _⟩ => show win1_1.index t (0 : Fin 2) * 512 + 1 * k.val = K.val; omega
  | ⟨1, _⟩ => show win1_1.index t (1 : Fin 2) * 512 + 1 * q.val = J.val; omega

/-! ### The accumulator over one tile

    Fix an output row `I` and column `J`. The contraction sums the products `term I J k` over `k`; the eight points
    of a tile add them in eight blocks of 512. -/

/-- The product the contraction sums at index `k`, for output row `I` and column `J`. -/
private def term (g xb : Cert.Spec.Mat.Idx → EReal) (I J : Fin 4096) (k : Fin 4096) : EReal := g (ix2 I k) * xb (ix2 k J)

/-- The sum of the products over the `kb`-th block of 512 contraction indices. -/
private def blockSum (g xb : Cert.Spec.Mat.Idx → EReal) (I J : Fin 4096) (kb : Fin 8) : EReal :=
  ∑ j : Fin 512, term g xb I J ⟨512 * kb.val + j.val, by omega⟩

/-- The update at point `t`, at row `p` and column `q`: the accumulator there plus the block sum of the point's
    contraction block, for the output row and column that the point's tile and `p`, `q` name. -/
private theorem update_point_apply (c : Dev nD) (t : Fin cfg1.N) (s : Vec Ideal S512x512 .f32) (p q : Fin 512) (I J : Fin 4096)
    (kb : Fin 8) (hI : I.val = 512 * (t.val / 64) + p.val) (hJ : J.val = 512 * (t.val / 8 % 8) + q.val)
    (hk : kb.val = t.val % 8) :
    k1_pay2 s (iblk V c 0 t) (iblk V c 1 t) (ix2 p q) = s (ix2 p q) + blockSum (V c main_v7) (V c main_v4) I J kb := by
  refine (update_apply s _ _ p q).trans (congrArg (s (ix2 p q) + ·) ?_)
  unfold blockSum term
  refine Finset.sum_congr rfl fun k _ => ?_
  rw [left_block_apply V c t p k I ⟨512 * kb.val + k.val, by omega⟩ hI (by show 512 * kb.val + k.val = _; rw [hk]),
    right_block_apply V c t k q ⟨512 * kb.val + k.val, by omega⟩ J (by show 512 * kb.val + k.val = _; rw [hk]) hJ]

/-- At a tile's first point the accumulator is zero plus the first block sum. -/
private theorem acc_first_apply (c : Dev nD) (t : Fin cfg1.N) (h : t.val % 8 = 0) (p q : Fin 512) (I J : Fin 4096) (kb : Fin 8)
    (hI : I.val = 512 * (t.val / 64) + p.val) (hJ : J.val = 512 * (t.val / 8 % 8) + q.val) (hk : kb.val = t.val % 8) :
    acc V c t.val t.isLt (ix2 p q) = 0 + blockSum (V c main_v7) (V c main_v4) I J kb := by
  rw [acc_first V c t h]
  refine (update_point_apply V c t _ p q I J kb hI hJ hk).trans ?_
  rw [reset_apply]

/-- At a later point of a tile it is what the point before left plus the point's block sum. -/
private theorem acc_next_apply (c : Dev nD) (t : Fin cfg1.N) (h : t.val % 8 ≠ 0) (m : ℕ) (hm : m + 1 = t.val) (p q : Fin 512)
    (I J : Fin 4096) (kb : Fin 8)
    (hI : I.val = 512 * (t.val / 64) + p.val) (hJ : J.val = 512 * (t.val / 8 % 8) + q.val) (hk : kb.val = t.val % 8) :
    acc V c t.val t.isLt (ix2 p q)
      = acc V c m (by have := t.isLt; omega) (ix2 p q) + blockSum (V c main_v7) (V c main_v4) I J kb := by
  obtain rfl : m = t.val - 1 := by omega
  rw [acc_next V c t h]
  exact update_point_apply V c t _ p q I J kb hI hJ hk

/-- The accumulator at row `p` and column `q` after the `n`-th point of tile `b`. -/
private def tileAcc (c : Dev nD) (b : ℕ) (p q : Fin 512) (n : ℕ) : EReal :=
  if h : 8 * b + n < cfg1.N then acc V c (8 * b + n) h (ix2 p q) else 0

private theorem tileAcc_eq (c : Dev nD) (b : ℕ) (p q : Fin 512) (n : ℕ) (h : 8 * b + n < cfg1.N) :
    tileAcc V c b p q n = acc V c (8 * b + n) h (ix2 p q) := dif_pos h

/-- After a tile's last point the accumulator holds, at row `p` and column `q`, the whole contraction for the output
    row and column that the tile's position and `p`, `q` name: eight block sums folded from zero are the sum over all
    4096 indices. -/
private theorem acc_last_apply (c : Dev nD) (b : ℕ) (hb : b < 64) (p q : Fin 512) (I J : Fin 4096)
    (hI : I.val = 512 * (b / 8) + p.val) (hJ : J.val = 512 * (b % 8) + q.val) (h : 8 * b + 7 < cfg1.N) :
    acc V c (8 * b + 7) h (ix2 p q) = ∑ k : Fin 4096, term (V c main_v7) (V c main_v4) I J k := by
  have hN : cfg1.N = 512 := N_1
  rw [Cert.LibBlockSum.sum_blocks, ← tileAcc_eq V c b p q 7 h]
  refine Cert.LibBlockSum.fold_blocks (blockSum (V c main_v7) (V c main_v4) I J) (tileAcc V c b p q) ?_ ?_
  · rw [tileAcc_eq V c b p q 0 (by omega)]
    exact acc_first_apply V c ⟨8 * b + 0, by omega⟩ (by show (8 * b + 0) % 8 = 0; omega) p q I J 0
      (by show I.val = 512 * ((8 * b + 0) / 64) + p.val; omega)
      (by show J.val = 512 * ((8 * b + 0) / 8 % 8) + q.val; omega)
      (by show (0 : Fin 8).val = (8 * b + 0) % 8; simp)
  · intro n hn
    rw [tileAcc_eq V c b p q (n + 1) (by omega), tileAcc_eq V c b p q n (by omega)]
    exact acc_next_apply V c ⟨8 * b + (n + 1), by omega⟩ (by show (8 * b + (n + 1)) % 8 ≠ 0; omega) (8 * b + n) rfl p q I J
      ⟨n + 1, hn⟩
      (by show I.val = 512 * ((8 * b + (n + 1)) / 64) + p.val; omega)
      (by show J.val = 512 * ((8 * b + (n + 1)) / 8 % 8) + q.val; omega)
      (by show n + 1 = (8 * b + (n + 1)) % 8; omega)

/-! ### From the tiles to the array -/

/-- What a writing-back point writes back is its block of the product. -/
private theorem flushed_eq (c : Dev nD) (t : Fin cfg1.N) (hf : (cfg1.win 2).flush t = true) :
    (dat (F := Ideal) V c).flushed 2 t
      = ((cfg1.win 2).blk t).view.read (Elt Ideal) (Cert.Spec.mixOf (V c main_v7) (V c main_v4)) := by
  have h7 : t.val % 8 = 7 := (flush1_2 t).mp hf
  have hN : cfg1.N = 512 := N_1
  have ht : t.val < 512 := lt_of_lt_of_eq t.isLt hN
  obtain ⟨-, -, -, -, e4, e5⟩ := block_indices t
  show (cfg1.win 2).cut (grid1.coords t) ((dat V c).after 2 t) = _
  rw [after_2, narrow_eq]
  funext y
  rw [View.read_apply]
  obtain ⟨p, q, rfl⟩ : ∃ (p : Fin 512) (q : Fin 512), y = ix2 p q := ⟨y 0, y 1, eq_ix2 y⟩
  -- the output row and column of the block's index (p, q)
  have hp := p.isLt
  have hq := q.isLt
  have hI : 512 * (t.val / 64) + p.val < 4096 := by omega
  have hJ : 512 * (t.val / 8 % 8) + q.val < 4096 := by omega
  have hemb : ((cfg1.win 2).blk t).view.emb (ix2 p q)
      = ix2 (⟨512 * (t.val / 64) + p.val, hI⟩ : Fin 4096) (⟨512 * (t.val / 8 % 8) + q.val, hJ⟩ : Fin 4096) :=
    funext fun a => Fin.ext (by
      match a with
      | ⟨0, _⟩ => show win1_2.index t (0 : Fin 2) * 512 + 1 * p.val = 512 * (t.val / 64) + p.val; omega
      | ⟨1, _⟩ => show win1_2.index t (1 : Fin 2) * 512 + 1 * q.val = 512 * (t.val / 8 % 8) + q.val; omega)
  rw [hemb]
  show acc V c t.val t.isLt (ix2 p q) = Cert.Spec.mixAt (V c main_v7) (V c main_v4) _ _
  have e : ∀ (n : ℕ) (h : n < cfg1.N) (h' : 8 * (t.val / 8) + 7 < cfg1.N), n = 8 * (t.val / 8) + 7 →
      acc V c n h = acc V c (8 * (t.val / 8) + 7) h' := by
    intro n h h' hn; subst hn; rfl
  rw [e t.val t.isLt (by omega) (by omega)]
  exact acc_last_apply V c (t.val / 8) (by omega) p q _ _ (by show 512 * (t.val / 64) + p.val = _; omega)
    (by show 512 * (t.val / 8 % 8) + q.val = _; omega) _

/-- Every index of the output array lies in the block of the last point of its tile. -/
private theorem cover (i : S4096x4096.Idx) :
    ∃ t : Fin cfg1.N, (cfg1.win 2).flush t = true ∧ i ∈ ((cfg1.win 2).blk t).view.set := by
  have hN : cfg1.N = 512 := N_1
  have h0 : (i 0).val < 4096 := (i 0).isLt
  have h1 : (i 1).val < 4096 := (i 1).isLt
  obtain ⟨n, hn⟩ : ∃ n : ℕ, n = ((i 0).val / 512 * 8 + (i 1).val / 512) * 8 + 7 := ⟨_, rfl⟩
  have hlt : n < cfg1.N := by omega
  refine ⟨⟨n, hlt⟩, (flush1_2 _).mpr (by show n % 8 = 7; omega), ?_⟩
  obtain ⟨-, -, -, -, e4, e5⟩ := block_indices ⟨n, hlt⟩
  have e4' : win1_2.index ⟨n, hlt⟩ (0 : Fin 2) = n / 64 := e4
  have e5' : win1_2.index ⟨n, hlt⟩ (1 : Fin 2) = n / 8 % 8 := e5
  show i ∈ ((View.whole main_v8).slice (win1_2.rect ⟨n, hlt⟩)).set
  rw [View.set_slice_whole, Rect.mem_set_unit]
  intro a
  match a with
  | ⟨0, _⟩ =>
    show win1_2.index ⟨n, hlt⟩ (0 : Fin 2) * 512 ≤ (i 0).val ∧ (i 0).val < win1_2.index ⟨n, hlt⟩ (0 : Fin 2) * 512 + 512
    rw [e4']; omega
  | ⟨1, _⟩ =>
    show win1_2.index ⟨n, hlt⟩ (1 : Fin 2) * 512 ≤ (i 1).val ∧ (i 1).val < win1_2.index ⟨n, hlt⟩ (1 : Fin 2) * 512 + 512
    rw [e5']; omega

/-- After region 1 its output array holds, index by index, the product of the kernel matrix and the narrowed input it
    was entered with. -/
theorem final (V : (c : Dev nD) → (b : Ref sig .tc) → Buf (Elt Ideal) ((c : Thread nD τ).loc b)) (c : Dev nD) :
    (dat (F := Ideal) V c).arrAt 2 cfg1.N = Cert.Spec.mixOf (V c main_v7) (V c main_v4) :=
  (dat (F := Ideal) V c).arrAt_eq_of_cover 2 (Cert.Spec.mixOf (V c main_v7) (V c main_v4)) (flushed_eq V c) cover

end Cert.KernelIdeal.Mix

end
-- ==== Proof.Ideal.ProjValue.lean ====
import proofs.«156051_j65481071410654_1_alg».proof.Proof.Ideal.ProjData
import proofs.«156051_j65481071410654_1_alg».proof.Proof.Spec
import proofs.«156051_j65481071410654_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! What region 2 leaves in its output array, at the extended reals: the product of the mixed rows with the transposed
    output weights, plus the bias row.

    The grid is 8 × 8 × 8 and the point `t` = (i·8 + j)·8 + k works on the output's tile (i, j) with the k-th block of
    512 columns of both arrays. The accumulator is reset to zero at k = 0 and receives one block of products per point;
    at k = 7 it is written back with the bias block added. So after a tile's eight points the accumulator holds, index
    by index, zero plus eight block sums added one after another, which over the extended reals is the sum over all 4096
    columns; the output's blocks tile its array. -/

open Idealize.ShloMosaic.ValueIdx

/-! ## The body's arithmetic at an index -/

/-- The product's left operand is read at the output's row and the contraction's position, -/
theorem lhs_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- and its right operand at the contraction's position and the output's column. -/
theorem rhs_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product with the transposed second block, into a zero accumulator, at an index: the sum over the 512 columns
    of the two blocks' rows' products. -/
theorem matmulT_apply (a b : FVec Ideal S512x512 .bf16) (p q : Fin 512) :
    matmul (φ₁ := .bf16) (φ₂ := .bf16) dot_S512x512_S512x512_S512x512_1_0_0_1_n_n none a (transpose S512x512 [1, 0] b transposes_S512x512_p1_0_S512x512)
        (constant (F := Ideal) S512x512 .f32 0x00000000#32) (ix2 p q)
      = ∑ k : Fin 512, (a (ix2 p k) : EReal) * (b (ix2 q k) : EReal) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhs_0 _ _
    | ⟨1, _⟩ => exact (lhs_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhs_0 _ _).trans hk
    | ⟨1, _⟩ => exact rhs_1 _ _)
  rw [el, er, transpose_ix2_apply]

/-- The block the accumulator is reset to is zero everywhere. -/
theorem pay1_apply (p q : Fin 512) : (k2_pay1 (F := Ideal) (ix2 p q) : EReal) = 0 := by
  unfold k2_pay1
  simp only [shapeCast_self]
  exact Ideal.ofBits_zero_f32

/-- One step of the accumulation at an index: what was there plus the sum over the 512 columns of the products of the
    first block's row and the second block's row. -/
theorem pay2_apply (a b : Vec Ideal S512x512 .bf16) (s : Vec Ideal S512x512 .f32) (p q : Fin 512) :
    (k2_pay2 a b s (ix2 p q) : EReal) = (s (ix2 p q) : EReal) + ∑ k : Fin 512, (a (ix2 p k) : EReal) * (b (ix2 q k) : EReal) := by
  unfold k2_pay2
  simp only [shapeCast_self]
  exact congrArg ((s (ix2 p q) : EReal) + ·) (matmulT_apply a b p q)

/-- The epilogue at an index: the accumulator plus the bias block's entry of the column. -/
theorem pay3_apply (s : Vec Ideal S512x512 .f32) (r : Vec Ideal S1x512 .f32) (p q : Fin 512) :
    (k2_pay3 s r (ix2 p q) : EReal) = (s (ix2 p q) : EReal) + (r (ix2 (0 : Fin 1) q) : EReal) := by
  unfold k2_pay3
  simp only [shapeCast_self]
  exact congrArg ((s (ix2 p q) : EReal) + ·) (broadcastTo_1b_ab_apply r broadcasts_S1x512_S512x512 p q)

/-! ## The printed index maps, decided over the grid

    With the point `t` = ((i·8) + j)·8 + k: the first array's block is (i, k), the second's (j, k), the bias row's
    (0, j) and the output's (i, j). -/

theorem idx_facts : ∀ t : Fin cfg2.N,
    win2_0.index t (0 : Fin 2) = t.val / 64 ∧ win2_0.index t (1 : Fin 2) = t.val % 8
    ∧ win2_1.index t (0 : Fin 2) = t.val / 8 % 8 ∧ win2_1.index t (1 : Fin 2) = t.val % 8
    ∧ win2_2.index t (0 : Fin 2) = 0 ∧ win2_2.index t (1 : Fin 2) = t.val / 8 % 8
    ∧ win2_3.index t (0 : Fin 2) = t.val / 64 ∧ win2_3.index t (1 : Fin 2) = t.val / 8 % 8 :=
  (by decide +kernel : ∀ t : Fin grid2.N, _)

variable (V : (c : Dev nD) → (b : Ref sig .tc) → Buf (Elt Ideal) ((c : Thread nD τ).loc b))

/-- The three arrays the region is entered with, as plain functions of their indices. -/
abbrev mx (c : Dev nD) : Cert.Spec.Mat.Idx → EReal := V c main_v8
abbrev wt (c : Dev nD) : Cert.Spec.Mat.Idx → EReal := V c main_v5
abbrev bs (c : Dev nD) : Cert.Spec.Row.Idx → EReal := V c main_v6

/-! ## Each block read where its rectangle lies in the array -/

theorem blk0_apply (c : Dev nD) (t : Fin cfg2.N) (p q : Fin 512) (I K : Fin 4096)
    (hI : I.val = 512 * (t.val / 64) + p.val) (hK : K.val = 512 * (t.val % 8) + q.val) :
    ((iblk V c 0 t : Vec Ideal S512x512 .bf16) (ix2 p q) : EReal) = mx V c (ix2 I K) := by
  obtain ⟨e0, e1, -⟩ := idx_facts t
  unfold iblk
  rw [View.read_apply]
  show V c main_v8 _ = V c main_v8 _
  congr 1
  funext a
  apply Fin.ext
  match a with
  | ⟨0, _⟩ => show win2_0.index t (0 : Fin 2) * 512 + 1 * p.val = I.val; rw [e0, hI]; omega
  | ⟨1, _⟩ => show win2_0.index t (1 : Fin 2) * 512 + 1 * q.val = K.val; rw [e1, hK]; omega

theorem blk1_apply (c : Dev nD) (t : Fin cfg2.N) (p q : Fin 512) (J K : Fin 4096)
    (hJ : J.val = 512 * (t.val / 8 % 8) + p.val) (hK : K.val = 512 * (t.val % 8) + q.val) :
    ((iblk V c 1 t : Vec Ideal S512x512 .bf16) (ix2 p q) : EReal) = wt V c (ix2 J K) := by
  obtain ⟨-, -, e0, e1, -⟩ := idx_facts t
  unfold iblk
  rw [View.read_apply]
  show V c main_v5 _ = V c main_v5 _
  congr 1
  funext a
  apply Fin.ext
  match a with
  | ⟨0, _⟩ => show win2_1.index t (0 : Fin 2) * 512 + 1 * p.val = J.val; rw [e0, hJ]; omega
  | ⟨1, _⟩ => show win2_1.index t (1 : Fin 2) * 512 + 1 * q.val = K.val; rw [e1, hK]; omega

theorem blk2_apply (c : Dev nD) (t : Fin cfg2.N) (q : Fin 512) (J : Fin 4096)
    (hJ : J.val = 512 * (t.val / 8 % 8) + q.val) :
    ((iblk V c 2 t : Vec Ideal S1x512 .f32) (ix2 (0 : Fin 1) q) : EReal) = bs V c (ix2 (0 : Fin 1) J) := by
  obtain ⟨-, -, -, -, e0, e1, -⟩ := idx_facts t
  unfold iblk
  rw [View.read_apply]
  show V c main_v6 _ = V c main_v6 _
  congr 1
  funext a
  apply Fin.ext
  match a with
  | ⟨0, _⟩ => show win2_2.index t (0 : Fin 2) * 1 + 1 * 0 = 0; rw [e0]
  | ⟨1, _⟩ => show win2_2.index t (1 : Fin 2) * 512 + 1 * q.val = J.val; rw [e1, hJ]; omega

/-! ## The accumulator over one tile's eight points -/

/-- The products of block `kb` of 512 columns, for row `I` of the first array and row `J` of the second, summed. -/
def blockSum (c : Dev nD) (I J : Fin 4096) (kb : Fin 8) : EReal :=
  ∑ j : Fin 512, mx V c (ix2 I ⟨512 * kb.val + j.val, by omega⟩) * wt V c (ix2 J ⟨512 * kb.val + j.val, by omega⟩)

/-- One point's step at an index: what the accumulator held plus the point's block of products. -/
theorem step_apply (c : Dev nD) (t : Fin cfg2.N) (s : Vec Ideal S512x512 .f32) (p q : Fin 512) (I J : Fin 4096) (kb : Fin 8)
    (hI : I.val = 512 * (t.val / 64) + p.val) (hJ : J.val = 512 * (t.val / 8 % 8) + q.val) (hkb : t.val % 8 = kb.val) :
    (k2_pay2 (iblk V c 0 t) (iblk V c 1 t) s (ix2 p q) : EReal) = (s (ix2 p q) : EReal) + blockSum V c I J kb := by
  refine (pay2_apply (iblk V c 0 t) (iblk V c 1 t) s p q).trans ?_
  refine congrArg ((s (ix2 p q) : EReal) + ·) ?_
  unfold blockSum
  refine Finset.sum_congr rfl fun j _ => ?_
  rw [blk0_apply V c t p j I ⟨512 * kb.val + j.val, by omega⟩ hI (by rw [hkb]),
    blk1_apply V c t q j J ⟨512 * kb.val + j.val, by omega⟩ hJ (by rw [hkb])]

/-- The accumulator at equal points is the same. -/
theorem acc_congr (c : Dev nD) (n n' : ℕ) (h : n < cfg2.N) (h' : n' < cfg2.N) (e : n = n') :
    acc V c n h = acc V c n' h' := by
  subst e; rfl

/-- After the last of the eight points of tile `m` the accumulator holds, at an index, the whole sum over the 4096
    columns of the products of the rows the index names: eight block sums added one after another from zero. -/
theorem acc_tile (c : Dev nD) (m : ℕ) (hm : m < 64) (p q : Fin 512) (I J : Fin 4096)
    (hI : I.val = 512 * (m / 8) + p.val) (hJ : J.val = 512 * (m % 8) + q.val) (h7 : 8 * m + 7 < cfg2.N) :
    (acc V c (8 * m + 7) h7 (ix2 p q) : EReal) = ∑ k : Fin 4096, mx V c (ix2 I k) * wt V c (ix2 J k) := by
  have hN : cfg2.N = 512 := N_2
  have hlt : ∀ r : ℕ, r < 8 → 8 * m + r < cfg2.N := fun r hr => by rw [hN]; omega
  have key := Cert.LibBlockSum.fold_blocks (blockSum V c I J)
    (fun r => if hr : r < 8 then (acc V c (8 * m + r) (hlt r hr) (ix2 p q) : EReal) else 0) ?h0 ?hs
  case h0 =>
    show (if hr : 0 < 8 then (acc V c (8 * m + 0) (hlt 0 hr) (ix2 p q) : EReal) else 0) = 0 + blockSum V c I J 0
    rw [dif_pos (by decide)]
    refine (congrFun (acc_first V c ⟨8 * m + 0, hlt 0 (by decide)⟩ (by show (8 * m + 0) % 8 = 0; omega)) (ix2 p q)).trans ?_
    refine (step_apply V c ⟨8 * m + 0, hlt 0 (by decide)⟩ (k2_pay1 (F := Ideal)) p q I J 0
      (by show I.val = 512 * ((8 * m + 0) / 64) + p.val; rw [hI]; omega)
      (by show J.val = 512 * ((8 * m + 0) / 8 % 8) + q.val; rw [hJ]; omega)
      (by show (8 * m + 0) % 8 = 0; omega)).trans ?_
    rw [pay1_apply]
  case hs =>
    intro n h
    show (if hr : n + 1 < 8 then (acc V c (8 * m + (n + 1)) (hlt (n + 1) hr) (ix2 p q) : EReal) else 0)
      = (if hr : n < 8 then (acc V c (8 * m + n) (hlt n hr) (ix2 p q) : EReal) else 0) + blockSum V c I J ⟨n + 1, h⟩
    rw [dif_pos h, dif_pos (Nat.lt_of_succ_lt h)]
    refine (congrFun (acc_next V c ⟨8 * m + (n + 1), hlt (n + 1) h⟩ (by show (8 * m + (n + 1)) % 8 ≠ 0; omega)) (ix2 p q)).trans ?_
    refine (step_apply V c ⟨8 * m + (n + 1), hlt (n + 1) h⟩ _ p q I J ⟨n + 1, h⟩
      (by show I.val = 512 * ((8 * m + (n + 1)) / 64) + p.val; rw [hI]; omega)
      (by show J.val = 512 * ((8 * m + (n + 1)) / 8 % 8) + q.val; rw [hJ]; omega)
      (by show (8 * m + (n + 1)) % 8 = n + 1; omega)).trans ?_
    refine congrArg (· + blockSum V c I J ⟨n + 1, h⟩) ?_
    exact congrFun (acc_congr V c _ (8 * m + n) _ (hlt n (Nat.lt_of_succ_lt h)) (by show 8 * m + (n + 1) - 1 = 8 * m + n; omega)) (ix2 p q)
  rw [Cert.LibBlockSum.sum_blocks (fun k : Fin 4096 => mx V c (ix2 I k) * wt V c (ix2 J k))]
  refine Eq.trans ?_ key
  show _ = (if hr : 7 < 8 then (acc V c (8 * m + 7) (hlt 7 hr) (ix2 p q) : EReal) else 0)
  rw [dif_pos (by decide : 7 < 8)]

/-- At a tile's last point the accumulator holds, at an index, the whole product's entry. -/
theorem acc_last (c : Dev nD) (t : Fin cfg2.N) (h7 : t.val % 8 = 7) (p q : Fin 512) (I J : Fin 4096)
    (hI : I.val = 512 * (t.val / 64) + p.val) (hJ : J.val = 512 * (t.val / 8 % 8) + q.val) :
    (acc V c t.val t.isLt (ix2 p q) : EReal) = ∑ k : Fin 4096, mx V c (ix2 I k) * wt V c (ix2 J k) := by
  have hN : cfg2.N = 512 := N_2
  have htlt : t.val < 512 := lt_of_lt_of_eq t.isLt hN
  have h7' : 8 * (t.val / 8) + 7 < cfg2.N := lt_of_lt_of_eq (show 8 * (t.val / 8) + 7 < 512 by omega) hN.symm
  refine (congrFun (acc_congr V c t.val (8 * (t.val / 8) + 7) t.isLt h7' (by omega)) (ix2 p q)).trans ?_
  exact acc_tile V c (t.val / 8) (by omega) p q I J (by rw [hI]; omega) (by rw [hJ]) h7'

/-! ## What a point writes back, and the whole array -/

/-- What the region leaves in its output array: the product with the transposed second array, plus the bias row. -/
abbrev G (c : Dev nD) : Cert.Spec.Mat.Idx → EReal := Cert.Spec.projOf (mx V c) (wt V c) (bs V c)

/-- What a point that writes back writes is its block of that array. -/
theorem flushed_eq (c : Dev nD) (t : Fin cfg2.N) (hf : (cfg2.win 3).flush t = true) :
    (dat (F := Ideal) V c).flushed 3 t = ((cfg2.win 3).blk t).view.read (Elt Ideal) (G V c) := by
  have h7 : t.val % 8 = 7 := (flush2_3 t).mp hf
  obtain ⟨-, -, -, -, -, -, e0, e1⟩ := idx_facts t
  show (cfg2.win 3).cut (grid2.coords t) ((dat (F := Ideal) V c).after 3 t) = _
  rw [after_3]
  funext y
  obtain ⟨p, q, rfl⟩ : ∃ (p q : Fin 512), (y : S512x512.Idx) = ix2 p q := ⟨y 0, y 1, eq_ix2 y⟩
  rw [View.read_apply]
  have hI : ((((cfg2.win 3).blk t).view.emb (ix2 p q) : S4096x4096.Idx) 0).val = 512 * (t.val / 64) + p.val := by
    show win2_3.index t (0 : Fin 2) * 512 + 1 * p.val = _
    rw [e0]; omega
  have hJ : ((((cfg2.win 3).blk t).view.emb (ix2 p q) : S4096x4096.Idx) 1).val = 512 * (t.val / 8 % 8) + q.val := by
    show win2_3.index t (1 : Fin 2) * 512 + 1 * q.val = _
    rw [e1]; omega
  refine (pay3_apply (acc V c t.val t.isLt) (iblk V c 2 t) p q).trans ?_
  refine (congrArg₂ (· + ·) (acc_last V c t h7 p q _ _ hI hJ) (blk2_apply V c t q _ hJ)).trans ?_
  rfl

/-- Every index of the output array lies in the block of the last point of its tile. -/
theorem cover (i : S4096x4096.Idx) :
    ∃ t : Fin cfg2.N, (cfg2.win 3).flush t = true ∧ i ∈ ((cfg2.win 3).blk t).view.set := by
  have hN : cfg2.N = 512 := N_2
  have h0 : (i 0).val < 4096 := (i 0).isLt
  have h1 : (i 1).val < 4096 := (i 1).isLt
  obtain ⟨t, ht⟩ : ∃ t : Fin cfg2.N, t.val = ((i 0).val / 512 * 8 + (i 1).val / 512) * 8 + 7 :=
    ⟨⟨((i 0).val / 512 * 8 + (i 1).val / 512) * 8 + 7, by rw [hN]; omega⟩, rfl⟩
  obtain ⟨-, -, -, -, -, -, e0, e1⟩ := idx_facts t
  refine ⟨t, (flush2_3 t).mpr (by rw [ht]; omega), ?_⟩
  show i ∈ ((View.whole main_v9).slice (win2_3.rect t)).set
  rw [View.set_slice_whole, Rect.mem_set_unit]
  intro a
  match a with
  | ⟨0, _⟩ =>
    show win2_3.index t (0 : Fin 2) * 512 ≤ (i 0).val ∧ (i 0).val < win2_3.index t (0 : Fin 2) * 512 + 512
    rw [e0, ht]; omega
  | ⟨1, _⟩ =>
    show win2_3.index t (1 : Fin 2) * 512 ≤ (i 1).val ∧ (i 1).val < win2_3.index t (1 : Fin 2) * 512 + 512
    rw [e1, ht]; omega

omit V in
/-- After region 2 its output array holds, index by index, the product of the two arrays it was entered with, the second
    transposed, plus the bias row. -/
theorem final (V : (c : Dev nD) → (b : Ref sig .tc) → Buf (Elt Ideal) ((c : Thread nD τ).loc b)) (c : Dev nD) :
    (dat (F := Ideal) V c).arrAt 3 cfg2.N = Cert.Spec.projOf (V c main_v8) (V c main_v5) (V c main_v6) :=
  (dat (F := Ideal) V c).arrAt_eq_of_cover 3 (G V c) (flushed_eq V c) cover

end Cert.KernelIdeal.Proj

end
-- ==== Proof.Ideal.KernelValue.lean ====
import proofs.«156051_j65481071410654_1_alg».proof.Proof.Ideal.Run
import proofs.«156051_j65481071410654_1_alg».proof.Proof.Ideal.GramValue
import proofs.«156051_j65481071410654_1_alg».proof.Proof.Ideal.MixValue
import proofs.«156051_j65481071410654_1_alg».proof.Proof.Ideal.ProjValue
import proofs.«156051_j65481071410654_1_alg».proof.Proof.Spec
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! The kernel program's result as a function of its four arguments, at the extended reals: the three regions'
    results composed, over what the host operations before them compute — the rows' squared norms as a column and as a
    row, the input and the output weights narrowed (the identity here), the bias as a row. -/

/-- The rows' sums before either reshape: the zero word plus the sum of the squares along the row is the squared norm. -/
private theorem rowSum_apply (x : Cert.Spec.Mat.Idx → EReal) (i : Fin 4096) :
    Host.reduceAdd (F := Ideal) (mulf (F := Ideal) (φ := .f32) x x) (constant (F := Ideal) S_ .f32 0x00000000#32) reducesTo_S4096x4096_S4096_d1 h_S_ (ValueIdx.ix1 i)
      = Cert.Spec.sq x i := by
  simp only [Host.reduceAdd, Ideal.hostReduceAdd_def]
  rw [Ideal.hostReduceAdd_single reducesTo_S4096x4096_S4096_d1 (by decide)]
  show Ideal.ofBits .f32 0x00000000#32 + _ = _
  rw [Ideal.ofBits_zero_f32, zero_add]
  unfold Cert.Spec.sq
  refine Finset.sum_congr rfl fun k _ => ?_
  show x _ * x _ = _
  -- the index the sum inserts at position k of row i is (i, k)
  have e : ((by decide : Shape.Reduces S4096x4096 [1] S4096).lift (ValueIdx.ix1 i) k) = ValueIdx.ix2 i k :=
    funext fun a => Fin.ext (by match a with | ⟨0, _⟩ => rfl | ⟨1, _⟩ => rfl)
  rw [e]
  rfl

/-- What the host stretch leaves in the buffers the regions read, index by index. -/
theorem V1_main_v4 (m : (ℓ : Loc nD τ sig) → Buf (Elt Ideal) ℓ) (c : Dev nD) :
    (Run.V1 m c main_v4 : Cert.Spec.Mat.Idx → EReal) = m ((c.tc : Thread nD τ).loc main_arg0) := by
  -- the narrowing of the input is the identity at the extended reals
  show StableHlo.after hostOps0 _ (Proc.devRef .tc main_v4) = _
  after_results
  rfl
theorem V1_main_v5 (m : (ℓ : Loc nD τ sig) → Buf (Elt Ideal) ℓ) (c : Dev nD) :
    (Run.V1 m c main_v5 : Cert.Spec.Mat.Idx → EReal) = m ((c.tc : Thread nD τ).loc main_arg2) := by
  -- and so is the narrowing of the output weights
  show StableHlo.after hostOps0 _ (Proc.devRef .tc main_v5) = _
  after_results
  rfl
theorem V1_main_v2 (m : (ℓ : Loc nD τ sig) → Buf (Elt Ideal) ℓ) (c : Dev nD) :
    (Run.V1 m c main_v2 : Cert.Spec.Col.Idx → EReal) = fun pi => Cert.Spec.sq (m ((c.tc : Thread nD τ).loc main_arg0)) (pi 0) := by
  have e : (Run.V1 m c main_v2 : Cert.Spec.Col.Idx → EReal)
      = shapeCast S4096x1 (Host.reduceAdd (F := Ideal) (mulf (F := Ideal) (φ := .f32) (m ((c.tc : Thread nD τ).loc main_arg0)) (m ((c.tc : Thread nD τ).loc main_arg0))) (constant (F := Ideal) S_ .f32 0x00000000#32) reducesTo_S4096x4096_S4096_d1 h_S_) shapeCasts_S4096_S4096x1 := by
    show StableHlo.after hostOps0 _ (Proc.devRef .tc main_v2) = _
    after_results
    rfl
  rw [e]
  funext pi
  -- the column's entry (p, 0) sits at row-major position p, the position of entry p of the sums
  rw [shapeCast_apply _ shapeCasts_S4096_S4096x1 pi (ValueIdx.ix1 (pi 0)) (by
    rw [Shape.rowMajor_val_two, Shape.rowMajor_val_one]
    have h1 : (pi 1).val < 1 := (pi 1).isLt
    show (pi 0).val = (pi 0).val * 1 + (pi 1).val
    omega)]
  exact rowSum_apply _ _
theorem V1_main_v3 (m : (ℓ : Loc nD τ sig) → Buf (Elt Ideal) ℓ) (c : Dev nD) :
    (Run.V1 m c main_v3 : Cert.Spec.Row.Idx → EReal) = fun ri => Cert.Spec.sq (m ((c.tc : Thread nD τ).loc main_arg0)) (ri 1) := by
  have e : (Run.V1 m c main_v3 : Cert.Spec.Row.Idx → EReal)
      = shapeCast S1x4096 (Host.reduceAdd (F := Ideal) (mulf (F := Ideal) (φ := .f32) (m ((c.tc : Thread nD τ).loc main_arg0)) (m ((c.tc : Thread nD τ).loc main_arg0))) (constant (F := Ideal) S_ .f32 0x00000000#32) reducesTo_S4096x4096_S4096_d1 h_S_) shapeCasts_S4096_S1x4096 := by
    show StableHlo.after hostOps0 _ (Proc.devRef .tc main_v3) = _
    after_results
    rfl
  rw [e]
  funext ri
  -- the row's entry (0, q) sits at row-major position q, the position of entry q of the sums
  rw [shapeCast_apply _ shapeCasts_S4096_S1x4096 ri (ValueIdx.ix1 (ri 1)) (by
    rw [Shape.rowMajor_val_two, Shape.rowMajor_val_one]
    have h0 : (ri 0).val < 1 := (ri 0).isLt
    show (ri 1).val = (ri 0).val * 4096 + (ri 1).val
    omega)]
  exact rowSum_apply _ _
theorem V1_main_v6 (m : (ℓ : Loc nD τ sig) → Buf (Elt Ideal) ℓ) (c : Dev nD) :
    (Run.V1 m c main_v6 : Cert.Spec.Row.Idx → EReal) = fun ri => (m ((c.tc : Thread nD τ).loc main_arg3) : Cert.Spec.Vec1.Idx → EReal) (ValueIdx.ix1 (ri 1)) := by
  have e : (Run.V1 m c main_v6 : Cert.Spec.Row.Idx → EReal)
      = shapeCast S1x4096 (m ((c.tc : Thread nD τ).loc main_arg3) : Cert.Spec.Vec1.Idx → EReal) shapeCasts_S4096_S1x4096 := by
    show StableHlo.after hostOps0 _ (Proc.devRef .tc main_v6) = _
    after_results
    rfl
  rw [e]
  funext ri
  -- the bias row's entry (0, q) sits at row-major position q, the position of entry q of the bias
  exact shapeCast_apply _ shapeCasts_S4096_S1x4096 ri (ValueIdx.ix1 (ri 1)) (by
    rw [Shape.rowMajor_val_two, Shape.rowMajor_val_one]
    have h0 : (ri 0).val < 1 := (ri 0).isLt
    show (ri 1).val = (ri 0).val * 4096 + (ri 1).val
    omega)
theorem V1_main_arg1 (m : (ℓ : Loc nD τ sig) → Buf (Elt Ideal) ℓ) (c : Dev nD) :
    Run.V1 m c main_arg1 = m ((c.tc : Thread nD τ).loc main_arg1) :=
  -- no host operation writes the weights
  Gen.V1_of m c main_arg1 (by decide)

/-- The result array after the run is the specification's function of the four arguments. -/
theorem result (m : (ℓ : Loc nD τ sig) → Buf (Elt Ideal) ℓ) (c : Dev nD) :
    (Proj.dat (F := Ideal) (Run.V3 m) c).arrAt 3 cfg2.N
      = Cert.Spec.out (m ((c.tc : Thread nD τ).loc main_arg0)) (m ((c.tc : Thread nD τ).loc main_arg1))
          (m ((c.tc : Thread nD τ).loc main_arg2)) (m ((c.tc : Thread nD τ).loc main_arg3)) := by
  -- region 2: the product of region 1's result with the transposed output weights, plus the bias row
  rw [Proj.final (Run.V3 m) c, Run.V3_main_v8 m c, Run.V3_of_ne m c main_v5 (by decide), Run.V3_of_ne m c main_v6 (by decide)]
  -- region 1: the product of region 0's result with the narrowed input
  rw [Mix.final (Run.V2 m) c, Run.V2_main_v7 m c, Run.V2_of_ne m c main_v4 (by decide), Run.V2_of_ne m c main_v5 (by decide),
    Run.V2_of_ne m c main_v6 (by decide)]
  -- region 0: the radial-kernel matrix of what the host stretch left
  rw [Gram.final (Run.V1 m) c, V1_main_v4, V1_main_v5, V1_main_v2, V1_main_v3, V1_main_v6, V1_main_arg1]
  rfl

end Cert.KernelIdeal.KValue

end
-- ==== Proof.RefValue.lean ====
import proofs.«156051_j65481071410654_1_alg».proof.Defs
import proofs.«156051_j65481071410654_1_alg».proof.Proof.Gen.ReferenceIdeal.Run
import proofs.«156051_j65481071410654_1_alg».proof.Proof.Gen.ReferenceIdeal.Read
import proofs.«156051_j65481071410654_1_alg».proof.Proof.Spec
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen Cert.ReferenceIdeal.Value
open Idealize.ShloMosaic.ValueIdx

/-! The reference program's result, at the extended reals, is the specification's function of its four arguments: the
    same formulas, read one host operation at a time. -/

/-- The contents of a 4096×4096 array of extended reals. -/
private abbrev MatC : Type := (⟨S4096x4096, .f32⟩ : BufTy).Contents (Elt Ideal)

/-! ## The composed index maps, by coordinates -/

/-- Row `p` of the reduced axis at position `k` is the matrix index `(p, k)`. -/
private theorem idx_row (p k : Fin 4096) : Read.idx_main_v1 (ix1 p) k = ix2 p k :=
  funext fun a => Fin.ext (by match a with | ⟨0, _⟩ => rfl | ⟨1, _⟩ => rfl)

/-- The column of squared norms broadcast along the second axis reads the norm of the first coordinate. -/
private theorem idx_col (p q : Fin 4096) : Read.idx_main_v2 (Read.idx_main_v4 (ix2 p q)) = ix1 p :=
  funext fun a => Fin.ext (by match a with | ⟨0, _⟩ => rfl)

/-- The row of squared norms broadcast along the first axis reads the norm of the second coordinate. -/
private theorem idx_rowvec (p q : Fin 4096) : Read.idx_main_v3 (Read.idx_main_v5 (ix2 p q)) = ix1 q :=
  funext fun a => Fin.ext (by match a with | ⟨0, _⟩ => rfl)

/-- The left operand of the inner-product matrix at `(p, q)`, position `k`: `(p, k)`. -/
private theorem lidx_inner (p q k : Fin 4096) : Read.lidx_main_v8 (ix2 p q) k = ix2 p k :=
  funext fun a => Fin.ext (by match a with | ⟨0, _⟩ => rfl | ⟨1, _⟩ => rfl)

/-- The right operand is the transpose, so at `(p, q)`, position `k`, it reads `(q, k)`. -/
private theorem ridx_inner (p q k : Fin 4096) : Read.idx_main_v7 (Read.ridx_main_v8 (ix2 p q) k) = ix2 q k :=
  funext fun a => Fin.ext (by match a with | ⟨0, _⟩ => rfl | ⟨1, _⟩ => rfl)

/-- The kernel matrix in the mixing product at `(p, f)`, position `j`: `(p, j)`. -/
private theorem lidx_mix (p f j : Fin 4096) : Read.lidx_main_v25 (ix2 p f) j = ix2 p j :=
  funext fun a => Fin.ext (by match a with | ⟨0, _⟩ => rfl | ⟨1, _⟩ => rfl)

/-- The rows in the mixing product at `(p, f)`, position `j`: `(j, f)`. -/
private theorem ridx_mix (p f j : Fin 4096) : Read.ridx_main_v25 (ix2 p f) j = ix2 j f :=
  funext fun a => Fin.ext (by match a with | ⟨0, _⟩ => rfl | ⟨1, _⟩ => rfl)

/-- The mixed rows in the projection at `(p, o)`, position `f`: `(p, f)`. -/
private theorem lidx_proj (p o f : Fin 4096) : Read.lidx_main_v27 (ix2 p o) f = ix2 p f :=
  funext fun a => Fin.ext (by match a with | ⟨0, _⟩ => rfl | ⟨1, _⟩ => rfl)

/-- The output weights enter transposed: at `(p, o)`, position `f`, they read `(o, f)`. -/
private theorem ridx_proj (p o f : Fin 4096) : Read.idx_main_v26 (Read.ridx_main_v27 (ix2 p o) f) = ix2 o f :=
  funext fun a => Fin.ext (by match a with | ⟨0, _⟩ => rfl | ⟨1, _⟩ => rfl)

/-- The bias broadcast to a row and then along the first axis reads its entry at the second coordinate. -/
private theorem idx_bias (p o : Fin 4096) : Read.idx_main_v28 (Read.idx_main_v29 (ix2 p o)) = ix1 o :=
  funext fun a => Fin.ext (by match a with | ⟨0, _⟩ => rfl)

/-! ## The stages -/

/-- The sums of squares along the rows are the squared norms (the sum starts from the zero word, which is 0). -/
theorem sqnorm_eq (x : MatC) (p : Fin 4096) : Read.val_main_v1 (F := Ideal) x (ix1 p) = Cert.Spec.sq x p := by
  rw [Read.val_main_v1_apply, Read.val_main_cst_apply, Ideal.ofBits_def, Ideal.ofBits_zero_f32, zero_add]
  unfold Cert.Spec.sq
  refine Finset.sum_congr rfl fun k _ => ?_
  rw [Read.val_main_v0_apply, idx_row, Ideal.mulf_def]

/-- The sum of the broadcast column and the broadcast row of squared norms at `(p, q)`. -/
theorem normsum_eq (x : MatC) (p q : Fin 4096) :
    Read.val_main_v6 (F := Ideal) x (ix2 p q) = Cert.Spec.sq x p + Cert.Spec.sq x q := by
  rw [Read.val_main_v6_apply, Read.val_main_v4_apply, Read.val_main_v2_apply, Read.val_main_v5_apply,
    Read.val_main_v3_apply, idx_col, idx_rowvec, sqnorm_eq, sqnorm_eq, Ideal.addf_def]

/-- The product of the rows with their transpose at `(p, q)` is the inner product of rows `p` and `q`. -/
theorem inner_eq (x : MatC) (p q : Fin 4096) :
    Read.val_main_v8 (F := Ideal) x (ix2 p q) = ∑ k : Fin 4096, x (ix2 p k) * x (ix2 q k) := by
  rw [Read.val_main_v8_apply]
  refine Finset.sum_congr rfl fun k _ => ?_
  rw [Read.val_main_v7_apply, lidx_inner, ridx_inner]

/-- The clamped squared distance: max (|xₚ|² + |x_q|² − 2·⟨xₚ, x_q⟩) 0. -/
theorem d2_eq (x : MatC) (p q : Fin 4096) :
    Read.val_main_v13 (F := Ideal) x (ix2 p q)
      = max ((Cert.Spec.sq x p + Cert.Spec.sq x q) - Cert.Spec.two * ∑ k : Fin 4096, x (ix2 p k) * x (ix2 q k))
          Cert.Spec.zero := by
  rw [Read.val_main_v13_apply, Read.val_main_v11_apply, Read.val_main_v10_apply, Read.val_main_v9_apply,
    Read.val_main_cst_0_apply, Read.val_main_v12_apply, Read.val_main_cst_1_apply, normsum_eq, inner_eq]
  rfl

/-- The distance of rows `p` and `q`: the guarded square root of the clamped squared distance. -/
theorem dist_eq (x : MatC) (p q : Fin 4096) :
    Read.val_main_v20 (F := Ideal) x (ix2 p q)
      = Cert.Spec.dist (Cert.Spec.sq x p) (Cert.Spec.sq x q) (∑ k : Fin 4096, x (ix2 p k) * x (ix2 q k)) := by
  rw [Read.val_main_v20_apply, Read.val_main_v19_apply, Read.val_main_v17_apply, Read.val_main_v16_apply,
    Read.val_main_v15_apply, Read.val_main_v14_apply, Read.val_main_cst_2_apply, Read.val_main_v18_apply,
    Read.val_main_cst_4_apply, Read.val_main_call0_v1_apply, Read.val_main_call0_v0_apply, Read.val_main_cst_3_apply,
    Read.val_main_call1_v1_apply, Read.val_main_call1_v0_apply, Read.val_main_cst_5_apply, d2_eq]
  rfl

/-- The radial-kernel matrix at `(p, q)`: exp (−|w p q| · dist p q). -/
theorem gram_eq (x w : MatC) (p q : Fin 4096) :
    Read.val_main_v24 (F := Ideal) x w (ix2 p q)
      = Cert.Spec.gramAt x w (fun pi => Cert.Spec.sq x (pi 0)) (fun ri => Cert.Spec.sq x (ri 1)) p q := by
  rw [Read.val_main_v24_apply, Read.val_main_v23_apply, Read.val_main_v22_apply, Read.val_main_v21_apply, dist_eq]
  rfl

/-- The kernel matrix times the rows at `(p, f)`. -/
theorem mix_eq (x w : MatC) (p f : Fin 4096) :
    Read.val_main_v25 (F := Ideal) x w (ix2 p f)
      = Cert.Spec.mixAt (Cert.Spec.gramOf x w (fun pi => Cert.Spec.sq x (pi 0)) (fun ri => Cert.Spec.sq x (ri 1))) x p f := by
  rw [Read.val_main_v25_apply]
  unfold Cert.Spec.mixAt
  refine Finset.sum_congr rfl fun j _ => ?_
  rw [lidx_mix, ridx_mix, gram_eq]
  rfl

/-- The reference's result term is the specification, index by index. -/
theorem ref_is_spec (x w v : (⟨S4096x4096, .f32⟩ : BufTy).Contents (Elt Ideal)) (b : (⟨S4096, .f32⟩ : BufTy).Contents (Elt Ideal)) :
    Cert.ReferenceIdeal.Read.val_main_v30 (F := Ideal) x w v b = Cert.Spec.out x w v b := by
  funext i
  obtain ⟨p, o, rfl⟩ : ∃ (p o : Fin 4096), i = ix2 p o := ⟨i 0, i 1, eq_ix2 i⟩
  -- The mixed rows times the transposed output weights, plus the bias row.
  rw [Read.val_main_v30_apply, Read.val_main_v27_apply, Read.val_main_v29_apply, Read.val_main_v28_apply, idx_bias,
    Ideal.addf_def]
  show _ = Cert.Spec.projAt _ v (fun ri => b (ix1 (ri 1))) p o
  unfold Cert.Spec.projAt
  refine congrArg (· + _) (Finset.sum_congr rfl fun f _ => ?_)
  rw [Read.val_main_v26_apply, lidx_proj, ridx_proj, mix_eq]
  rfl

end Cert.ReferenceIdeal.RefValue

end
-- ==== Proof.lean ====
import proofs.«156051_j65481071410654_1_alg».proof.Defs
import proofs.«156051_j65481071410654_1_alg».proof.Proof.Gen.Kernel
import proofs.«156051_j65481071410654_1_alg».proof.Proof.Gen.KernelIdeal
import proofs.«156051_j65481071410654_1_alg».proof.Proof.Gen.ReferenceIdeal
import proofs.«156051_j65481071410654_1_alg».proof.Proof.Gen.Pre_finite_inputs
import proofs.«156051_j65481071410654_1_alg».proof.Proof.Gen.ReferenceIdeal.Run
import proofs.«156051_j65481071410654_1_alg».proof.Proof.Gen.ReferenceIdeal.Read
import proofs.«156051_j65481071410654_1_alg».proof.Proof.Bits.Run
import proofs.«156051_j65481071410654_1_alg».proof.Proof.Ideal.Run
import proofs.«156051_j65481071410654_1_alg».proof.Proof.Ideal.KernelValue
import proofs.«156051_j65481071410654_1_alg».proof.Proof.RefValue
import Idealize.ShloMosaic.Adequacy
import Idealize.ShloMosaic.Init

/-! The kernel computes  out = (exp (−|W| ∘ dist x) · x) · Vᵀ + b  in three pipelined regions, each a 4096×4096 by
    4096×4096 product accumulated in eight blocks of 512 along the contracted axis into a scratch accumulator, with the
    pairwise distances, the radial kernel and the bias applied where the last block has been added; the reference
    computes the same with three whole products. Over the extended reals the two are one function of the four
    arguments: a contraction over 4096 indices is the sum of its eight blocks' contractions (addition of extended reals
    is associative and commutative, infinities included, so no finiteness is used), a change of float format is the
    identity, and 0 − a = −a. The frames: each region's body meets its proof data at every grid point in its three
    control cases (accumulator reset / accumulated / accumulated and the output block stored), and the three regions
    run in a row after the host operations; nothing writes an argument. -/

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Run.frame (F := Bits) m ρ

/-- So does the kernel read over the extended reals. -/
theorem frame_kernelIdeal : Cert.frame_KernelIdeal := fun m ρ _ => Cert.KernelIdeal.Run.frame (F := Ideal) m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification's function of the four arguments in their result arrays. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.KValue.result m c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v30_eq, Cert.ReferenceIdeal.RefValue.ref_is_spec,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
